-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1000000x4 : Shape := ⟨3, ![1, 1000000, 4]⟩
abbrev S1x1000000x2 : Shape := ⟨3, ![1, 1000000, 2]⟩
abbrev S1x1000000 : Shape := ⟨2, ![1, 1000000]⟩
abbrev S1x500000 : Shape := ⟨2, ![1, 500000]⟩
abbrev S_ : Shape := ⟨0, ![]⟩

class Facts : Prop where
  bcast_S_S1x1000000x4 : S_.BroadcastsInDim S1x1000000x4 (![] : Fin 0 → Fin S1x1000000x4.rank)
  reducesTo_S1x1000000x4_S_d0_1_2 : S1x1000000x4.ReducesTo [0, 1, 2] S_
  h_S_ : 0 < S_.numel
  bcast_S_S1x1000000x2 : S_.BroadcastsInDim S1x1000000x2 (![] : Fin 0 → Fin S1x1000000x2.rank)
  reducesTo_S1x1000000x2_S_d0_1_2 : S1x1000000x2.ReducesTo [0, 1, 2] S_
  bcast_S_S1x1000000 : S_.BroadcastsInDim S1x1000000 (![] : Fin 0 → Fin S1x1000000.rank)
  reducesTo_S1x1000000_S_d0_1 : S1x1000000.ReducesTo [0, 1] S_
  bcast_S_S1x500000 : S_.BroadcastsInDim S1x500000 (![] : Fin 0 → Fin S1x500000.rank)
  reducesTo_S1x500000_S_d0_1 : S1x500000.ReducesTo [0, 1] S_

variable [Facts]

def fn_part2 {F : FTy → Type} [FloatOps F] (main_v30 : IVec S_ 1) (main_v32 : IVec S1x500000 1) : IVec S_ 1 :=
  let main_c_13 : IVec S_ 1 := constantI S_ 1 1#1
  let main_v33 : IVec S_ 1 := (fun x v => Host.reduce IntOp.andi x v reducesTo_S1x500000_S_d0_1 h_S_) main_v32 main_c_13
  let main_v34 : IVec S_ 1 := andi main_v30 main_v33
  main_v34

def fn_part1 {F : FTy → Type} [FloatOps F] (main_arg4 : IVec S1x1000000 32) (main_arg5 : IVec S1x500000 32) (main_v13 : IVec S_ 1) (main_v16 : IVec S1x1000000x4 1) : IVec S_ 1 :=
  let main_c_5 : IVec S_ 1 := constantI S_ 1 1#1
  let main_v17 : IVec S_ 1 := (fun x v => Host.reduce IntOp.andi x v reducesTo_S1x1000000x4_S_d0_1_2 h_S_) main_v16 main_c_5
  let main_v18 : IVec S_ 1 := andi main_v13 main_v17
  let main_c_6 : IVec S_ 32 := constantI S_ 32 0#32
  let main_v19 : IVec S1x1000000 32 := broadcastInDim S1x1000000 ![] bcast_S_S1x1000000 main_c_6
  let main_v20 : IVec S1x1000000 1 := cmpi .sge main_arg4 main_v19
  let main_c_7 : IVec S_ 1 := constantI S_ 1 1#1
  let main_v21 : IVec S_ 1 := (fun x v => Host.reduce IntOp.andi x v reducesTo_S1x1000000_S_d0_1 h_S_) main_v20 main_c_7
  let main_v22 : IVec S_ 1 := andi main_v18 main_v21
  let main_c_8 : IVec S_ 32 := constantI S_ 32 2#32
  let main_v23 : IVec S1x1000000 32 := broadcastInDim S1x1000000 ![] bcast_S_S1x1000000 main_c_8
  let main_v24 : IVec S1x1000000 1 := cmpi .slt main_arg4 main_v23
  let main_c_9 : IVec S_ 1 := constantI S_ 1 1#1
  let main_v25 : IVec S_ 1 := (fun x v => Host.reduce IntOp.andi x v reducesTo_S1x1000000_S_d0_1 h_S_) main_v24 main_c_9
  let main_v26 : IVec S_ 1 := andi main_v22 main_v25
  let main_c_10 : IVec S_ 32 := constantI S_ 32 0#32
  let main_v27 : IVec S1x500000 32 := broadcastInDim S1x500000 ![] bcast_S_S1x500000 main_c_10
  let main_v28 : IVec S1x500000 1 := cmpi .sge main_arg5 main_v27
  let main_c_11 : IVec S_ 1 := constantI S_ 1 1#1
  let main_v29 : IVec S_ 1 := (fun x v => Host.reduce IntOp.andi x v reducesTo_S1x500000_S_d0_1 h_S_) main_v28 main_c_11
  let main_v30 : IVec S_ 1 := andi main_v26 main_v29
  let main_c_12 : IVec S_ 32 := constantI S_ 32 1000000#32
  let main_v31 : IVec S1x500000 32 := broadcastInDim S1x500000 ![] bcast_S_S1x500000 main_c_12
  let main_v32 : IVec S1x500000 1 := cmpi .slt main_arg5 main_v31
  fn_part2 (F := F) main_v30 main_v32

def fn {F : FTy → Type} [FloatOps F] (main_arg0 : FVec F S1x1000000x4 .f32) (main_arg1 : FVec F S1x1000000x4 .f32) (main_arg2 : FVec F S1x1000000x2 .f32) (main_arg3 : FVec F S1x1000000x4 .f32) (main_arg4 : IVec S1x1000000 32) (main_arg5 : IVec S1x500000 32) : IVec S_ 1 :=
  let main_v0 : FVec F S1x1000000x4 .f32 := Host.absf main_arg0
  let main_cst : FVec F S_ .f32 := constant S_ .f32 0x7F800000#32
  let main_v1 : FVec F S1x1000000x4 .f32 := broadcastInDim S1x1000000x4 ![] bcast_S_S1x1000000x4 main_cst
  let main_v2 : IVec S1x1000000x4 1 := cmpf .olt main_v0 main_v1
  let main_c : IVec S_ 1 := constantI S_ 1 1#1
  let main_v3 : IVec S_ 1 := (fun x v => Host.reduce IntOp.andi x v reducesTo_S1x1000000x4_S_d0_1_2 h_S_) main_v2 main_c
  let main_v4 : FVec F S1x1000000x4 .f32 := Host.absf main_arg1
  let main_cst_0 : FVec F S_ .f32 := constant S_ .f32 0x7F800000#32
  let main_v5 : FVec F S1x1000000x4 .f32 := broadcastInDim S1x1000000x4 ![] bcast_S_S1x1000000x4 main_cst_0
  let main_v6 : IVec S1x1000000x4 1 := cmpf .olt main_v4 main_v5
  let main_c_1 : IVec S_ 1 := constantI S_ 1 1#1
  let main_v7 : IVec S_ 1 := (fun x v => Host.reduce IntOp.andi x v reducesTo_S1x1000000x4_S_d0_1_2 h_S_) main_v6 main_c_1
  let main_v8 : IVec S_ 1 := andi main_v3 main_v7
  let main_v9 : FVec F S1x1000000x2 .f32 := Host.absf main_arg2
  let main_cst_2 : FVec F S_ .f32 := constant S_ .f32 0x7F800000#32
  let main_v10 : FVec F S1x1000000x2 .f32 := broadcastInDim S1x1000000x2 ![] bcast_S_S1x1000000x2 main_cst_2
  let main_v11 : IVec S1x1000000x2 1 := cmpf .olt main_v9 main_v10
  let main_c_3 : IVec S_ 1 := constantI S_ 1 1#1
  let main_v12 : IVec S_ 1 := (fun x v => Host.reduce IntOp.andi x v reducesTo_S1x1000000x2_S_d0_1_2 h_S_) main_v11 main_c_3
  let main_v13 : IVec S_ 1 := andi main_v8 main_v12
  let main_v14 : FVec F S1x1000000x4 .f32 := Host.absf main_arg3
  let main_cst_4 : FVec F S_ .f32 := constant S_ .f32 0x7F800000#32
  let main_v15 : FVec F S1x1000000x4 .f32 := broadcastInDim S1x1000000x4 ![] bcast_S_S1x1000000x4 main_cst_4
  let main_v16 : IVec S1x1000000x4 1 := cmpf .olt main_v14 main_v15
  fn_part1 (F := F) main_arg4 main_arg5 main_v13 main_v16
-- ==== Kernel.lean ====
abbrev S1x1000000x4 : Shape := ⟨3, ![1, 1000000, 4]⟩
abbrev S1x1000000x2 : Shape := ⟨3, ![1, 1000000, 2]⟩
abbrev S1x1000000 : Shape := ⟨2, ![1, 1000000]⟩
abbrev S1x500000 : Shape := ⟨2, ![1, 500000]⟩
abbrev S500000 : Shape := ⟨1, ![500000]⟩
abbrev S_ : Shape := ⟨0, ![]⟩
abbrev S1000000 : Shape := ⟨1, ![1000000]⟩
abbrev S500000x1 : Shape := ⟨2, ![500000, 1]⟩
abbrev S1000000x4 : Shape := ⟨2, ![1000000, 4]⟩
abbrev S1000000x2 : Shape := ⟨2, ![1000000, 2]⟩
abbrev S1000000x1 : Shape := ⟨2, ![1000000, 1]⟩
abbrev S2x8x128 : Shape := ⟨3, ![2, 8, 128]⟩
abbrev S2000x4 : Shape := ⟨2, ![2000, 4]⟩
abbrev S2000x2 : Shape := ⟨2, ![2000, 2]⟩
abbrev S2000x1 : Shape := ⟨2, ![2000, 1]⟩
abbrev S1x8x128 : Shape := ⟨3, ![1, 8, 128]⟩
abbrev S8x128 : Shape := ⟨2, ![8, 128]⟩
abbrev S2000 : Shape := ⟨1, ![2000]⟩
abbrev S1 : Shape := ⟨1, ![1]⟩
abbrev S1x1 : Shape := ⟨2, ![1, 1]⟩
abbrev S1x5 : Shape := ⟨2, ![1, 5]⟩
abbrev S1x123 : Shape := ⟨2, ![1, 123]⟩
abbrev S1x128 : Shape := ⟨2, ![1, 128]⟩
abbrev S7x128 : Shape := ⟨2, ![7, 128]⟩
abbrev S5 : Shape := ⟨1, ![5]⟩

abbrev nBuf : Space → Nat
  | .hbm => 59
  | .vmem => 14
  | .smem => 0
  | _ => 0

abbrev bufTy : (tb : Table) → Fin (tcTables nBuf tb) → BufTy
  | .hbm, ⟨0, _⟩ => ⟨S1x1000000x4, .f32⟩
  | .hbm, ⟨1, _⟩ => ⟨S1x1000000x4, .f32⟩
  | .hbm, ⟨2, _⟩ => ⟨S1x1000000x2, .f32⟩
  | .hbm, ⟨3, _⟩ => ⟨S1x1000000x4, .f32⟩
  | .hbm, ⟨4, _⟩ => ⟨S1x1000000, .i32⟩
  | .hbm, ⟨5, _⟩ => ⟨S1x500000, .i32⟩
  | .hbm, ⟨6, _⟩ => ⟨S500000, .i32⟩
  | .hbm, ⟨7, _⟩ => ⟨S_, .f32⟩
  | .hbm, ⟨8, _⟩ => ⟨S1000000, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S_, .f32⟩
  | .hbm, ⟨18, _⟩ => ⟨S500000, .f32⟩
  | .hbm, ⟨19, _⟩ => ⟨S1000000, .f32⟩
  | .hbm, ⟨20, _⟩ => ⟨S1000000x4, .f32⟩
  | .hbm, ⟨21, _⟩ => ⟨S1000000x4, .f32⟩
  | .hbm, ⟨22, _⟩ => ⟨S1000000x2, .f32⟩
  | .hbm, ⟨23, _⟩ => ⟨S1000000x4, .f32⟩
  | .hbm, ⟨24, _⟩ => ⟨S1000000, .i32⟩
  | .hbm, ⟨25, _⟩ => ⟨S1000000x1, .i32⟩
  | .hbm, ⟨26, _⟩ => ⟨S1000000x1, .f32⟩
  | .hbm, ⟨27, _⟩ => ⟨S2x8x128, .f32⟩
  | .hbm, ⟨28, _⟩ => ⟨S_, .f32⟩
  | .hbm, ⟨29, _⟩ => ⟨S8x128, .f32⟩
  | .hbm, ⟨30, _⟩ => ⟨S1x5, .f32⟩
  | .hbm, ⟨31, _⟩ => ⟨S5, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .i1⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S2000x4, .f32⟩
  | .local _ .vmem, ⟨1, _⟩ => ⟨S2000x4, .f32⟩
  | .local _ .vmem, ⟨2, _⟩ => ⟨S2000x4, .f32⟩
  | .local _ .vmem, ⟨3, _⟩ => ⟨S2000x4, .f32⟩
  | .local _ .vmem, ⟨4, _⟩ => ⟨S2000x2, .f32⟩
  | .local _ .vmem, ⟨5, _⟩ => ⟨S2000x2, .f32⟩
  | .local _ .vmem, ⟨6, _⟩ => ⟨S2000x4, .f32⟩
  | .local _ .vmem, ⟨7, _⟩ => ⟨S2000x4, .f32⟩
  | .local _ .vmem, ⟨8, _⟩ => ⟨S2000x1, .i32⟩
  | .local _ .vmem, ⟨9, _⟩ => ⟨S2000x1, .i32⟩
  | .local _ .vmem, ⟨10, _⟩ => ⟨S2000x1, .f32⟩
  | .local _ .vmem, ⟨11, _⟩ => ⟨S2000x1, .f32⟩
  | .local _ .vmem, ⟨12, _⟩ => ⟨S1x8x128, .f32⟩
  | .local _ .vmem, ⟨13, _⟩ => ⟨S1x8x128, .f32⟩
  | _, _ => ⟨S1x1000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 250], ![false, false]⟩

def cc0_transform_0 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S1x500000_S500000 : S1x500000.ShapeCasts S500000
  bcast_S_S1000000 : S_.BroadcastsInDim S1000000 (![] : Fin 0 → Fin S1000000.rank)
  bcast_S_S500000 : S_.BroadcastsInDim S500000 (![] : Fin 0 → Fin S500000.rank)
  bcast_S500000_S500000x1_0 : S500000.BroadcastsInDim S500000x1 (![0] : Fin 1 → Fin S500000x1.rank)
  shapeCasts_S1x1000000x4_S1000000x4 : S1x1000000x4.ShapeCasts S1000000x4
  shapeCasts_S1x1000000x2_S1000000x2 : S1x1000000x2.ShapeCasts S1000000x2
  shapeCasts_S1x1000000_S1000000 : S1x1000000.ShapeCasts S1000000
  shapeCasts_S1000000_S1000000x1 : S1000000.ShapeCasts S1000000x1
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S2000x4_S2000x4_0_0 : ∀ a, (![0, 0] : Fin 2 → Nat) a + S2000x4.size a ≤ S2000x4.size a
  h_S2000x4 : 0 < S2000x4.numel
  shapeCasts_S2000x4_S2000x4 : S2000x4.ShapeCasts S2000x4
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  reduces_S2000x4_S2000 : S2000x4.Reduces [1] S2000
  shapeCasts_S2000_S2000x1 : S2000.ShapeCasts S2000x1
  reduces_S2000x2_S2000 : S2000x2.Reduces [1] S2000
  broadcasts_S2000x1_S2000x2 : S2000x1.Broadcasts S2000x2
  slices_S2000x2_o0_0_S2000x1 : S2000x2.Slices ![0, 0] S2000x1
  slices_S2000x2_o0_1_S2000x1 : S2000x2.Slices ![0, 1] S2000x1
  natLt_1_32 : 1 < 32
  reduces_S2000x1_S1 : S2000x1.Reduces [0] S1
  shapeCasts_S1_S1x1 : S1.ShapeCasts S1x1
  concatenates_S1x1_S1x1_S1x1_S1x1_S1x1_S1x5_d1 : Shape.Concatenates [S1x1, S1x1, S1x1, S1x1, S1x1] S1x5 1
  concatenates_S1x5_S1x123_S1x128_d1 : Shape.Concatenates [S1x5, S1x123] S1x128 1
  concatenates_S1x128_S7x128_S8x128_d0 : Shape.Concatenates [S1x128, S7x128] S8x128 0
  reducesTo_S2x8x128_S8x128_d0 : S2x8x128.ReducesTo [0] S8x128
  h_S_ : 0 < S_.numel
  slices_S8x128_S1x5_0_0 : S8x128.Slices ![0, 0] S1x5
  shapeCasts_S1x5_S5 : S1x5.ShapeCasts S5
  slices_S5_S1_0 : S5.Slices ![0] S1
  shapeCasts_S1_S_ : S1.ShapeCasts S_
  slices_S5_S1_1 : S5.Slices ![1] S1
  slices_S5_S1_2 : S5.Slices ![2] S1
  slices_S5_S1_3 : S5.Slices ![3] S1
  slices_S5_S1_4 : S5.Slices ![4] S1
  scatter_S1000000_S500000x1_S500000_n_0_0_1_wf : ScatterDims.WF S1000000 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S1000000x4.size a
  hwx0_0 : ∀ i : grid0.Coords, EltTy.bits .f32 = 32 ∨ (Rect.block (s := S1000000x4) S2000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x4.size a ≤ S1000000x4.size a
  hwx0_1 : ∀ i : grid0.Coords, EltTy.bits .f32 = 32 ∨ (Rect.block (s := S1000000x4) S2000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S1000000x2.size a
  hwx0_2 : ∀ i : grid0.Coords, EltTy.bits .f32 = 32 ∨ (Rect.block (s := S1000000x2) S2000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x4.size a ≤ S1000000x4.size a
  hwx0_3 : ∀ i : grid0.Coords, EltTy.bits .f32 = 32 ∨ (Rect.block (s := S1000000x4) S2000x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S1000000x1.size a
  hwx0_4 : ∀ i : grid0.Coords, EltTy.bits .i32 = 32 ∨ (Rect.block (s := S1000000x1) S2000x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S1000000x1.size a
  hwx0_5 : ∀ i : grid0.Coords, EltTy.bits .f32 = 32 ∨ (Rect.block (s := S1000000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)

variable [Facts₀]

def scatter_S1000000_S500000x1_S500000_n_0_0_1 : ScatterDims S1000000 S500000x1 S500000 where
  updateWindowDims := []
  insertedWindowDims := [0]
  scatterDimsToOperandDims := [0]
  indexVectorDim := 1
  wf := scatter_S1000000_S500000x1_S500000_n_0_0_1_wf

abbrev win0_0 : Pipeline.Window sig grid0 :=
  Pipeline.Window.ofSpec (Memref.whole main_v10) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x1000000x4 : Shape := ⟨3, ![1, 1000000, 4]⟩
abbrev S1x1000000x2 : Shape := ⟨3, ![1, 1000000, 2]⟩
abbrev S1x1000000 : Shape := ⟨2, ![1, 1000000]⟩
abbrev S1x500000 : Shape := ⟨2, ![1, 500000]⟩
abbrev S500000 : Shape := ⟨1, ![500000]⟩
abbrev S1000000 : Shape := ⟨1, ![1000000]⟩
abbrev S_ : Shape := ⟨0, ![]⟩
abbrev S500000x1 : Shape := ⟨2, ![500000, 1]⟩
abbrev S1000000x2 : Shape := ⟨2, ![1000000, 2]⟩
abbrev S500000x2 : Shape := ⟨2, ![500000, 2]⟩
abbrev S500000x1x1 : Shape := ⟨3, ![500000, 1, 1]⟩
abbrev S1 : Shape := ⟨1, ![1]⟩
abbrev S1x1x1 : Shape := ⟨3, ![1, 1, 1]⟩
abbrev S1000000x4 : Shape := ⟨2, ![1000000, 4]⟩
abbrev S500000x4 : Shape := ⟨2, ![500000, 4]⟩

abbrev nBuf : Space → Nat
  | .hbm => 162
  | .vmem => 0
  | .smem => 0
  | _ => 0

abbrev hbmTy0_0 (i : Nat) : BufTy := match i % 128 with
  | 0 => ⟨S1x1000000x4, .f32⟩
  | 1 => ⟨S1x1000000x4, .f32⟩
  | 2 => ⟨S1x1000000x2, .f32⟩
  | 3 => ⟨S1x1000000x4, .f32⟩
  | 4 => ⟨S1x1000000, .i32⟩
  | 5 => ⟨S1x500000, .i32⟩
  | 6 => ⟨S500000, .i32⟩
  | 7 => ⟨S1000000, .i32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S500000x1, .i32⟩
  | 16 => ⟨S500000, .i32⟩
  | 17 => ⟨S1000000x2, .f32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x2, .f32⟩
  | 27 => ⟨S_, .f32⟩
  | 28 => ⟨S500000, .f32⟩
  | 29 => ⟨S_, .f32⟩
  | 30 => ⟨S500000, .f32⟩
  | 31 => ⟨S500000, .f32⟩
  | 32 => ⟨S500000x1, .f32⟩
  | 33 => ⟨S500000x2, .f32⟩
  | 34 => ⟨S500000x2, .f32⟩
  | 35 => ⟨S500000x2, .f32⟩
  | 36 => ⟨S_, .f32⟩
  | 37 => ⟨S500000, .f32⟩
  | 38 => ⟨S500000x1, .f32⟩
  | 39 => ⟨S500000x1, .f32⟩
  | 40 => ⟨S500000x2, .f32⟩
  | 41 => ⟨S500000x2, .f32⟩
  | 42 => ⟨S500000x1, .i32⟩
  | 43 => ⟨S_, .i32⟩
  | 44 => ⟨S500000x1, .i32⟩
  | 45 => ⟨S500000x1, .i1⟩
  | 46 => ⟨S_, .i32⟩
  | 47 => ⟨S500000x1, .i32⟩
  | 48 => ⟨S500000x1, .i32⟩
  | 49 => ⟨S500000x1, .i32⟩
  | 50 => ⟨S500000x1x1, .i32⟩
  | 51 => ⟨S1, .i32⟩
  | 52 => ⟨S_, .i32⟩
  | 53 => ⟨S500000x1x1, .i32⟩
  | 54 => ⟨S500000x1x1, .i1⟩
  | 55 => ⟨S1x1x1, .i32⟩
  | 56 => ⟨S500000x1x1, .i32⟩
  | 57 => ⟨S500000x1x1, .i1⟩
  | 58 => ⟨S500000x1x1, .i1⟩
  | 59 => ⟨S_, .i1⟩
  | 60 => ⟨S500000x1, .i1⟩
  | 61 => ⟨S500000x1, .f32⟩
  | 62 => ⟨S_, .f32⟩
  | 63 => ⟨S500000x1, .f32⟩
  | 64 => ⟨S500000x1, .f32⟩
  | 65 => ⟨S500000, .f32⟩
  | 66 => ⟨S_, .f32⟩
  | 67 => ⟨S_, .f32⟩
  | 68 => ⟨S_, .f32⟩
  | 69 => ⟨S_, .f32⟩
  | 70 => ⟨S_, .f32⟩
  | 71 => ⟨S1000000x4, .f32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S500000x4, .f32⟩
  | 81 => ⟨S1000000x4, .f32⟩
  | 82 => ⟨S_, .i32⟩
  | 83 => ⟨S500000, .i32⟩
  | 84 => ⟨S500000, .i1⟩
  | 85 => ⟨S_, .i32⟩
  | 86 => ⟨S500000, .i32⟩
  | 87 => ⟨S500000, .i32⟩
  | 88 => ⟨S500000, .i32⟩
  | 89 => ⟨S500000x1, .i32⟩
  | 90 => ⟨S500000x4, .f32⟩
  | 91 => ⟨S1000000x4, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000x4, .f32⟩
  | 101 => ⟨S500000x4, .f32⟩
  | 102 => ⟨S_, .f32⟩
  | 103 => ⟨S500000x4, .f32⟩
  | 104 => ⟨S500000x4, .f32⟩
  | 105 => ⟨S500000x4, .f32⟩
  | 106 => ⟨S500000x4, .f32⟩
  | 107 => ⟨S_, .f32⟩
  | 108 => ⟨S500000x4, .f32⟩
  | 109 => ⟨S500000x4, .f32⟩
  | 110 => ⟨S500000x4, .f32⟩
  | 111 => ⟨S500000x4, .f32⟩
  | 112 => ⟨S_, .f32⟩
  | 113 => ⟨S500000x4, .f32⟩
  | 114 => ⟨S500000x4, .f32⟩
  | 115 => ⟨S500000x4, .f32⟩
  | 116 => ⟨S_, .f32⟩
  | 117 => ⟨S500000, .f32⟩
  | 118 => ⟨S_, .f32⟩
  | 119 => ⟨S500000x4, .f32⟩
  | 120 => ⟨S500000x4, .f32⟩
  | 121 => ⟨S_, .f32⟩
  | 122 => ⟨S500000, .f32⟩
  | 123 => ⟨S_, .i32⟩
  | 124 => ⟨S500000, .i32⟩
  | 125 => ⟨S500000, .i1⟩
  | 126 => ⟨S500000, .i32⟩
  | 127 => ⟨S_, .i32⟩
  | _ => ⟨S1x1000000x4, .f32⟩

abbrev hbmTy0_1 (i : Nat) : BufTy := match i % 128 with
  | 0 => ⟨S_, .i32⟩
  | 1 => ⟨S_, .f32⟩
  | 2 => ⟨S500000, .i1⟩
  | 3 => ⟨S500000, .i32⟩
  | 4 => ⟨S_, .i32⟩
  | 5 => ⟨S_, .i32⟩
  | 6 => ⟨S_, .f32⟩
  | 7 => ⟨S_, .f32⟩
  | 8 => ⟨S_, .f32⟩
  | 9 => ⟨S500000, .f32⟩
  | 10 => ⟨S500000, .f32⟩
  | 11 => ⟨S_, .f32⟩
  | 12 => ⟨S_, .f32⟩
  | 13 => ⟨S_, .f32⟩
  | 14 => ⟨S_, .f32⟩
  | 15 => ⟨S500000, .f32⟩
  | 16 => ⟨S500000, .f32⟩
  | 17 => ⟨S_, .f32⟩
  | 18 => ⟨S_, .f32⟩
  | 19 => ⟨S_, .f32⟩
  | 20 => ⟨S_, .i1⟩
  | 21 => ⟨S_, .f32⟩
  | 22 => ⟨S_, .i1⟩
  | 23 => ⟨S_, .i1⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | _ => ⟨S1x1000000x4, .f32⟩

abbrev hbmTy (i : Nat) : BufTy := match i / 128 with
  | 0 => hbmTy0_0 i
  | 1 => hbmTy0_1 i
  | _ => ⟨S1x1000000x4, .f32⟩

abbrev bufTy : (tb : Table) → Fin (tcTables nBuf tb) → BufTy
  | .hbm, ⟨i, _⟩ => hbmTy i
  | _, _ => ⟨S1x1000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_call0_cst_0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_v17 : Ref sig .tc := ⟨.hbm, 41, rfl⟩
abbrev main_v18 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v19 : Ref sig .tc := ⟨.hbm, 64, rfl⟩
abbrev main_v20 : Ref sig .tc := ⟨.hbm, 65, rfl⟩
abbrev main_cst : Ref sig .tc := ⟨.hbm, 66, rfl⟩
abbrev main_v21 : Ref sig .tc := ⟨.hbm, 67, rfl⟩
abbrev main_cst_3 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_c_4 : Ref sig .tc := ⟨.hbm, 72, rfl⟩
abbrev main_v25 : Ref sig .tc := ⟨.hbm, 73, rfl⟩
abbrev main_v26 : Ref sig .tc := ⟨.hbm, 74, rfl⟩
abbrev main_c_5 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_c_6 : Ref sig .tc := ⟨.hbm, 82, rfl⟩
abbrev main_v33 : Ref sig .tc := ⟨.hbm, 83, rfl⟩
abbrev main_v34 : Ref sig .tc := ⟨.hbm, 84, rfl⟩
abbrev main_c_7 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_c_8 : Ref sig .tc := ⟨.hbm, 92, rfl⟩
abbrev main_v41 : Ref sig .tc := ⟨.hbm, 93, rfl⟩
abbrev main_v42 : Ref sig .tc := ⟨.hbm, 94, rfl⟩
abbrev main_c_9 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_cst_10 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_cst_11 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_cst_12 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_cst_13 : Ref sig .tc := ⟨.hbm, 116, rfl⟩
abbrev main_v60 : Ref sig .tc := ⟨.hbm, 117, rfl⟩
abbrev main_cst_14 : Ref sig .tc := ⟨.hbm, 118, rfl⟩
abbrev main_v61 : Ref sig .tc := ⟨.hbm, 119, rfl⟩
abbrev main_v62 : Ref sig .tc := ⟨.hbm, 120, rfl⟩
abbrev main_cst_15 : Ref sig .tc := ⟨.hbm, 121, rfl⟩
abbrev main_v63 : Ref sig .tc := ⟨.hbm, 122, rfl⟩
abbrev main_c_16 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_c_17 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_c_18 : Ref sig .tc := ⟨.hbm, 132, rfl⟩
abbrev main_v71 : Ref sig .tc := ⟨.hbm, 133, rfl⟩
abbrev main_v72 : Ref sig .tc := ⟨.hbm, 134, rfl⟩
abbrev main_cst_19 : Ref sig .tc := ⟨.hbm, 135, rfl⟩
abbrev main_call2_v0 : Ref sig .tc := ⟨.hbm, 136, rfl⟩
abbrev main_call2_v1 : Ref sig .tc := ⟨.hbm, 137, rfl⟩
abbrev main_v73 : Ref sig .tc := ⟨.hbm, 138, rfl⟩
abbrev main_cst_20 : Ref sig .tc := ⟨.hbm, 139, rfl⟩
abbrev main_v74 : Ref sig .tc := ⟨.hbm, 140, rfl⟩
abbrev main_cst_21 : Ref sig .tc := ⟨.hbm, 141, rfl⟩
abbrev main_call3_v0 : Ref sig .tc := ⟨.hbm, 142, rfl⟩
abbrev main_call3_v1 : Ref sig .tc := ⟨.hbm, 143, rfl⟩
abbrev main_v75 : Ref sig .tc := ⟨.hbm, 144, rfl⟩
abbrev main_cst_22 : Ref sig .tc := ⟨.hbm, 145, rfl⟩
abbrev main_v76 : Ref sig .tc := ⟨.hbm, 146, rfl⟩
abbrev main_cst_23 : Ref sig .tc := ⟨.hbm, 147, rfl⟩
abbrev main_v77 : Ref sig .tc := ⟨.hbm, 148, rfl⟩
abbrev main_cst_24 : Ref sig .tc := ⟨.hbm, 149, rfl⟩
abbrev main_v78 : Ref sig .tc := ⟨.hbm, 150, rfl⟩
abbrev main_v79 : Ref sig .tc := ⟨.hbm, 151, rfl⟩
abbrev main_cst_25 : Ref sig .tc := ⟨.hbm, 152, rfl⟩
abbrev main_v80 : Ref sig .tc := ⟨.hbm, 153, rfl⟩
abbrev main_v81 : Ref sig .tc := ⟨.hbm, 154, rfl⟩
abbrev main_cst_26 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_cst_27 : Ref sig .tc := ⟨.hbm, 159, rfl⟩
abbrev main_v85 : Ref sig .tc := ⟨.hbm, 160, rfl⟩
abbrev main_v86 : Ref sig .tc := ⟨.hbm, 161, rfl⟩

abbrev nD : Nat := 1
abbrev τ : Topo := Topo.v7x

variable {F : FTy → Type} [FloatOps F]

class Facts₀ : Prop where
  shapeCasts_S1x500000_S500000 : S1x500000.ShapeCasts S500000
  shapeCasts_S1x1000000_S1000000 : S1x1000000.ShapeCasts S1000000
  bcast_S_S500000 : S_.BroadcastsInDim S500000 (![] : Fin 0 → Fin S500000.rank)
  bcast_S500000_S500000x1_0 : S500000.BroadcastsInDim S500000x1 (![0] : Fin 1 → Fin S500000x1.rank)
  shapeCasts_S1x1000000x2_S1000000x2 : S1x1000000x2.ShapeCasts S1000000x2
  reducesTo_S500000x2_S500000_d1 : S500000x2.ReducesTo [1] S500000
  h_S_ : 0 < S_.numel
  bcast_S500000x1_S500000x2_0_1 : S500000x1.BroadcastsInDim S500000x2 (![0, 1] : Fin 2 → Fin S500000x2.rank)
  bcast_S_S500000x1 : S_.BroadcastsInDim S500000x1 (![] : Fin 0 → Fin S500000x1.rank)
  shapeCasts_S500000x1_S500000x1x1 : S500000x1.ShapeCasts S500000x1x1
  bcast_S_S500000x1x1 : S_.BroadcastsInDim S500000x1x1 (![] : Fin 0 → Fin S500000x1x1.rank)
  bcast_S1_S1x1x1_2 : S1.BroadcastsInDim S1x1x1 (![2] : Fin 1 → Fin S1x1x1.rank)
  bcast_S1x1x1_S500000x1x1_0_1_2 : S1x1x1.BroadcastsInDim S500000x1x1 (![0, 1, 2] : Fin 3 → Fin S500000x1x1.rank)
  reducesTo_S500000x1x1_S500000x1_d2 : S500000x1x1.ReducesTo [2] S500000x1
  shapeCasts_S500000x1_S500000 : S500000x1.ShapeCasts S500000
  reducesTo_S500000_S_d0 : S500000.ReducesTo [0] S_
  shapeCasts_S1x1000000x4_S1000000x4 : S1x1000000x4.ShapeCasts S1000000x4
  bcast_S_S500000x4 : S_.BroadcastsInDim S500000x4 (![] : Fin 0 → Fin S500000x4.rank)
  reducesTo_S500000x4_S500000_d1 : S500000x4.ReducesTo [1] S500000
  natLt_1_32 : 1 < 32
  gather_S1000000_S500000x1_S500000_n_0_n_n_0_1_1_wf : GatherDims.WF S1000000 S500000x1 S500000 [] [0] [] [0] [] 1 ![1]
  gather_S1000000x2_S500000x1_S500000x2_1_0_n_n_0_1_12_wf : GatherDims.WF S1000000x2 S500000x1 S500000x2 [1] [0] [] [0] [] 1 ![1, 2]
  gather_S500000x2_S500000x1x1_S500000x1_n_1_0_0_1_2_11_wf : GatherDims.WF S500000x2 S500000x1x1 S500000x1 [] [1] [0] [1] [0] 2 ![1, 1]
  gather_S1000000x4_S500000x1_S500000x4_1_0_n_n_0_1_14_wf : GatherDims.WF S1000000x4 S500000x1 S500000x4 [1] [0] [] [0] [] 1 ![1, 4]

variable [Facts₀]

def gather_S1000000_S500000x1_S500000_n_0_n_n_0_1_1 : GatherDims S1000000 S500000x1 S500000 where
  offsetDims := []
  collapsedSliceDims := [0]
  operandBatchingDims := []
  startIndicesBatchingDims := []
  startIndexMap := [0]
  indexVectorDim := 1
  sliceSizes := ![1]
  wf := gather_S1000000_S500000x1_S500000_n_0_n_n_0_1_1_wf
def gather_S1000000x2_S500000x1_S500000x2_1_0_n_n_0_1_12 : GatherDims S1000000x2 S500000x1 S500000x2 where
  offsetDims := [1]
  collapsedSliceDims := [0]
  operandBatchingDims := []
  startIndicesBatchingDims := []
  startIndexMap := [0]
  indexVectorDim := 1
  sliceSizes := ![1, 2]
  wf := gather_S1000000x2_S500000x1_S500000x2_1_0_n_n_0_1_12_wf
def gather_S500000x2_S500000x1x1_S500000x1_n_1_0_0_1_2_11 : GatherDims S500000x2 S500000x1x1 S500000x1 where
  offsetDims := []
  collapsedSliceDims := [1]
  operandBatchingDims := [0]
  startIndicesBatchingDims := [0]
  startIndexMap := [1]
  indexVectorDim := 2
  sliceSizes := ![1, 1]
  wf := gather_S500000x2_S500000x1x1_S500000x1_n_1_0_0_1_2_11_wf
def gather_S1000000x4_S500000x1_S500000x4_1_0_n_n_0_1_14 : GatherDims S1000000x4 S500000x1 S500000x4 where
  offsetDims := [1]
  collapsedSliceDims := [0]
  operandBatchingDims := []
  startIndicesBatchingDims := []
  startIndexMap := [0]
  indexVectorDim := 1
  sliceSizes := ![1, 4]
  wf := gather_S1000000x4_S500000x1_S500000x4_1_0_n_n_0_1_14_wf

class Facts : Prop extends Facts₀ where

variable [Facts]
-- ==== Proof.Spec.lean ====
/-
  The mathematics both programs are read against, over the extended reals, free of either program's text.

  A row of the anchor table carries four predicted box coordinates p, four predicted uncertainties u, four
  ground-truth coordinates g, two class logits c and a label word; the list of valid selections is a list of
  500000 row numbers into the 1000000 rows, repeats allowed. The loss is

      -(1/V) * sum over selections of logsoftmax(c)[label]
      + ( 0                                        if no selected row is positive or none is negative
        | pos_loss / max(pos_cnt, 1) + neg_loss / max(neg_cnt, 1)   otherwise )

  with, per row, var = eps + u*u, posTerm = sum_k (half*(p-g))*(p-g)/var + half*log var, negTerm = sum_k 1/var,
  pos_cnt / neg_cnt the numbers of selections whose row is labelled 1 / not 1, and pos_loss / neg_loss the sums of
  posTerm / negTerm over those selections.

  One side (`refOut`) sums over the selections; the other (`kernelOut`) sums over ALL rows, each row weighted by
  the number of selections that name it (`cnt`), the rows taken in two halves of 250 blocks of 2000.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## The literals, as the extended reals their words denote -/

/-- The variance floor, the f32 nearest to 1e-3. -/
def eps : EReal := Ideal.ofBits .f32 0x3A83126F#32
/-- 0.5 -/
def half : EReal := Ideal.ofBits .f32 0x3F000000#32
/-- 1.0 -/
def one : EReal := Ideal.ofBits .f32 0x3F800000#32
/-- +0.0 -/
def zero : EReal := Ideal.ofBits .f32 0x00000000#32
/-- 500000.0, the number of selections -/
def nvalid : EReal := Ideal.ofBits .f32 0x48F42400#32

/-! ## One row -/

/-- The predicted variance of one coordinate. -/
def var (u : EReal) : EReal := eps + u * u

/-- The attenuated squared error of a row, summed over its four coordinates. -/
def posTerm (p u g : Fin 4 → EReal) : EReal :=
  ∑ k : Fin 4, (Ideal.div ((half * (p k - g k)) * (p k - g k)) (var (u k)) + half * Ideal.log (var (u k)))

/-- The inverse variances of a row, summed over its four coordinates. -/
def negTerm (u : Fin 4 → EReal) : EReal := ∑ k : Fin 4, Ideal.div one (var (u k))

/-- The larger of a row's two logits. -/
def rowMax (c : Fin 2 → EReal) : EReal := max (c 0) (c 1)

/-- The log-softmax of a row's two logits, shifted by the larger one. -/
def lsm (c : Fin 2 → EReal) (k : Fin 2) : EReal :=
  (c k - rowMax c) - Ideal.log (Ideal.exp (c 0 - rowMax c) + Ideal.exp (c 1 - rowMax c))

/-- The log-probability of a row's own class: class 1 when the label word is 1, class 0 otherwise. -/
def sel (c : Fin 2 → EReal) (l : BitVec 32) : EReal := if l = 1#32 then lsm c 1 else lsm c 0

/-- The indicator of a positive row, as a number. -/
def maskf (l : BitVec 32) : EReal := if l = 1#32 then 1 else 0

/-- A row's contribution to each of the five sums, when the row is counted `n` times:
    0 the cross-entropy, 1 the positive count, 2 the negative count, 3 the positive loss, 4 the negative loss. -/
def rowTerm (k : Fin 5) (p u g : Fin 4 → EReal) (c : Fin 2 → EReal) (l : BitVec 32) (n : EReal) : EReal :=
  match k with
  | 0 => (zero - sel c l) * n
  | 1 => maskf l * n
  | 2 => (one - maskf l) * n
  | 3 => (maskf l * n) * posTerm p u g
  | 4 => ((one - maskf l) * n) * negTerm u

/-! ## The tables -/

/-- The anchor table by rows, and the list of selections. -/
structure Data where
  p : Fin 1000000 → Fin 4 → EReal
  u : Fin 1000000 → Fin 4 → EReal
  g : Fin 1000000 → Fin 4 → EReal
  c : Fin 1000000 → Fin 2 → EReal
  lab : Fin 1000000 → BitVec 32
  vi : Fin 500000 → BitVec 32

/-- The six argument arrays read by rows. -/
def dataOf (a0 a1 : (⟨3, ![1, 1000000, 4]⟩ : Shape).Idx → EReal) (a2 : (⟨3, ![1, 1000000, 2]⟩ : Shape).Idx → EReal)
    (a3 : (⟨3, ![1, 1000000, 4]⟩ : Shape).Idx → EReal) (a4 : (⟨2, ![1, 1000000]⟩ : Shape).Idx → BitVec 32)
    (a5 : (⟨2, ![1, 500000]⟩ : Shape).Idx → BitVec 32) : Data where
  p i k := a0 (ix3 0 i k)
  u i k := a1 (ix3 0 i k)
  g i k := a3 (ix3 0 i k)
  c i k := a2 (ix3 0 i k)
  lab i := a4 (ix2 0 i)
  vi j := a5 (ix2 0 j)

/-- The row a selection word names (total: a word outside the table is read modulo its length; the precondition keeps
    every word inside). -/
def rowOf (w : BitVec 32) : Fin 1000000 := ⟨w.toNat % 1000000, Nat.mod_lt _ (by decide)⟩

/-- The row selection `j` names. -/
def row (d : Data) (j : Fin 500000) : Fin 1000000 := rowOf (d.vi j)

/-- How many selections name row `i`, as the scatter-add holds it: zero plus a one per selection. -/
def cnt (d : Data) (i : Fin 1000000) : EReal :=
  zero + ∑ _j ∈ Finset.univ.filter (fun j : Fin 500000 => row d j = i), one

/-- Row `r` of block `b` of half `h`: the table is walked in two halves of 250 blocks of 2000 rows. -/
def grow (h : Fin 2) (b : Fin 250) (r : Fin 2000) : Fin 1000000 :=
  ⟨(h.val * 250 + b.val) * 2000 + r.val, by have := h.isLt; have := b.isLt; have := r.isLt; omega⟩

/-- Row `i`'s contribution to sum `k`, weighted by its count. -/
def kterm (d : Data) (k : Fin 5) (i : Fin 1000000) : EReal :=
  rowTerm k (d.p i) (d.u i) (d.g i) (d.c i) (d.lab i) (cnt d i)

/-- Sum `k` over one half of the table: block after block, from zero. -/
def halfSum (d : Data) (k : Fin 5) (h : Fin 2) : EReal := ∑ b : Fin 250, ∑ r : Fin 2000, kterm d k (grow h b r)

/-- Sum `k` over all rows: zero plus the two halves. -/
def ksumG (d : Data) (k : Fin 5) : EReal := zero + (halfSum d k 0 + halfSum d k 1)

/-- The regression part of the loss from the two counts and the two sums. -/
def regLoss (pc nc pl nl : EReal) : EReal :=
  Scalar.select (IntOp.ori (Ideal.cmp .oeq pc zero) (Ideal.cmp .oeq nc zero)) zero
    (Ideal.div pl (max pc one) + Ideal.div nl (max nc one))

/-- The loss as the sum over all rows weighted by their counts. -/
def kernelOut (d : Data) : EReal :=
  Ideal.div (ksumG d 0) nvalid + regLoss (ksumG d 1) (ksumG d 2) (ksumG d 3) (ksumG d 4)

/-! ## The same, summed over the selections -/

/-- A natural number as an extended real. -/
def natE (n : ℕ) : EReal := ((n : ℝ) : EReal)

def ceR (d : Data) : EReal := zero + ∑ j : Fin 500000, sel (d.c (row d j)) (d.lab (row d j))
def pcR (d : Data) : EReal := natE (Finset.univ.filter fun j : Fin 500000 => d.lab (row d j) = 1#32).card
def ncR (d : Data) : EReal := natE (Finset.univ.filter fun j : Fin 500000 => ¬ d.lab (row d j) = 1#32).card
def plR (d : Data) : EReal :=
  zero + ∑ j : Fin 500000, if d.lab (row d j) = 1#32 then posTerm (d.p (row d j)) (d.u (row d j)) (d.g (row d j)) else zero
def nlR (d : Data) : EReal :=
  zero + ∑ j : Fin 500000, if d.lab (row d j) = 1#32 then zero else negTerm (d.u (row d j))

/-- The loss as the sum over the selections. -/
def refOut (d : Data) : EReal :=
  -(Ideal.div (ceR d) nvalid) + regLoss (pcR d) (ncR d) (plR d) (nlR d)

/-! ## What the precondition says of the tables -/

/-- Every entry is a real number. -/
def Finite {s : Shape} (a : s.Idx → EReal) : Prop := ∀ i, ∃ r : ℝ, a i = (r : EReal)
/-- Every label is 0 or 1. -/
def Binary {s : Shape} (a : s.Idx → BitVec 32) : Prop := ∀ i, a i = 0#32 ∨ a i = 1#32
/-- Every selection word is a row number. -/
def InRange {s : Shape} (a : s.Idx → BitVec 32) : Prop := ∀ i, 0 ≤ (a i).toInt ∧ (a i).toInt < 1000000

end Cert.Spec

end
-- ==== Proof.KBody.lean ====
/-
  What one grid point of the kernel adds to its accumulator tile, as a value.

  The body loads a block of 2000 rows of each table, forms per row the five weighted terms (Spec.rowTerm), sums each
  over the 2000 rows, lays the five sums in lanes 0..4 of sublane 0 of an otherwise zero (8,128) tile, and adds the tile
  to what the accumulator held (zero at the first block of a half, the running tile otherwise).
-/
import proofs.«423612_j88716844466682_2_alg».proof.Proof.Gen.KernelIdeal.Frame
import proofs.«423612_j88716844466682_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.KBody

open Idealize.ShloMosaic Idealize.ShloMosaic.TcCoe Idealize.SL.Sem Idealize.ShloMosaic.ValueIdx
open Cert.KernelIdeal Cert.KernelIdeal.Gen

variable {F : FTy → Type} [FloatOps F]

/-- The offsets of a whole-block access of a rank-3 buffer are all zero. -/
private theorem hz : (![0, 0, 0] : Fin 3 → Nat) = fun _ => 0 := funext fun a => by fin_cases a <;> rfl

/-- The offsets of a whole-block access of a rank-2 buffer are all zero. -/
private theorem hz2 : (![0, 0] : Fin 2 → Nat) = fun _ => 0 := funext fun a => by fin_cases a <;> rfl

/-- The accumulator tile after one point, from the six input blocks and what the accumulator held. -/
def tile (x0 x1 : Vec F S2000x4 .f32) (x2 : Vec F S2000x2 .f32) (x3 : Vec F S2000x4 .f32) (x4 : Vec F S2000x1 .i32)
    (x5 : Vec F S2000x1 .f32) (xo : Vec F S1x8x128 .f32) : Vec F S1x8x128 .f32 :=
  k0_pay1 (k0_pay11 (k0_pay3 x2) (k0_pay4 x4) (k0_pay5 x5) (k0_pay7 x0 x1 x3) (k0_pay8 x1) (k0_pay9 x2) k0_pay10 xo)

/-- A point that is not the first of its half leaves the tile over what the point before left. -/
theorem out_B (c : Dev nD) (i : grid0.Coords) (arg2 : Memref sig .tc .vmem S2000x4 .f32) (harg2 : arg2.IsWhole) (arg3 : Memref sig .tc .vmem S2000x4 .f32) (harg3 : arg3.IsWhole) (arg4 : Memref sig .tc .vmem S2000x2 .f32) (harg4 : arg4.IsWhole) (arg5 : Memref sig .tc .vmem S2000x4 .f32) (harg5 : arg5.IsWhole) (arg6 : Memref sig .tc .vmem S2000x1 .i32) (harg6 : arg6.IsWhole) (arg7 : Memref sig .tc .vmem S2000x1 .f32) (harg7 : arg7.IsWhole) (arg8 : Memref sig .tc .vmem S1x8x128 .f32) (harg8 : arg8.IsWhole) (hc0 : ¬cond0_0 i)
    (x0 : Vec F S2000x4 .f32) (x1 : Vec F S2000x4 .f32) (x2 : Vec F S2000x2 .f32) (x3 : Vec F S2000x4 .f32) (x4 : Vec F S2000x1 .i32) (x5 : Vec F S2000x1 .f32) (xo6 : Vec F S1x8x128 .f32) :
    out0_B_6 c i arg2 harg2 arg3 harg3 arg4 harg4 arg5 harg5 arg6 harg6 arg7 harg7 arg8 harg8 hc0 x0 x1 x2 x3 x4 x5 xo6
      = tile x0 x1 x2 x3 x4 x5 xo6 := by
  -- The point's one store covers the whole tile, so the buffer ends at that store's payload; every load reads a whole
  -- block, so it reads the block's contents.
  unfold out0_B_6
  rw [View.read_writes_eq_canon _ _ _ (cover0_B_6 c i arg2 harg2 arg3 harg3 arg4 harg4 arg5 harg5 arg6 harg6 arg7 harg7 arg8 harg8 hc0 x0 x1 x2 x3 x4 x5 xo6)]
  unfold kernelRun0_B
  dsimp only
  sl_unfold_words
  rw [View.canon_unit_zero hz]
  unfold tile
  simp only [View.readAt_eq_ld, harg2.read_unread, harg3.read_unread, harg4.read_unread, harg5.read_unread,
    harg6.read_unread, harg7.read_unread, harg8.read_unread, View.ld_unit_zero (S := S2000x4) hz2,
    View.ld_unit_zero (S := S2000x2) hz2, View.ld_unit_zero (S := S2000x1) hz2, View.ld_unit_zero (S := S1x8x128) hz]

/-- The first point of a half stores the zero tile first, so it leaves the tile over zero. -/
theorem out_A (c : Dev nD) (i : grid0.Coords) (arg2 : Memref sig .tc .vmem S2000x4 .f32) (harg2 : arg2.IsWhole) (arg3 : Memref sig .tc .vmem S2000x4 .f32) (harg3 : arg3.IsWhole) (arg4 : Memref sig .tc .vmem S2000x2 .f32) (harg4 : arg4.IsWhole) (arg5 : Memref sig .tc .vmem S2000x4 .f32) (harg5 : arg5.IsWhole) (arg6 : Memref sig .tc .vmem S2000x1 .i32) (harg6 : arg6.IsWhole) (arg7 : Memref sig .tc .vmem S2000x1 .f32) (harg7 : arg7.IsWhole) (arg8 : Memref sig .tc .vmem S1x8x128 .f32) (harg8 : arg8.IsWhole) (hc0 : cond0_0 i)
    (x0 : Vec F S2000x4 .f32) (x1 : Vec F S2000x4 .f32) (x2 : Vec F S2000x2 .f32) (x3 : Vec F S2000x4 .f32) (x4 : Vec F S2000x1 .i32) (x5 : Vec F S2000x1 .f32) :
    out0_A_6 c i arg2 harg2 arg3 harg3 arg4 harg4 arg5 harg5 arg6 harg6 arg7 harg7 arg8 harg8 hc0 x0 x1 x2 x3 x4 x5
      = tile x0 x1 x2 x3 x4 x5 k0_pay2 := by
  -- Two stores, each over the whole tile: the later one decides the contents, and its payload read the accumulator
  -- after the earlier store, that is, read the zero tile.
  unfold out0_A_6
  rw [View.read_writes_eq_canon _ _ _ (cover0_A_6 c i arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S1x8x128) hz, View.readCov_unit_zero (S := S1x8x128) _ hz]
  unfold tile
  simp only [View.readAt_eq_ld, harg2.read_unread, harg3.read_unread, harg4.read_unread, harg5.read_unread,
    harg6.read_unread, harg7.read_unread, View.ld_unit_zero (S := S2000x4) hz2,
    View.ld_unit_zero (S := S2000x2) hz2, View.ld_unit_zero (S := S2000x1) hz2]

/-- The zero tile is zero everywhere. -/
theorem pay2_apply (j : S1x8x128.Idx) : (k0_pay2 (F := Ideal)) j = 0 := by
  -- A constant array read at any index, through any re-indexing, is the constant; the constant's word is +0.0.
  unfold k0_pay2 shapeCast
  exact Ideal.ofBits_zero_f32

end Cert.KernelIdeal.KBody

end
-- ==== Proof.KRows.lean ====
/-
  The kernel body's two per-row reductions over a block's four coordinates, at a row, over the extended reals.
-/
import proofs.«423612_j88716844466682_2_alg».proof.Proof.Gen.KernelIdeal.Skeleton
import proofs.«423612_j88716844466682_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KRows

open Idealize.ShloMosaic Idealize.ShloMosaic.TcCoe Idealize.ShloMosaic.ValueIdx
open Cert.KernelIdeal Cert.KernelIdeal.Gen

/-! ## A vector written as a column -/

/-- A vector `[a]` cast to the column `[a, 1]` reads, at `(i, u)`, the vector at `i`, whatever the unit coordinate `u`:
    both indices have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The sum over a row's four lanes -/

/-- Over result index `r` of a `[2000, 4] → [2000]` reduction along axis 1, the source index with lane `k` inserted
    is `(r, k)`. -/
theorem lift_row (h : S2000x4.Reduces [1] S2000) (r : Fin 2000) (k : Fin 4) : h.lift (ix1 r) k = ix2 r k := by
  funext c
  match c with
  | ⟨0, _⟩ => exact Fin.ext rfl
  | ⟨1, _⟩ => exact Fin.ext rfl

/-- The add-reduction of a `[2000, 4]` block along its lanes, cast to a column, reads at row `r` the sum of the row's
    four entries. -/
theorem laneSum_apply (src : FVec Ideal S2000x4 .f32) (h : S2000x4.Reduces [1] S2000) (hφ : FKind.Formats .f32)
    (hacc : (0x00000000#32 : BitVec 32) = FKind.add.neutral .f32 hφ) (hc : S2000.ShapeCasts S2000x1) (r : Fin 2000) :
    shapeCast S2000x1 (multiReduction .add [1] S2000 src 0x00000000#32 h hφ hacc) hc (ix2 r 0)
      = ∑ k : Fin 4, src (ix2 r k) := by
  refine (shapeCast_a_a1_apply _ hc r 0).trans ?_
  refine (Ideal.multiReduction_add_single src 0x00000000#32 h hφ hacc (ix1 r)).trans ?_
  exact Finset.sum_congr rfl fun k _ => congrArg src (lift_row h r k)

/-! ## The variance block -/

/-- The variance block at `(r, k)`: the floor plus the square of the uncertainty. -/
theorem pay6_apply (x1 : Vec Ideal S2000x4 .f32) (r : Fin 2000) (k : Fin 4) :
    k0_pay6 x1 (ix2 r k) = Cert.Spec.var (x1 (ix2 r k)) := by
  unfold k0_pay6
  rw [shapeCast_self]
  rfl

/-! ## The two columns at a row -/

/-- Row r of the attenuated-squared-error column is the row's posTerm: the lane sum over the four coordinates of
    (half*(p-g))*(p-g)/var + half*log var, with var = eps + u*u. -/
theorem pay7_apply (x0 x1 x3 : Vec Ideal S2000x4 .f32) (r : Fin 2000) :
    k0_pay7 x0 x1 x3 (ix2 r 0)
      = Cert.Spec.posTerm (fun k => x0 (ix2 r k)) (fun k => x1 (ix2 r k)) (fun k => x3 (ix2 r k)) := by
  unfold k0_pay7
  rw [shapeCast_self, shapeCast_self]
  refine (laneSum_apply _ _ _ _ _ r).trans ?_
  unfold Cert.Spec.posTerm
  refine Finset.sum_congr rfl fun k _ => ?_
  rw [addf_apply, divf_apply, pay6_apply, mulf_apply, mulf_apply, mulf_apply, subf_apply]
  show _ + _ * Ideal.log (k0_pay6 x1 (ix2 r k)) = _
  rw [pay6_apply]
  rfl

/-- Row r of the inverse-variance column is the row's negTerm: the lane sum over the four coordinates of 1/var. -/
theorem pay8_apply (x1 : Vec Ideal S2000x4 .f32) (r : Fin 2000) :
    k0_pay8 x1 (ix2 r 0) = Cert.Spec.negTerm (fun k => x1 (ix2 r k)) := by
  unfold k0_pay8
  refine (laneSum_apply _ _ _ _ _ r).trans ?_
  unfold Cert.Spec.negTerm
  refine Finset.sum_congr rfl fun k _ => ?_
  rw [divf_apply, pay6_apply, broadcast_apply]
  rfl

end Cert.KernelIdeal.KRows

end
-- ==== Proof.KTileAuxLayout.lean ====
/-
  Layout and reduction operations of the block's per-row columns, read at an entry over the extended reals.

  A vector of a rows as a column (a, 1); a column broadcast along the lanes; a one-entry vector as a (1, 1) matrix; the
  sum of a (2000, 1) column over its rows; the maximum and the sum of a (2000, 2) matrix over its two lanes; and the three
  concatenations that lay five (1, 1) values in lanes 0..4 of row 0 of an (8, 128) tile, zero elsewhere.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.KernelIdeal.KTileAux

open Idealize.ShloMosaic Idealize.ShloMosaic.ValueIdx

variable {α : Type}

/-! ## Columns -/

/-- A vector of a entries cast to a column (a, 1) reads, at (r, u), the vector at r. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column (a, 1) broadcast to (a, b) reads, at (r, c), the column at row r. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A one-entry vector cast to a (1, 1) matrix reads, at its one entry, the vector's entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  have hv : v = 0 := Fin.ext (by omega)
  subst hv
  exact shapeCast_a_1a_apply x h u 0

/-! ## Reductions -/

/-- The word 0xFF800000 denotes minus infinity, the least extended real. -/
theorem ofBits_neg_inf_f32 : Ideal.ofBits .f32 0xFF800000#32 = ⊥ := by simp [Ideal.ofBits, Ideal.ieee]

/-- The sum of an (n, 1) column over its rows. -/
theorem multiReduction_add_col {n : ℕ} (src : FVec Ideal ⟨2, ![n, 1]⟩ .f32)
    (h : (⟨2, ![n, 1]⟩ : Shape).Reduces [0] ⟨1, ![1]⟩) (hφ : FKind.Formats .f32)
    (hacc : (0x00000000#32 : BitVec 32) = 0x00000000#32) (u : Fin 1) :
    multiReduction .add [0] ⟨1, ![1]⟩ src 0x00000000#32 h hφ hacc (ix1 u) = ∑ r : Fin n, src (ix2 r (0 : Fin 1)) := by
  refine (Ideal.multiReduction_add_single src 0x00000000#32 h hφ hacc (ix1 u)).trans ?_
  show ∑ r : Fin n, src (h.lift (ix1 u) r) = _
  refine Finset.sum_congr rfl fun r _ => congrArg src ?_
  funext c
  match c with
  | ⟨0, _⟩ => exact Fin.ext rfl
  | ⟨1, _⟩ => exact Fin.ext (by show u.val = 0; omega)

/-- A row index with the lane inserted on axis 1 is (row, lane). -/
theorem lift_lane {n m : ℕ} (h : (⟨2, ![n, m]⟩ : Shape).Reduces [1] ⟨1, ![n]⟩) (r : Fin n) (k : Fin m) :
    h.lift (ix1 r) k = ix2 r k := by
  funext c
  match c with
  | ⟨0, _⟩ => exact Fin.ext rfl
  | ⟨1, _⟩ => exact Fin.ext rfl

/-- The sum of an (n, 2) matrix over its two lanes, at row r. -/
theorem multiReduction_add_lanes2 {n : ℕ} (src : FVec Ideal ⟨2, ![n, 2]⟩ .f32)
    (h : (⟨2, ![n, 2]⟩ : Shape).Reduces [1] ⟨1, ![n]⟩) (hφ : FKind.Formats .f32)
    (hacc : (0x00000000#32 : BitVec 32) = 0x00000000#32) (r : Fin n) :
    multiReduction .add [1] ⟨1, ![n]⟩ src 0x00000000#32 h hφ hacc (ix1 r)
      = src (ix2 r (0 : Fin 2)) + src (ix2 r (1 : Fin 2)) := by
  refine (Ideal.multiReduction_add_single src 0x00000000#32 h hφ hacc (ix1 r)).trans ?_
  show ∑ k : Fin 2, src (h.lift (ix1 r) k) = _
  rw [Fin.sum_univ_two, lift_lane, lift_lane]

/-- The maximum of an (n, 2) matrix over its two lanes, from minus infinity, at row r. -/
theorem multiReduction_max_lanes2 {n : ℕ} (src : FVec Ideal ⟨2, ![n, 2]⟩ .f32)
    (h : (⟨2, ![n, 2]⟩ : Shape).Reduces [1] ⟨1, ![n]⟩) (hφ : FKind.Formats .f32)
    (hacc : (0xFF800000#32 : BitVec 32) = 0xFF800000#32) (r : Fin n) :
    multiReduction .maximumf [1] ⟨1, ![n]⟩ src 0xFF800000#32 h hφ hacc (ix1 r)
      = max (src (ix2 r (0 : Fin 2))) (src (ix2 r (1 : Fin 2))) := by
  refine (Ideal.multiReduction_maximumf_single src 0xFF800000#32 h hφ hacc (ix1 r)).trans ?_
  show Finset.fold max (Ideal.ofBits .f32 0xFF800000#32) (fun k : Fin 2 => src (h.lift (ix1 r) k)) (Finset.univ : Finset (Fin 2)) = _
  have e : (Finset.univ : Finset (Fin 2)) = insert 0 {1} := by decide
  rw [e, Finset.fold_insert (by decide), Finset.fold_singleton, ofBits_neg_inf_f32, lift_lane, lift_lane, max_bot_right]

/-! ## The three concatenations -/

/-- Five (1, 1) values side by side: lane k of the (1, 5) row is the k-th value. -/
theorem concatenate_five_apply (y0 y1 y2 y3 y4 : (⟨2, ![1, 1]⟩ : Shape).Idx → α)
    (h : Shape.Concatenates [(⟨2, ![1, 1]⟩ : Shape), ⟨2, ![1, 1]⟩, ⟨2, ![1, 1]⟩, ⟨2, ![1, 1]⟩, ⟨2, ![1, 1]⟩] ⟨2, ![1, 5]⟩ 1)
    (u : Fin 1) (k : Fin 5) :
    concatenate ⟨2, ![1, 5]⟩ 1 [⟨⟨2, ![1, 1]⟩, y0⟩, ⟨⟨2, ![1, 1]⟩, y1⟩, ⟨⟨2, ![1, 1]⟩, y2⟩, ⟨⟨2, ![1, 1]⟩, y3⟩, ⟨⟨2, ![1, 1]⟩, y4⟩] h (ix2 u k)
      = (![y0, y1, y2, y3, y4] k) (ix2 (0 : Fin 1) (0 : Fin 1)) := by
  have hu : u = 0 := Fin.ext (by omega)
  subst hu
  have hi : ∀ (kk : Fin 5) (b : Fin 2), b ≠ 1 →
      ((ix2 (0 : Fin 1) (0 : Fin 1) : (⟨2, ![1, 1]⟩ : Shape).Idx) b).val = ((ix2 (0 : Fin 1) kk : (⟨2, ![1, 5]⟩ : Shape).Idx) b).val := by
    intro kk b hb
    match b with
    | ⟨0, _⟩ => rfl
    | ⟨1, _⟩ => exact absurd rfl hb
  match k with
  | ⟨0, _⟩ =>
    exact concatenate_apply_piece (t := ⟨2, ![1, 5]⟩) (1 : Fin 2) ([⟨⟨2, ![1, 1]⟩, y0⟩, ⟨⟨2, ![1, 1]⟩, y1⟩, ⟨⟨2, ![1, 1]⟩, y2⟩, ⟨⟨2, ![1, 1]⟩, y3⟩, ⟨⟨2, ![1, 1]⟩, y4⟩] : List ((s : Shape) × (s.Idx → α))) h (ix2 (0 : Fin 1) _) 0 (by simp) ⟨2, ![1, 1]⟩ y0 rfl rfl 0 rfl (ix2 (0 : Fin 1) (0 : Fin 1)) (hi _) rfl
  | ⟨1, _⟩ =>
    exact concatenate_apply_piece (t := ⟨2, ![1, 5]⟩) (1 : Fin 2) ([⟨⟨2, ![1, 1]⟩, y0⟩, ⟨⟨2, ![1, 1]⟩, y1⟩, ⟨⟨2, ![1, 1]⟩, y2⟩, ⟨⟨2, ![1, 1]⟩, y3⟩, ⟨⟨2, ![1, 1]⟩, y4⟩] : List ((s : Shape) × (s.Idx → α))) h (ix2 (0 : Fin 1) _) 1 (by simp) ⟨2, ![1, 1]⟩ y1 rfl rfl 1 rfl (ix2 (0 : Fin 1) (0 : Fin 1)) (hi _) rfl
  | ⟨2, _⟩ =>
    exact concatenate_apply_piece (t := ⟨2, ![1, 5]⟩) (1 : Fin 2) ([⟨⟨2, ![1, 1]⟩, y0⟩, ⟨⟨2, ![1, 1]⟩, y1⟩, ⟨⟨2, ![1, 1]⟩, y2⟩, ⟨⟨2, ![1, 1]⟩, y3⟩, ⟨⟨2, ![1, 1]⟩, y4⟩] : List ((s : Shape) × (s.Idx → α))) h (ix2 (0 : Fin 1) _) 2 (by simp) ⟨2, ![1, 1]⟩ y2 rfl rfl 2 rfl (ix2 (0 : Fin 1) (0 : Fin 1)) (hi _) rfl
  | ⟨3, _⟩ =>
    exact concatenate_apply_piece (t := ⟨2, ![1, 5]⟩) (1 : Fin 2) ([⟨⟨2, ![1, 1]⟩, y0⟩, ⟨⟨2, ![1, 1]⟩, y1⟩, ⟨⟨2, ![1, 1]⟩, y2⟩, ⟨⟨2, ![1, 1]⟩, y3⟩, ⟨⟨2, ![1, 1]⟩, y4⟩] : List ((s : Shape) × (s.Idx → α))) h (ix2 (0 : Fin 1) _) 3 (by simp) ⟨2, ![1, 1]⟩ y3 rfl rfl 3 rfl (ix2 (0 : Fin 1) (0 : Fin 1)) (hi _) rfl
  | ⟨4, _⟩ =>
    exact concatenate_apply_piece (t := ⟨2, ![1, 5]⟩) (1 : Fin 2) ([⟨⟨2, ![1, 1]⟩, y0⟩, ⟨⟨2, ![1, 1]⟩, y1⟩, ⟨⟨2, ![1, 1]⟩, y2⟩, ⟨⟨2, ![1, 1]⟩, y3⟩, ⟨⟨2, ![1, 1]⟩, y4⟩] : List ((s : Shape) × (s.Idx → α))) h (ix2 (0 : Fin 1) _) 4 (by simp) ⟨2, ![1, 1]⟩ y4 rfl rfl 4 rfl (ix2 (0 : Fin 1) (0 : Fin 1)) (hi _) rfl

/-- A (1, 5) row followed by a (1, 123) row along the lanes: lane l of the (1, 128) row is lane l of the first below 5,
    lane l - 5 of the second from 5 on. -/
theorem concatenate_5_123_apply (x₁ : (⟨2, ![1, 5]⟩ : Shape).Idx → α) (x₂ : (⟨2, ![1, 123]⟩ : Shape).Idx → α)
    (h : Shape.Concatenates [(⟨2, ![1, 5]⟩ : Shape), ⟨2, ![1, 123]⟩] ⟨2, ![1, 128]⟩ 1) (u : Fin 1) (l : Fin 128) :
    concatenate ⟨2, ![1, 128]⟩ 1 [⟨⟨2, ![1, 5]⟩, x₁⟩, ⟨⟨2, ![1, 123]⟩, x₂⟩] h (ix2 u l)
      = if hl : l.val < 5 then x₁ (ix2 (0 : Fin 1) ⟨l.val, hl⟩)
        else x₂ (ix2 (0 : Fin 1) ⟨l.val - 5, by have := l.isLt; omega⟩) := by
  have hu : u = 0 := Fin.ext (by omega)
  subst hu
  split
  · next hl =>
    exact concatenate_pair_apply_left (t := ⟨2, ![1, 128]⟩) (1 : Fin 2) x₁ x₂ h (ix2 (0 : Fin 1) l) rfl (ix2 (0 : Fin 1) ⟨l.val, hl⟩) (fun b => by
      match b with
      | ⟨0, _⟩ => rfl
      | ⟨1, _⟩ => rfl)
  · next hl =>
    exact concatenate_pair_apply_right (t := ⟨2, ![1, 128]⟩) (1 : Fin 2) x₁ x₂ h (ix2 (0 : Fin 1) l) rfl rfl (ix2 (0 : Fin 1) ⟨l.val - 5, by have := l.isLt; omega⟩)
      (fun b hb => by
        match b with
        | ⟨0, _⟩ => rfl
        | ⟨1, _⟩ => exact absurd rfl hb)
      (by show l.val - 5 + 5 = l.val; omega)

/-- A (1, 128) row over seven (7, 128) rows: row s of the (8, 128) tile is the first piece's row at s = 0, row s - 1 of
    the second otherwise. -/
theorem concatenate_1_7_rows_apply (x₁ : (⟨2, ![1, 128]⟩ : Shape).Idx → α) (x₂ : (⟨2, ![7, 128]⟩ : Shape).Idx → α)
    (h : Shape.Concatenates [(⟨2, ![1, 128]⟩ : Shape), ⟨2, ![7, 128]⟩] ⟨2, ![8, 128]⟩ 0) (s : Fin 8) (l : Fin 128) :
    concatenate ⟨2, ![8, 128]⟩ 0 [⟨⟨2, ![1, 128]⟩, x₁⟩, ⟨⟨2, ![7, 128]⟩, x₂⟩] h (ix2 s l)
      = if hs : s.val = 0 then x₁ (ix2 (0 : Fin 1) l)
        else x₂ (ix2 ⟨s.val - 1, by have := s.isLt; omega⟩ l) := by
  split
  · next hs =>
    exact concatenate_pair_apply_left (t := ⟨2, ![8, 128]⟩) (0 : Fin 2) x₁ x₂ h (ix2 s l) rfl (ix2 (0 : Fin 1) l) (fun b => by
      match b with
      | ⟨0, _⟩ => exact hs.symm
      | ⟨1, _⟩ => rfl)
  · next hs =>
    exact concatenate_pair_apply_right (t := ⟨2, ![8, 128]⟩) (0 : Fin 2) x₁ x₂ h (ix2 s l) rfl rfl (ix2 ⟨s.val - 1, by have := s.isLt; omega⟩ l)
      (fun b hb => by
        match b with
        | ⟨0, _⟩ => exact absurd rfl hb
        | ⟨1, _⟩ => rfl)
      (by show s.val - 1 + 1 = s.val; omega)

end Cert.KernelIdeal.KTileAux

end
-- ==== Proof.KTile.lean ====
/-
  The accumulator tile after one grid point, read at an entry over the extended reals.

  The body forms, per row of the block, the log-softmax of the two logits shifted by their maximum, picks the row's own
  class by its label, and weights by the row's count: term 0 is (0 - logp)*count, term 1 mask*count, term 2
  (1 - mask)*count, term 3 (mask*count)*posTerm, term 4 ((1 - mask)*count)*negTerm. Each term is summed over the
  block's 2000 rows; the five sums are laid in lanes 0..4 of sublane 0 of a tile that is zero elsewhere, and the tile
  is added to what the accumulator held.
-/
import proofs.«423612_j88716844466682_2_alg».proof.Proof.KBody
import proofs.«423612_j88716844466682_2_alg».proof.Proof.KRows
import proofs.«423612_j88716844466682_2_alg».proof.Proof.KTileAuxLayout

noncomputable section

namespace Cert.KernelIdeal.KBody

open Idealize.ShloMosaic Idealize.ShloMosaic.TcCoe Idealize.SL.Sem Idealize.ShloMosaic.ValueIdx
open Cert.KernelIdeal Cert.KernelIdeal.Gen

/-! ## The block's per-row columns

The body's chain from the loaded blocks to the five columns it sums, named piece by piece: the logits less their row
maximum, their log-softmax, the bit "the label is 1", the log-probability it selects, the indicator as a number and its
complement, and the five weighted columns. -/

section Cols

variable (v10 : FVec Ideal S2000x2 .f32) (v12 : IVec S2000x1 32) (v14 v28 v32 : FVec Ideal S2000x1 .f32)
  (v33 v34 : FVec Ideal S2000 .f32)

/-- The logits less the row's maximum (the maximum of the two lanes, joined with the splat it started from). -/
def shifted : FVec Ideal S2000x2 .f32 :=
  subf v10 (broadcastTo S2000x2 (shapeCast S2000x1 (maximumf v34 v33) shapeCasts_S2000_S2000x1) broadcasts_S2000x1_S2000x2)

/-- The log-softmax of the two logits: the shifted logits less the log of the lane sum of their exponentials. -/
def logp : FVec Ideal S2000x2 .f32 :=
  subf (shifted v10 v33 v34)
    (broadcastTo S2000x2
      (log (shapeCast S2000x1
        (multiReduction .add [1] S2000 (exp (shifted v10 v33 v34)) 0x00000000#32 reduces_S2000x2_S2000 (.inl rfl) rfl)
        shapeCasts_S2000_S2000x1))
      broadcasts_S2000x1_S2000x2)

/-- The bit "the label word is 1". -/
def posBit : IVec S2000x1 1 := cmpi .eq v12 (broadcast S2000x1 1#32)

/-- The log-probability of the row's own class: lane 1 where the label is 1, lane 0 otherwise. -/
def selLogp : FVec Ideal S2000x1 .f32 :=
  select (posBit v12) (extractStridedSlice S2000x1 ![0, 1] (logp v10 v33 v34) slices_S2000x2_o0_1_S2000x1)
    (extractStridedSlice S2000x1 ![0, 0] (logp v10 v33 v34) slices_S2000x2_o0_0_S2000x1)

/-- The indicator of a positive row as a number. -/
def posF : FVec Ideal S2000x1 .f32 := sitofp .f32 (extui 32 (posBit v12) natLt_1_32)

/-- One less the indicator. -/
def negF : FVec Ideal S2000x1 .f32 := subf (broadcast S2000x1 (Scalar.ofBits .f32 0x3F800000#32)) (posF v12)

/-- Column 0: (0 - logp) * count. -/
def col0 : FVec Ideal S2000x1 .f32 :=
  mulf (subf (broadcast S2000x1 (Scalar.ofBits .f32 0x00000000#32)) (selLogp v10 v12 v33 v34)) v14
/-- Column 1: mask * count. -/
def col1 : FVec Ideal S2000x1 .f32 := mulf (posF v12) v14
/-- Column 2: (1 - mask) * count. -/
def col2 : FVec Ideal S2000x1 .f32 := mulf (negF v12) v14
/-- Column 3: (mask * count) * posTerm. -/
def col3 : FVec Ideal S2000x1 .f32 := mulf (mulf (posF v12) v14) v28
/-- Column 4: ((1 - mask) * count) * negTerm. -/
def col4 : FVec Ideal S2000x1 .f32 := mulf (mulf (negF v12) v14) v32

/-- The sum of a column over the block's rows, as a (1, 1) matrix. -/
def colSum (c : FVec Ideal S2000x1 .f32) : FVec Ideal S1x1 .f32 :=
  shapeCast S1x1 (multiReduction .add [0] S1 c 0x00000000#32 reduces_S2000x1_S1 (.inl rfl) rfl) shapeCasts_S1_S1x1

/-- The five sums side by side. -/
def sums5 : FVec Ideal S1x5 .f32 :=
  concatenate S1x5 1 [⟨S1x1, colSum (col0 v10 v12 v14 v33 v34)⟩, ⟨S1x1, colSum (col1 v12 v14)⟩, ⟨S1x1, colSum (col2 v12 v14)⟩,
    ⟨S1x1, colSum (col3 v12 v14 v28)⟩, ⟨S1x1, colSum (col4 v12 v14 v32)⟩] concatenates_S1x1_S1x1_S1x1_S1x1_S1x1_S1x5_d1

/-- The (8, 128) tile: the five sums in lanes 0..4 of row 0, zero elsewhere. -/
def sumTile : FVec Ideal S8x128 .f32 :=
  concatenate S8x128 0
    [⟨S1x128, concatenate S1x128 1 [⟨S1x5, sums5 v10 v12 v14 v28 v32 v33 v34⟩,
        ⟨S1x123, broadcast S1x123 (Scalar.ofBits (F := Ideal) .f32 0x00000000#32)⟩] concatenates_S1x5_S1x123_S1x128_d1⟩,
      ⟨S7x128, broadcast S7x128 (Scalar.ofBits (F := Ideal) .f32 0x00000000#32)⟩] concatenates_S1x128_S7x128_S8x128_d0

/-- The body's last value is what the accumulator held, as an (8, 128) tile, plus that tile. -/
theorem pay11_eq (v78 : Vec Ideal S1x8x128 .f32) :
    k0_pay11 v10 v12 v14 v28 v32 v33 v34 v78
      = addf (shapeCast S8x128 v78 shapeCasts_S1x8x128_S8x128) (sumTile v10 v12 v14 v28 v32 v33 v34) := rfl

end Cols

/-! ## The columns at a row -/

section Rows

variable (v10 : FVec Ideal S2000x2 .f32) (v12 : IVec S2000x1 32) (v14 v28 v32 : FVec Ideal S2000x1 .f32)
  (v33 v34 : FVec Ideal S2000 .f32)

/-- A shifted logit is the logit less the larger of the running maximum's two operands at the row. -/
theorem shifted_apply (r : Fin 2000) (k : Fin 2) :
    shifted v10 v33 v34 (ix2 r k) = v10 (ix2 r k) - max (v34 (ix1 r)) (v33 (ix1 r)) := by
  show v10 (ix2 r k)
      - broadcastTo S2000x2 (shapeCast S2000x1 (maximumf v34 v33) shapeCasts_S2000_S2000x1) broadcasts_S2000x1_S2000x2 (ix2 r k) = _
  refine congrArg (fun z => v10 (ix2 r k) - z) ?_
  refine (KTileAux.broadcastTo_a1_ab_apply _ _ r k).trans ?_
  exact KTileAux.shapeCast_a_a1_apply _ _ r 0

/-- The log-softmax at (r, k): the shifted logit less the log of the sum of the two shifted logits' exponentials. -/
theorem logp_apply (r : Fin 2000) (k : Fin 2) :
    logp v10 v33 v34 (ix2 r k)
      = (v10 (ix2 r k) - max (v34 (ix1 r)) (v33 (ix1 r)))
        - Ideal.log (Ideal.exp (v10 (ix2 r (0 : Fin 2)) - max (v34 (ix1 r)) (v33 (ix1 r)))
            + Ideal.exp (v10 (ix2 r (1 : Fin 2)) - max (v34 (ix1 r)) (v33 (ix1 r)))) := by
  have e : broadcastTo S2000x2
        (log (shapeCast S2000x1
          (multiReduction .add [1] S2000 (exp (shifted v10 v33 v34)) 0x00000000#32 reduces_S2000x2_S2000 (.inl rfl) rfl)
          shapeCasts_S2000_S2000x1))
        broadcasts_S2000x1_S2000x2 (ix2 r k)
      = Ideal.log (Ideal.exp (shifted v10 v33 v34 (ix2 r (0 : Fin 2))) + Ideal.exp (shifted v10 v33 v34 (ix2 r (1 : Fin 2)))) := by
    refine (KTileAux.broadcastTo_a1_ab_apply _ _ r k).trans ?_
    refine congrArg Ideal.log ?_
    refine (KTileAux.shapeCast_a_a1_apply _ _ r 0).trans ?_
    exact KTileAux.multiReduction_add_lanes2 _ _ _ _ r
  show shifted v10 v33 v34 (ix2 r k) - _ = _
  rw [e, shifted_apply, shifted_apply, shifted_apply]

/-- A select on the bit of an equality of words is the choice by that equality. -/
theorem select_cmpi_eq {α : Type} (x y : BitVec 32) (a b : α) :
    Scalar.select (IntOp.cmpi .eq x y) a b = if x = y then a else b := by
  by_cases h : x = y
  · subst h; simp [Scalar.select, IntOp.cmpi]
  · have hb : (x == y) = false := beq_eq_false_iff_ne.mpr h
    simp [Scalar.select, IntOp.cmpi, hb, h]

/-- The selected log-probability at a row: lane 1 where the label is 1, lane 0 otherwise. -/
theorem selLogp_apply (r : Fin 2000) :
    selLogp v10 v12 v33 v34 (ix2 r (0 : Fin 1))
      = if v12 (ix2 r (0 : Fin 1)) = 1#32 then logp v10 v33 v34 (ix2 r (1 : Fin 2)) else logp v10 v33 v34 (ix2 r (0 : Fin 2)) := by
  have e1 : extractStridedSlice S2000x1 ![0, 1] (logp v10 v33 v34) slices_S2000x2_o0_1_S2000x1 (ix2 r (0 : Fin 1))
      = logp v10 v33 v34 (ix2 r (1 : Fin 2)) := slice2_axis1_apply 1 _ _ r 0 1 rfl
  have e0 : extractStridedSlice S2000x1 ![0, 0] (logp v10 v33 v34) slices_S2000x2_o0_0_S2000x1 (ix2 r (0 : Fin 1))
      = logp v10 v33 v34 (ix2 r (0 : Fin 2)) := slice2_axis1_apply 0 _ _ r 0 0 rfl
  show Scalar.select (IntOp.cmpi .eq (v12 (ix2 r (0 : Fin 1))) 1#32) _ _ = _
  rw [select_cmpi_eq, e1, e0]

/-- The indicator at a row, as a number: one where the label is 1, zero otherwise. -/
theorem posF_apply (r : Fin 2000) : posF v12 (ix2 r (0 : Fin 1)) = Cert.Spec.maskf (v12 (ix2 r (0 : Fin 1))) := by
  show ((((IntOp.cmpi .eq (v12 (ix2 r (0 : Fin 1))) 1#32).setWidth 32).toInt : ℝ) : EReal) = _
  unfold Cert.Spec.maskf
  by_cases h : v12 (ix2 r (0 : Fin 1)) = 1#32
  · rw [if_pos h, h]
    have : ((IntOp.cmpi .eq (1#32) 1#32).setWidth 32).toInt = 1 := by decide
    rw [this]; simp
  · rw [if_neg h]
    have hbe : (v12 (ix2 r (0 : Fin 1)) == 1#32) = false := beq_eq_false_iff_ne.mpr h
    have hb : IntOp.cmpi .eq (v12 (ix2 r (0 : Fin 1))) 1#32 = 0#1 := by simp [IntOp.cmpi, hbe]
    rw [hb]
    have : ((0#1 : BitVec 1).setWidth 32).toInt = 0 := by decide
    rw [this]; simp

/-- One less the indicator at a row. -/
theorem negF_apply (r : Fin 2000) :
    negF v12 (ix2 r (0 : Fin 1)) = Cert.Spec.one - Cert.Spec.maskf (v12 (ix2 r (0 : Fin 1))) := by
  show Ideal.ofBits .f32 0x3F800000#32 - posF v12 (ix2 r (0 : Fin 1)) = _
  rw [posF_apply]; rfl

end Rows

/-! ## The tile of sums at an entry -/

section Tile

variable (v10 : FVec Ideal S2000x2 .f32) (v12 : IVec S2000x1 32) (v14 v28 v32 : FVec Ideal S2000x1 .f32)
  (v33 v34 : FVec Ideal S2000 .f32)

/-- The sum of a column, as a (1, 1) matrix, at its one entry: the sum over the block's rows. -/
theorem colSum_apply (c : FVec Ideal S2000x1 .f32) (u v : Fin 1) :
    colSum c (ix2 u v) = ∑ r : Fin 2000, c (ix2 r (0 : Fin 1)) :=
  (KTileAux.shapeCast_1_11_apply _ _ u v).trans (KTileAux.multiReduction_add_col c _ _ _ 0)

/-- The five columns as a family. -/
def cols (k : Fin 5) : FVec Ideal S2000x1 .f32 :=
  ![col0 v10 v12 v14 v33 v34, col1 v12 v14, col2 v12 v14, col3 v12 v14 v28, col4 v12 v14 v32] k

/-- Lane k of the row of five sums is the sum of column k over the block's rows. -/
theorem sums5_apply (u : Fin 1) (k : Fin 5) :
    sums5 v10 v12 v14 v28 v32 v33 v34 (ix2 u k)
      = ∑ r : Fin 2000, cols v10 v12 v14 v28 v32 v33 v34 k (ix2 r (0 : Fin 1)) := by
  refine (KTileAux.concatenate_five_apply _ _ _ _ _ _ u k).trans ?_
  match k with
  | ⟨0, _⟩ => exact colSum_apply _ 0 0
  | ⟨1, _⟩ => exact colSum_apply _ 0 0
  | ⟨2, _⟩ => exact colSum_apply _ 0 0
  | ⟨3, _⟩ => exact colSum_apply _ 0 0
  | ⟨4, _⟩ => exact colSum_apply _ 0 0

/-- Entry (s, l) of the tile of sums: the sum of column l in lanes below 5 of row 0, zero elsewhere. -/
theorem sumTile_apply (s : Fin 8) (l : Fin 128) :
    sumTile v10 v12 v14 v28 v32 v33 v34 (ix2 s l)
      = if h : s.val = 0 ∧ l.val < 5 then
          ∑ r : Fin 2000, cols v10 v12 v14 v28 v32 v33 v34 ⟨l.val, h.2⟩ (ix2 r (0 : Fin 1))
        else 0 := by
  refine (KTileAux.concatenate_1_7_rows_apply _ _ _ s l).trans ?_
  by_cases hs : s.val = 0
  · rw [dif_pos hs]
    refine (KTileAux.concatenate_5_123_apply _ _ _ 0 l).trans ?_
    by_cases hl : l.val < 5
    · rw [dif_pos hl, dif_pos ⟨hs, hl⟩]
      exact sums5_apply v10 v12 v14 v28 v32 v33 v34 0 ⟨l.val, hl⟩
    · rw [dif_neg hl, dif_neg (fun h => hl h.2)]
      exact Ideal.ofBits_zero_f32
  · rw [dif_neg hs, dif_neg (fun h => hs h.1)]
    exact Ideal.ofBits_zero_f32

end Tile

/-! ## The columns of the loaded blocks are the rows' terms -/

section Spec

variable (x0 x1 : Vec Ideal S2000x4 .f32) (x2 : Vec Ideal S2000x2 .f32) (x3 : Vec Ideal S2000x4 .f32)
  (x4 : Vec Ideal S2000x1 .i32) (x5 : Vec Ideal S2000x1 .f32)

/-- A block cast to its own shape is the block. -/
theorem pay3_eq : k0_pay3 x2 = x2 := shapeCast_self x2 _
theorem pay4_eq : k0_pay4 (F := Ideal) x4 = x4 := shapeCast_self x4 _
theorem pay5_eq : k0_pay5 x5 = x5 := shapeCast_self x5 _

/-- The running maximum joined with the splat of minus infinity is the larger of the row's two logits. -/
theorem rowMax_apply (r : Fin 2000) :
    max ((k0_pay10 (F := Ideal)) (ix1 r)) (k0_pay9 x2 (ix1 r)) = Cert.Spec.rowMax (fun k => x2 (ix2 r k)) := by
  have e9 : k0_pay9 x2 (ix1 r) = max (x2 (ix2 r (0 : Fin 2))) (x2 (ix2 r (1 : Fin 2))) := by
    show multiReduction .maximumf [1] S2000 (k0_pay3 x2) 0xFF800000#32 reduces_S2000x2_S2000 (.inl rfl) rfl (ix1 r) = _
    rw [pay3_eq]
    exact KTileAux.multiReduction_max_lanes2 x2 _ _ _ r
  have e10 : (k0_pay10 (F := Ideal)) (ix1 r) = ⊥ := KTileAux.ofBits_neg_inf_f32
  rw [e9, e10, max_bot_left]
  rfl

/-- The log-softmax column of the loaded logits at (r, k) is the row's log-softmax of class k. -/
theorem logp_lsm (r : Fin 2000) (k : Fin 2) :
    logp (k0_pay3 x2) (k0_pay9 x2) (k0_pay10 (F := Ideal)) (ix2 r k) = Cert.Spec.lsm (fun k => x2 (ix2 r k)) k := by
  rw [logp_apply, rowMax_apply, pay3_eq]
  rfl

/-- The selected log-probability of the loaded blocks at a row. -/
theorem selLogp_sel (r : Fin 2000) :
    selLogp (k0_pay3 x2) (k0_pay4 x4) (k0_pay9 x2) (k0_pay10 (F := Ideal)) (ix2 r (0 : Fin 1))
      = Cert.Spec.sel (fun k => x2 (ix2 r k)) (x4 (ix2 r (0 : Fin 1))) := by
  rw [selLogp_apply, logp_lsm, logp_lsm, pay4_eq]
  rfl

/-- Column k of the loaded blocks at row r is term k of the row. -/
theorem cols_rowTerm (k : Fin 5) (r : Fin 2000) :
    cols (k0_pay3 x2) (k0_pay4 x4) (k0_pay5 x5) (k0_pay7 x0 x1 x3) (k0_pay8 x1) (k0_pay9 x2) (k0_pay10 (F := Ideal)) k
        (ix2 r (0 : Fin 1))
      = Cert.Spec.rowTerm k (fun k => x0 (ix2 r k)) (fun k => x1 (ix2 r k)) (fun k => x3 (ix2 r k))
          (fun k => x2 (ix2 r k)) (x4 (ix2 r (0 : Fin 1))) (x5 (ix2 r (0 : Fin 1))) := by
  match k with
  | ⟨0, _⟩ =>
    show (Ideal.ofBits .f32 0x00000000#32
        - selLogp (k0_pay3 x2) (k0_pay4 x4) (k0_pay9 x2) (k0_pay10 (F := Ideal)) (ix2 r (0 : Fin 1)))
          * k0_pay5 x5 (ix2 r (0 : Fin 1)) = _
    rw [selLogp_sel, pay5_eq]
    rfl
  | ⟨1, _⟩ =>
    show posF (k0_pay4 x4) (ix2 r (0 : Fin 1)) * k0_pay5 x5 (ix2 r (0 : Fin 1)) = _
    rw [posF_apply, pay4_eq, pay5_eq]
    rfl
  | ⟨2, _⟩ =>
    show negF (k0_pay4 x4) (ix2 r (0 : Fin 1)) * k0_pay5 x5 (ix2 r (0 : Fin 1)) = _
    rw [negF_apply, pay4_eq, pay5_eq]
    rfl
  | ⟨3, _⟩ =>
    show (posF (k0_pay4 x4) (ix2 r (0 : Fin 1)) * k0_pay5 x5 (ix2 r (0 : Fin 1))) * k0_pay7 x0 x1 x3 (ix2 r (0 : Fin 1)) = _
    rw [posF_apply, pay4_eq, pay5_eq, KRows.pay7_apply]
    rfl
  | ⟨4, _⟩ =>
    show (negF (k0_pay4 x4) (ix2 r (0 : Fin 1)) * k0_pay5 x5 (ix2 r (0 : Fin 1))) * k0_pay8 x1 (ix2 r (0 : Fin 1)) = _
    rw [negF_apply, pay4_eq, pay5_eq, KRows.pay8_apply]
    rfl

end Spec

/-- The tile at an entry, over the extended reals: what was there, plus — in lane l < 5 of sublane 0 — the sum over
    the block's 2000 rows of term l of the row; elsewhere plus zero. -/
theorem tile_apply (x0 x1 : Vec Ideal S2000x4 .f32) (x2 : Vec Ideal S2000x2 .f32) (x3 : Vec Ideal S2000x4 .f32)
    (x4 : Vec Ideal S2000x1 .i32) (x5 : Vec Ideal S2000x1 .f32) (xo : Vec Ideal S1x8x128 .f32) (s : Fin 8) (l : Fin 128) :
    tile x0 x1 x2 x3 x4 x5 xo (ix3 0 s l)
      = xo (ix3 0 s l) + (if h : s.val = 0 ∧ l.val < 5 then
          ∑ r : Fin 2000, Cert.Spec.rowTerm ⟨l.val, h.2⟩ (fun k => x0 (ix2 r k)) (fun k => x1 (ix2 r k)) (fun k => x3 (ix2 r k))
            (fun k => x2 (ix2 r k)) (x4 (ix2 r 0)) (x5 (ix2 r 0))
        else 0) := by
  show shapeCast S1x8x128
      (k0_pay11 (k0_pay3 x2) (k0_pay4 x4) (k0_pay5 x5) (k0_pay7 x0 x1 x3) (k0_pay8 x1) (k0_pay9 x2) (k0_pay10 (F := Ideal)) xo)
      shapeCasts_S8x128_S1x8x128 (ix3 0 s l) = _
  refine (shapeCast_ab_1ab_apply _ _ 0 s l).trans ?_
  rw [pay11_eq]
  show shapeCast S8x128 xo shapeCasts_S1x8x128_S8x128 (ix2 s l)
      + sumTile (k0_pay3 x2) (k0_pay4 x4) (k0_pay5 x5) (k0_pay7 x0 x1 x3) (k0_pay8 x1) (k0_pay9 x2) (k0_pay10 (F := Ideal)) (ix2 s l) = _
  rw [shapeCast_1ab_ab_apply, sumTile_apply]
  refine congrArg (fun z => xo (ix3 0 s l) + z) ?_
  by_cases h : s.val = 0 ∧ l.val < 5
  · rw [dif_pos h, dif_pos h]
    exact Finset.sum_congr rfl fun r _ => cols_rowTerm x0 x1 x2 x3 x4 x5 ⟨l.val, h.2⟩ r
  · rw [dif_neg h, dif_neg h]

end Cert.KernelIdeal.KBody

end
-- ==== Proof.KAccum.lean ====
/-
  What the kernel's result array holds after the whole grid.

  The grid is 2 halves by 250 blocks. Within a half the accumulator tile is carried from block to block (reset to zero
  at the half's first block) and written back to row `half` of the (2,8,128) result after the half's last block. So
  entry (half, 0, l), l < 5, ends at the sum over the half's 250 blocks and each block's 2000 rows of term l of the
  row; every other entry ends at zero.
-/
import proofs.«423612_j88716844466682_2_alg».proof.Proof.KTile

noncomputable section

namespace Cert.KernelIdeal.KAccum

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The result array in closed form, over the six tables as the region finds them. -/
def accArr (c : Dev nD) : Vec Ideal S2x8x128 .f32 := fun idx =>
  if h : (idx 1).val = 0 ∧ (idx 2).val < 5 then
    ∑ b : Fin 250, ∑ r : Fin 2000, Cert.Spec.rowTerm ⟨(idx 2).val, h.2⟩
      (fun k => V m c main_v10 (ix2 (Cert.Spec.grow (idx 0) b r) k))
      (fun k => V m c main_v11 (ix2 (Cert.Spec.grow (idx 0) b r) k))
      (fun k => V m c main_v13 (ix2 (Cert.Spec.grow (idx 0) b r) k))
      (fun k => V m c main_v12 (ix2 (Cert.Spec.grow (idx 0) b r) k))
      (V m c main_v15 (ix2 (Cert.Spec.grow (idx 0) b r) 0))
      (V m c main_v16 (ix2 (Cert.Spec.grow (idx 0) b r) 0))
  else 0

/-! ## The grid and the index maps -/

/-- The grid has 2 * 250 = 500 points. -/
theorem N500 : cfg0.N = 500 := N_0

theorem lt500 (t : Fin cfg0.N) : t.val < 500 := lt_of_lt_of_eq t.isLt N500

/-- The index maps over the grid: at point t every table's block is block t along the rows (column block 0), and the
    result's block is row t / 250 of the (2,8,128) array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 3) = t.val / 250 ∧ win0_6.index t (1 : Fin 3) = 0 ∧ win0_6.index t (2 : Fin 3) = 0 :=
  (by decide +kernel : ∀ t : Fin grid0.N, _)

/-! ## The six input blocks of a point, and where they sit in the tables -/

/-- The blocks of the six tables at point t. -/
abbrev blk0 (c : Dev nD) (t : Fin cfg0.N) : Vec Ideal S2000x4 .f32 := iblk m c 0 t
abbrev blk1 (c : Dev nD) (t : Fin cfg0.N) : Vec Ideal S2000x4 .f32 := iblk m c 1 t
abbrev blk2 (c : Dev nD) (t : Fin cfg0.N) : Vec Ideal S2000x2 .f32 := iblk m c 2 t
abbrev blk3 (c : Dev nD) (t : Fin cfg0.N) : Vec Ideal S2000x4 .f32 := iblk m c 3 t
abbrev blk4 (c : Dev nD) (t : Fin cfg0.N) : Vec Ideal S2000x1 .i32 := iblk m c 4 t
abbrev blk5 (c : Dev nD) (t : Fin cfg0.N) : Vec Ideal S2000x1 .f32 := iblk m c 5 t

/-- Row r of block t is row 2000 t + r of the table. -/
def trow (t : Fin cfg0.N) (r : Fin 2000) : Fin 1000000 :=
  ⟨t.val * 2000 + r.val, by have := lt500 t; have := r.isLt; omega⟩

theorem blk0_apply (c : Dev nD) (t : Fin cfg0.N) (r : Fin 2000) (k : Fin 4) :
    blk0 m c t (ix2 r k) = V m c main_v10 (ix2 (trow t r) k) := by
  obtain ⟨e0, e1, -⟩ := idx_facts t
  show ((cfg0.win 0).blk t).view.read (Elt Ideal) (V m c main_v10) (ix2 r k) = _
  rw [View.read_apply]
  show V m c main_v10 (((cfg0.win 0).blk t).view.emb (ix2 r k)) = V m c main_v10 (ix2 (trow t r) k)
  congr 1
  funext a
  apply Fin.ext
  match a with
  | ⟨0, _⟩ => show win0_0.index t (0 : Fin 2) * 2000 + 1 * r.val = t.val * 2000 + r.val; rw [e0]; omega
  | ⟨1, _⟩ => show win0_0.index t (1 : Fin 2) * 4 + 1 * k.val = k.val; rw [e1]; omega

theorem blk1_apply (c : Dev nD) (t : Fin cfg0.N) (r : Fin 2000) (k : Fin 4) :
    blk1 m c t (ix2 r k) = V m c main_v11 (ix2 (trow t r) k) := by
  obtain ⟨-, -, e0, e1, -⟩ := idx_facts t
  show ((cfg0.win 1).blk t).view.read (Elt Ideal) (V m c main_v11) (ix2 r k) = _
  rw [View.read_apply]
  show V m c main_v11 (((cfg0.win 1).blk t).view.emb (ix2 r k)) = V m c main_v11 (ix2 (trow t r) k)
  congr 1
  funext a
  apply Fin.ext
  match a with
  | ⟨0, _⟩ => show win0_1.index t (0 : Fin 2) * 2000 + 1 * r.val = t.val * 2000 + r.val; rw [e0]; omega
  | ⟨1, _⟩ => show win0_1.index t (1 : Fin 2) * 4 + 1 * k.val = k.val; rw [e1]; omega

theorem blk2_apply (c : Dev nD) (t : Fin cfg0.N) (r : Fin 2000) (k : Fin 2) :
    blk2 m c t (ix2 r k) = V m c main_v12 (ix2 (trow t r) k) := by
  obtain ⟨-, -, -, -, e0, e1, -⟩ := idx_facts t
  show ((cfg0.win 2).blk t).view.read (Elt Ideal) (V m c main_v12) (ix2 r k) = _
  rw [View.read_apply]
  show V m c main_v12 (((cfg0.win 2).blk t).view.emb (ix2 r k)) = V m c main_v12 (ix2 (trow t r) k)
  congr 1
  funext a
  apply Fin.ext
  match a with
  | ⟨0, _⟩ => show win0_2.index t (0 : Fin 2) * 2000 + 1 * r.val = t.val * 2000 + r.val; rw [e0]; omega
  | ⟨1, _⟩ => show win0_2.index t (1 : Fin 2) * 2 + 1 * k.val = k.val; rw [e1]; omega

theorem blk3_apply (c : Dev nD) (t : Fin cfg0.N) (r : Fin 2000) (k : Fin 4) :
    blk3 m c t (ix2 r k) = V m c main_v13 (ix2 (trow t r) k) := by
  obtain ⟨-, -, -, -, -, -, e0, e1, -⟩ := idx_facts t
  show ((cfg0.win 3).blk t).view.read (Elt Ideal) (V m c main_v13) (ix2 r k) = _
  rw [View.read_apply]
  show V m c main_v13 (((cfg0.win 3).blk t).view.emb (ix2 r k)) = V m c main_v13 (ix2 (trow t r) k)
  congr 1
  funext a
  apply Fin.ext
  match a with
  | ⟨0, _⟩ => show win0_3.index t (0 : Fin 2) * 2000 + 1 * r.val = t.val * 2000 + r.val; rw [e0]; omega
  | ⟨1, _⟩ => show win0_3.index t (1 : Fin 2) * 4 + 1 * k.val = k.val; rw [e1]; omega

theorem blk4_apply (c : Dev nD) (t : Fin cfg0.N) (r : Fin 2000) (k : Fin 1) :
    blk4 m c t (ix2 r k) = V m c main_v15 (ix2 (trow t r) k) := by
  obtain ⟨-, -, -, -, -, -, -, -, e0, e1, -⟩ := idx_facts t
  show ((cfg0.win 4).blk t).view.read (Elt Ideal) (V m c main_v15) (ix2 r k) = _
  rw [View.read_apply]
  show V m c main_v15 (((cfg0.win 4).blk t).view.emb (ix2 r k)) = V m c main_v15 (ix2 (trow t r) k)
  congr 1
  funext a
  apply Fin.ext
  match a with
  | ⟨0, _⟩ => show win0_4.index t (0 : Fin 2) * 2000 + 1 * r.val = t.val * 2000 + r.val; rw [e0]; omega
  | ⟨1, _⟩ => show win0_4.index t (1 : Fin 2) * 1 + 1 * k.val = k.val; rw [e1]; omega

theorem blk5_apply (c : Dev nD) (t : Fin cfg0.N) (r : Fin 2000) (k : Fin 1) :
    blk5 m c t (ix2 r k) = V m c main_v16 (ix2 (trow t r) k) := by
  obtain ⟨-, -, -, -, -, -, -, -, -, -, e0, e1, -⟩ := idx_facts t
  show ((cfg0.win 5).blk t).view.read (Elt Ideal) (V m c main_v16) (ix2 r k) = _
  rw [View.read_apply]
  show V m c main_v16 (((cfg0.win 5).blk t).view.emb (ix2 r k)) = V m c main_v16 (ix2 (trow t r) k)
  congr 1
  funext a
  apply Fin.ext
  match a with
  | ⟨0, _⟩ => show win0_5.index t (0 : Fin 2) * 2000 + 1 * r.val = t.val * 2000 + r.val; rw [e0]; omega
  | ⟨1, _⟩ => show win0_5.index t (1 : Fin 2) * 1 + 1 * k.val = k.val; rw [e1]; omega

/-! ## What one point adds to the tile -/

/-- What point t adds at entry (0, s, l) of the tile: in lane l < 5 of sublane 0 the sum over the block's 2000 rows of
    term l of the row, elsewhere zero. -/
def addend (c : Dev nD) (t : Fin cfg0.N) (s : Fin 8) (l : Fin 128) : EReal :=
  if h : s.val = 0 ∧ l.val < 5 then
    ∑ r : Fin 2000, Cert.Spec.rowTerm ⟨l.val, h.2⟩ (fun k => blk0 m c t (ix2 r k)) (fun k => blk1 m c t (ix2 r k))
      (fun k => blk3 m c t (ix2 r k)) (fun k => blk2 m c t (ix2 r k)) (blk4 m c t (ix2 r 0)) (blk5 m c t (ix2 r 0))
  else 0

/-- The first point of a half leaves its own addend (over the zero tile). -/
theorem step_A (c : Dev nD) (t : Fin cfg0.N) (h0 : t.val % 250 = 0) (s : Fin 8) (l : Fin 128) :
    outsAt0 m c t.val t.isLt (ix3 0 s l) = addend m c t s l := by
  rw [outsAt0_A m c t h0]
  refine (congrFun (KBody.out_A (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) ((hcond0_0 t).mpr h0)
    (blk0 m c t) (blk1 m c t) (blk2 m c t) (blk3 m c t) (blk4 m c t) (blk5 m c t)) (ix3 0 s l)).trans ?_
  refine (KBody.tile_apply (blk0 m c t) (blk1 m c t) (blk2 m c t) (blk3 m c t) (blk4 m c t) (blk5 m c t) (k0_pay2 (F := Ideal)) s l).trans ?_
  rw [KBody.pay2_apply, zero_add]
  rfl

/-- Any other point adds its addend to what the point before left. -/
theorem step_B (c : Dev nD) (n : ℕ) (h : n + 1 < cfg0.N) (hB : ¬(n + 1) % 250 = 0) (s : Fin 8) (l : Fin 128) :
    outsAt0 m c (n + 1) h (ix3 0 s l)
      = outsAt0 m c n (Nat.lt_of_succ_lt h) (ix3 0 s l) + addend m c ⟨n + 1, h⟩ s l := by
  rw [outsAt0_B m c ⟨n + 1, h⟩ hB]
  refine (congrFun (KBody.out_B (F := Ideal) c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩)
    (ms0_6 ⟨n + 1, h⟩) (hs0_6 ⟨n + 1, h⟩) (fun hc => hB ((hcond0_0 ⟨n + 1, h⟩).mp hc))
    (blk0 m c ⟨n + 1, h⟩) (blk1 m c ⟨n + 1, h⟩) (blk2 m c ⟨n + 1, h⟩) (blk3 m c ⟨n + 1, h⟩) (blk4 m c ⟨n + 1, h⟩) (blk5 m c ⟨n + 1, h⟩)
    (outsAt0 m c n (Nat.lt_of_succ_lt h))) (ix3 0 s l)).trans ?_
  refine (KBody.tile_apply (blk0 m c ⟨n + 1, h⟩) (blk1 m c ⟨n + 1, h⟩) (blk2 m c ⟨n + 1, h⟩) (blk3 m c ⟨n + 1, h⟩) (blk4 m c ⟨n + 1, h⟩)
    (blk5 m c ⟨n + 1, h⟩) (outsAt0 m c n (Nat.lt_of_succ_lt h)) s l).trans ?_
  rfl

/-! ## The tile after a run of points -/

/-- The addend of point number n (zero past the grid). -/
def addN (c : Dev nD) (s : Fin 8) (l : Fin 128) (n : ℕ) : EReal :=
  if h : n < cfg0.N then addend m c ⟨n, h⟩ s l else 0

theorem addN_of_lt (c : Dev nD) (s : Fin 8) (l : Fin 128) (n : ℕ) (h : n < cfg0.N) :
    addN m c s l n = addend m c ⟨n, h⟩ s l := dif_pos h

/-- After point 250 q + j (j < 250) the tile holds the sum of the addends of points 250 q, …, 250 q + j: the first adds
    to zero, each later one to what the point before left. By induction on j. -/
theorem outs_run (c : Dev nD) (s : Fin 8) (l : Fin 128) (q : ℕ) :
    ∀ (j : ℕ) (_ : j < 250) (h : 250 * q + j < cfg0.N),
      outsAt0 m c (250 * q + j) h (ix3 0 s l) = ∑ i ∈ Finset.range (j + 1), addN m c s l (250 * q + i)
  | 0, _, h => by
    rw [Finset.sum_range_one, addN_of_lt m c s l (250 * q + 0) h]
    exact step_A m c ⟨250 * q + 0, h⟩ (by show (250 * q + 0) % 250 = 0; omega) s l
  | j + 1, hj, h => by
    have hB : ¬(250 * q + j + 1) % 250 = 0 := by omega
    rw [Finset.sum_range_succ, ← outs_run c s l q j (by omega) (Nat.lt_of_succ_lt h),
      addN_of_lt m c s l (250 * q + (j + 1)) h]
    exact step_B m c (250 * q + j) h hB s l

/-- At the last point of a half the tile holds the sum of the half's 250 addends. -/
theorem outs_flush (c : Dev nD) (t : Fin cfg0.N) (hf : t.val % 250 = 249) (s : Fin 8) (l : Fin 128) :
    outsAt0 m c t.val t.isLt (ix3 0 s l) = ∑ b : Fin 250, addN m c s l (250 * (t.val / 250) + b.val) := by
  have ht : 250 * (t.val / 250) + 249 = t.val := by omega
  have h' : 250 * (t.val / 250) + 249 < cfg0.N := lt_of_eq_of_lt ht t.isLt
  have same : ∀ (u : ℕ) (hu : u < cfg0.N), u = t.val → outsAt0 m c u hu = outsAt0 m c t.val t.isLt :=
    fun u hu e => by subst e; rfl
  rw [← same _ h' ht, outs_run m c s l (t.val / 250) 249 (by omega) h']
  exact Finset.sum_range (fun i => addN m c s l (250 * (t.val / 250) + i))

/-! ## The addends over the tables' rows -/

/-- Row r of block 250 h + b is row (250 h + b) 2000 + r of the table. -/
theorem trow_grow (half : Fin 2) (b : Fin 250) (hb : 250 * half.val + b.val < cfg0.N) (r : Fin 2000) :
    trow ⟨250 * half.val + b.val, hb⟩ r = Cert.Spec.grow half b r := by
  apply Fin.ext
  show (250 * half.val + b.val) * 2000 + r.val = (half.val * 250 + b.val) * 2000 + r.val
  omega

/-- The addend of block b of half h, over the tables' rows. -/
theorem addend_rows (c : Dev nD) (half : Fin 2) (b : Fin 250) (hb : 250 * half.val + b.val < cfg0.N)
    (s : Fin 8) (l : Fin 128) :
    addend m c ⟨250 * half.val + b.val, hb⟩ s l
      = if h : s.val = 0 ∧ l.val < 5 then
          ∑ r : Fin 2000, Cert.Spec.rowTerm ⟨l.val, h.2⟩
            (fun k => V m c main_v10 (ix2 (Cert.Spec.grow half b r) k))
            (fun k => V m c main_v11 (ix2 (Cert.Spec.grow half b r) k))
            (fun k => V m c main_v13 (ix2 (Cert.Spec.grow half b r) k))
            (fun k => V m c main_v12 (ix2 (Cert.Spec.grow half b r) k))
            (V m c main_v15 (ix2 (Cert.Spec.grow half b r) 0))
            (V m c main_v16 (ix2 (Cert.Spec.grow half b r) 0))
        else 0 := by
  unfold addend
  by_cases h : s.val = 0 ∧ l.val < 5
  · rw [dif_pos h, dif_pos h]
    refine Finset.sum_congr rfl fun r _ => ?_
    simp only [blk0_apply, blk1_apply, blk2_apply, blk3_apply, blk4_apply, blk5_apply, trow_grow]
  · rw [dif_neg h, dif_neg h]

/-- The closed form at an entry given by its coordinates. -/
theorem accArr_apply (c : Dev nD) (half : Fin 2) (s : Fin 8) (l : Fin 128) :
    accArr m c (ix3 half s l)
      = if h : s.val = 0 ∧ l.val < 5 then
          ∑ b : Fin 250, ∑ r : Fin 2000, Cert.Spec.rowTerm ⟨l.val, h.2⟩
            (fun k => V m c main_v10 (ix2 (Cert.Spec.grow half b r) k))
            (fun k => V m c main_v11 (ix2 (Cert.Spec.grow half b r) k))
            (fun k => V m c main_v13 (ix2 (Cert.Spec.grow half b r) k))
            (fun k => V m c main_v12 (ix2 (Cert.Spec.grow half b r) k))
            (V m c main_v15 (ix2 (Cert.Spec.grow half b r) 0))
            (V m c main_v16 (ix2 (Cert.Spec.grow half b r) 0))
        else 0 := rfl

/-- The sum of a half's 250 addends is the closed form's entry. -/
theorem sum_addN (c : Dev nD) (half : Fin 2) (s : Fin 8) (l : Fin 128) :
    ∑ b : Fin 250, addN m c s l (250 * half.val + b.val) = accArr m c (ix3 half s l) := by
  rw [accArr_apply]
  have hb : ∀ b : Fin 250, 250 * half.val + b.val < cfg0.N := fun b => by
    rw [N500]; have := half.isLt; have := b.isLt; omega
  by_cases h : s.val = 0 ∧ l.val < 5
  · rw [dif_pos h]
    refine Finset.sum_congr rfl fun b _ => ?_
    rw [addN_of_lt m c s l _ (hb b), addend_rows m c half b (hb b) s l, dif_pos h]
  · rw [dif_neg h]
    refine Finset.sum_eq_zero fun b _ => ?_
    rw [addN_of_lt m c s l _ (hb b), addend_rows m c half b (hb b) s l, dif_neg h]

/-! ## The two write-backs and the result array -/

/-- The last point of half h writes back row h of the closed form. -/
theorem flushed_eq (c : Dev nD) (t : Fin cfg0.N) (hf : (cfg0.win 6).flush t = true) :
    (dats m 0 c).flushed 6 t = ((cfg0.win 6).blk t).view.read (Elt Ideal) (accArr m c) := by
  have hN := lt500 t
  have h249 : t.val % 250 = 249 := (flush0_6 t).mp hf
  obtain ⟨-, -, -, -, -, -, -, -, -, -, -, -, e0, e1, e2⟩ := idx_facts t
  show (cfg0.win 6).cut (grid0.coords t) ((dats m 0 c).after 6 t) = _
  rw [after0_6]
  funext j
  obtain ⟨a, s, l, rfl⟩ : ∃ (a : Fin 1) (s : Fin 8) (l : Fin 128), j = ix3 a s l := ⟨j 0, j 1, j 2, eq_ix3 j⟩
  obtain rfl : a = 0 := Subsingleton.elim _ _
  have hemb : ((cfg0.win 6).blk t).view.emb (ix3 0 s l) = ix3 (⟨t.val / 250, by omega⟩ : Fin 2) s l := by
    funext a; apply Fin.ext
    match a with
    | ⟨0, _⟩ => show win0_6.index t (0 : Fin 3) * 1 + 1 * 0 = t.val / 250; rw [e0]; omega
    | ⟨1, _⟩ => show win0_6.index t (1 : Fin 3) * 8 + 1 * s.val = s.val; rw [e1]; omega
    | ⟨2, _⟩ => show win0_6.index t (2 : Fin 3) * 128 + 1 * l.val = l.val; rw [e2]; omega
  show outsAt0 m c t.val t.isLt (ix3 0 s l) = accArr m c (((cfg0.win 6).blk t).view.emb (ix3 0 s l))
  rw [hemb, outs_flush m c t h249 s l]
  exact sum_addN m c ⟨t.val / 250, by omega⟩ s l

/-- An index of the result array is in point t's block iff each coordinate is in the block's range on its axis. -/
theorem mem_blk6 (t : Fin cfg0.N) (i : S2x8x128.Idx) :
    i ∈ ((cfg0.win 6).blk t).view.set ↔ ∀ a : Fin 3, win0_6.index t a * S1x8x128.size a ≤ (i a).val
      ∧ (i a).val < win0_6.index t a * S1x8x128.size a + S1x8x128.size a := by
  show i ∈ ((View.whole main_v17).slice (win0_6.rect t)).set ↔ _
  rw [View.set_slice_whole, Rect.mem_set_unit]
  exact Iff.rfl

/-- After the last point the result array is that closed form. -/
theorem final6 (c : Dev nD) : (dats m 0 c).arrAt 6 cfg0.N = accArr m c := by
  refine (dats m 0 c).arrAt_eq_of_cover 6 (accArr m c) (flushed_eq m c) fun i => ?_
  have hi0 : (i 0).val < 2 := (i 0).isLt
  have hi1 : (i 1).val < 8 := (i 1).isLt
  have hi2 : (i 2).val < 128 := (i 2).isLt
  have ht : 250 * (i 0).val + 249 < cfg0.N := by rw [N500]; omega
  obtain ⟨-, -, -, -, -, -, -, -, -, -, -, -, e0, e1, e2⟩ := idx_facts ⟨250 * (i 0).val + 249, ht⟩
  refine ⟨⟨250 * (i 0).val + 249, ht⟩, (flush0_6 _).mpr (by show (250 * (i 0).val + 249) % 250 = 249; omega), ?_⟩
  rw [mem_blk6]
  intro a
  match a with
  | ⟨0, _⟩ =>
    show win0_6.index ⟨250 * (i 0).val + 249, ht⟩ (0 : Fin 3) * 1 ≤ (i 0).val
      ∧ (i 0).val < win0_6.index ⟨250 * (i 0).val + 249, ht⟩ (0 : Fin 3) * 1 + 1
    rw [e0]; dsimp only; omega
  | ⟨1, _⟩ =>
    show win0_6.index ⟨250 * (i 0).val + 249, ht⟩ (1 : Fin 3) * 8 ≤ (i 1).val
      ∧ (i 1).val < win0_6.index ⟨250 * (i 0).val + 249, ht⟩ (1 : Fin 3) * 8 + 8
    rw [e1]; omega
  | ⟨2, _⟩ =>
    show win0_6.index ⟨250 * (i 0).val + 249, ht⟩ (2 : Fin 3) * 128 ≤ (i 2).val
      ∧ (i 2).val < win0_6.index ⟨250 * (i 0).val + 249, ht⟩ (2 : Fin 3) * 128 + 128
    rw [e2]; omega

end Cert.KernelIdeal.KAccum

end
-- ==== Proof.KHost.lean ====
/-
  The kernel program's run, read as a value: the host operations before the region (the reshapes, and the
  scatter-add that counts how often each row is selected), the region's result array (KAccum), and the host
  operations after it (the sum of the two halves, the five scalars, the quotients and the guarded sum).
-/
import proofs.«423612_j88716844466682_2_alg».proof.Proof.KAccum
import Idealize.ShloMosaic.Lib.StableHlo.Run
import Idealize.ShloMosaic.Lib.Pipeline.Value
import Idealize.ShloMosaic.Lib.IdealHost
import Idealize.ShloMosaic.Lib.ValueLayout

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

/-! ## Where an update of the scatter-add lands

The scatter has one index axis into the one axis of the operand, no window axis: update `j` lands at the row its index
word names, read signed and not clamped, and is dropped when that is outside the table. -/

/-- The scatter's dimension numbers: one index axis into the operand's one axis, no window axis. -/
abbrev sd : ScatterDims S1000000 S500000x1 S500000 := scatter_S1000000_S500000x1_S500000_n_0_0_1

/-- There is no window axis, so the window coordinate is zero. -/
theorem sd_window (j : S500000.Idx) (a : Fin S1000000.rank) : sd.window j a = 0 := by
  unfold ScatterDims.window
  exact dif_neg (by revert a; decide)

/-- Update `j` reads its index word at row `j` of the index column. -/
theorem sd_siIdx (j : S500000.Idx) (c : Fin sd.scatterDimsToOperandDims.length) :
    sd.siIdx j c = ix2 (j 0) 0 := by
  funext b
  match b with
  | ⟨0, _⟩ =>
    unfold ScatterDims.siIdx
    rw [dif_neg (show ¬ ((0 : Nat) = sd.indexVectorDim) from by decide)]
    unfold ScatterDims.siCoord
    apply Fin.ext
    rfl
  | ⟨1, _⟩ =>
    unfold ScatterDims.siIdx
    rw [dif_pos (show ((1 : Nat) = sd.indexVectorDim) from by decide)]
    apply Fin.ext
    show c.val = 0
    have := c.isLt
    have h1 : sd.scatterDimsToOperandDims.length = 1 := rfl
    omega

/-- The start of update `j` is its index word read signed. -/
theorem sd_start (j : S500000.Idx) (idx : IVec S500000x1 32) (a : Fin S1000000.rank) :
    sd.start j idx a = (idx (ix2 (j 0) 0)).toInt := by
  unfold ScatterDims.start
  rw [dif_pos (by revert a; decide)]
  exact congrArg (fun i => (idx i).toInt) (sd_siIdx j _)

/-- An update lands on row `i` exactly when its index word, read signed, is `i`. -/
theorem sd_result (j : S500000.Idx) (idx : IVec S500000x1 32) (i : Fin 1000000) :
    sd.resultIdx? j idx = some (ix1 i) ↔ (idx (ix2 (j 0) 0)).toInt = (i.val : Int) := by
  unfold ScatterDims.resultIdx?
  split
  · rename_i h
    rw [Option.some.injEq]
    constructor
    · intro e
      have e0 := congrArg Fin.val (congrFun e (0 : Fin 1))
      have h0 := h (0 : Fin 1)
      rw [sd_start, sd_window] at h0
      simp only [sd_start, sd_window] at e0
      have : ((idx (ix2 (j 0) 0)).toInt + 0).toNat = i.val := e0
      omega
    · intro e
      funext a
      match a with
      | ⟨0, _⟩ =>
        apply Fin.ext
        show (sd.start j idx _ + sd.window j _).toNat = i.val
        rw [sd_start, sd_window, e]
        omega
  · rename_i h
    constructor
    · intro e; exact absurd e (by simp)
    · intro e
      exfalso
      apply h
      intro a
      rw [sd_start, sd_window, e]
      match a with
      | ⟨0, _⟩ =>
        have := i.isLt
        show 0 ≤ (i.val : Int) + ((0 : Nat) : Int) ∧ (i.val : Int) + ((0 : Nat) : Int) < ((1000000 : Nat) : Int)
        omega

/-! ## The sum of the two halves, and the five scalars cut out of it -/

/-- Dropping the leading axis of (h, s, l) leaves (s, l); -/
theorem drop_ix3 (h : Fin 2) (s : Fin 8) (l : Fin 128) :
    reducesTo_S2x8x128_S8x128_d0.drop (ix3 h s l) = ix2 s l := by
  funext b
  match b with
  | ⟨0, _⟩ => rfl
  | ⟨1, _⟩ => rfl

/-- and an index that drops to `j` is (its leading coordinate, j). -/
theorem eq_ix3_of_drop (i : S2x8x128.Idx) (j : S8x128.Idx) (h : reducesTo_S2x8x128_S8x128_d0.drop i = j) :
    i = ix3 (i 0) (j 0) (j 1) := by
  subst h
  funext a
  match a with
  | ⟨0, _⟩ => rfl
  | ⟨1, _⟩ => rfl
  | ⟨2, _⟩ => rfl

/-- The two indices of the (2, 8, 128) array that drop to (s, l). -/
def halfEmb (j : S8x128.Idx) : Fin 2 ↪ S2x8x128.Idx :=
  ⟨fun h => ix3 h (j 0) (j 1), fun h h' e => by have := congrFun e 0; exact this⟩

/-- So the indices summed at `j` are the two (h, j). -/
theorem filter_drop (j : S8x128.Idx) :
    Finset.univ.filter (fun i : S2x8x128.Idx => reducesTo_S2x8x128_S8x128_d0.drop i = j) = Finset.univ.map (halfEmb j) := by
  ext i
  simp only [Finset.mem_filter, Finset.mem_univ, true_and, Finset.mem_map, halfEmb, Function.Embedding.coeFn_mk]
  exact ⟨fun h => ⟨i 0, (eq_ix3_of_drop i j h).symm⟩, fun ⟨k, hk⟩ => hk ▸ (drop_ix3 k (j 0) (j 1)).trans (eq_ix2 j).symm⟩

/-- The sum over the two halves at (s, l): the initial value plus the two entries. -/
theorem red_apply (A : S2x8x128.Idx → EReal) (j : S8x128.Idx) :
    Host.reduceAdd (F := Ideal) (φ := .f32) A (constant S_ .f32 0x00000000#32) reducesTo_S2x8x128_S8x128_d0 h_S_ j
      = Cert.Spec.zero + (A (ix3 0 (j 0) (j 1)) + A (ix3 1 (j 0) (j 1))) := by
  show Ideal.hostReduceAdd _ _ _ j = _
  unfold Ideal.hostReduceAdd
  rw [filter_drop, Finset.sum_map, Fin.sum_univ_two]
  rfl

/-- Lane `o` of row 0 of the sum of the two halves, cut out by the two slices and the two reshapes, is zero plus entries
    (0, 0, o) and (1, 0, o) of the array. -/
theorem scal_apply (A : S2x8x128.Idx → EReal) (o : Nat) (ho : o < 5) (hs : S5.Slices ![o] S1) (j : S_.Idx) :
    shapeCast S_ (extractStridedSlice S1 ![o]
      (shapeCast S5 (extractStridedSlice S1x5 ![0, 0]
        (Host.reduceAdd (F := Ideal) (φ := .f32) A (constant S_ .f32 0x00000000#32) reducesTo_S2x8x128_S8x128_d0 h_S_)
        slices_S8x128_S1x5_0_0) shapeCasts_S1x5_S5) hs) shapeCasts_S1_S_ j
      = Cert.Spec.zero + (A (ix3 0 0 ⟨o, by omega⟩) + A (ix3 1 0 ⟨o, by omega⟩)) := by
  refine (shapeCast_apply _ shapeCasts_S1_S_ j (ix1 (0 : Fin 1)) ?_).trans ?_
  · have h1 : (S1.rowMajor (ix1 (0 : Fin 1))).val < 1 := (S1.rowMajor _).isLt
    have h2 : (S_.rowMajor j).val < 1 := (S_.rowMajor _).isLt
    omega
  refine (extractStridedSlice_apply ![o] _ hs (ix1 (0 : Fin 1)) (ix1 (⟨o, ho⟩ : Fin 5)) (fun a => ?_)).trans ?_
  · match a with
    | ⟨0, _⟩ => show o = o + 0; omega
  refine (shapeCast_1a_a_apply _ shapeCasts_S1x5_S5 (⟨o, ho⟩ : Fin 5)).trans ?_
  refine (extractStridedSlice_apply ![0, 0] _ slices_S8x128_S1x5_0_0 (ix2 (0 : Fin 1) (⟨o, ho⟩ : Fin 5)) (ix2 (0 : Fin 8) (⟨o, by omega⟩ : Fin 128)) (fun a => ?_)).trans ?_
  · match a with
    | ⟨0, _⟩ => show 0 = 0 + 0; omega
    | ⟨1, _⟩ => show o = 0 + o; omega
  exact red_apply A _

/-! ## The tables as the region finds them: reshapes of the arguments -/

variable (m : (ℓ : Loc nD τ sig) → Buf (Elt Ideal) ℓ)

/-- A vector cast to a column reads, at row `i`, entry `i`. -/
theorem shapeCast_a_a1_apply {α : Type} {a : ℕ} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    rw [Shape.rowMajor_val_one, Shape.rowMajor_val_two]
    show i.val = i.val * 1 + z.val
    omega)

/-- Each table the region reads is the reshape of its argument that drops the leading unit axis; the label column is the
    label list made a vector, then a column. -/
theorem V_v10_eq (c : Dev nD) :
    (V m c main_v10 : S1000000x4.Idx → EReal) = shapeCast S1000000x4 (m ((c.tc : Thread nD τ).loc main_arg0)) shapeCasts_S1x1000000x4_S1000000x4 := by
  show StableHlo.after hostOps0 (fun b => m (c, b)) (Proc.devRef .tc main_v10) = _
  after_results
  rfl

theorem V_v11_eq (c : Dev nD) :
    (V m c main_v11 : S1000000x4.Idx → EReal) = shapeCast S1000000x4 (m ((c.tc : Thread nD τ).loc main_arg1)) shapeCasts_S1x1000000x4_S1000000x4 := by
  show StableHlo.after hostOps0 (fun b => m (c, b)) (Proc.devRef .tc main_v11) = _
  after_results
  rfl

theorem V_v12_eq (c : Dev nD) :
    (V m c main_v12 : S1000000x2.Idx → EReal) = shapeCast S1000000x2 (m ((c.tc : Thread nD τ).loc main_arg2)) shapeCasts_S1x1000000x2_S1000000x2 := by
  show StableHlo.after hostOps0 (fun b => m (c, b)) (Proc.devRef .tc main_v12) = _
  after_results
  rfl

theorem V_v13_eq (c : Dev nD) :
    (V m c main_v13 : S1000000x4.Idx → EReal) = shapeCast S1000000x4 (m ((c.tc : Thread nD τ).loc main_arg3)) shapeCasts_S1x1000000x4_S1000000x4 := by
  show StableHlo.after hostOps0 (fun b => m (c, b)) (Proc.devRef .tc main_v13) = _
  after_results
  rfl

theorem V_v15_eq (c : Dev nD) :
    (V m c main_v15 : S1000000x1.Idx → BitVec 32) = shapeCast S1000000x1 (shapeCast S1000000 (m ((c.tc : Thread nD τ).loc main_arg4)) shapeCasts_S1x1000000_S1000000) shapeCasts_S1000000_S1000000x1 := by
  show StableHlo.after hostOps0 (fun b => m (c, b)) (Proc.devRef .tc main_v15) = _
  after_results
  rfl

/-- The reshaped tables read by rows. -/
theorem V_v10 (c : Dev nD) (i : Fin 1000000) (k : Fin 4) :
    V m c main_v10 (ix2 i k) = m ((c.tc : Thread nD τ).loc main_arg0) (ix3 0 i k) := by
  rw [V_v10_eq]; exact shapeCast_1ab_ab_apply _ _ i k
theorem V_v11 (c : Dev nD) (i : Fin 1000000) (k : Fin 4) :
    V m c main_v11 (ix2 i k) = m ((c.tc : Thread nD τ).loc main_arg1) (ix3 0 i k) := by
  rw [V_v11_eq]; exact shapeCast_1ab_ab_apply _ _ i k
theorem V_v12 (c : Dev nD) (i : Fin 1000000) (k : Fin 2) :
    V m c main_v12 (ix2 i k) = m ((c.tc : Thread nD τ).loc main_arg2) (ix3 0 i k) := by
  rw [V_v12_eq]; exact shapeCast_1ab_ab_apply _ _ i k
theorem V_v13 (c : Dev nD) (i : Fin 1000000) (k : Fin 4) :
    V m c main_v13 (ix2 i k) = m ((c.tc : Thread nD τ).loc main_arg3) (ix3 0 i k) := by
  rw [V_v13_eq]; exact shapeCast_1ab_ab_apply _ _ i k
theorem V_v15 (c : Dev nD) (i : Fin 1000000) :
    V m c main_v15 (ix2 i 0) = m ((c.tc : Thread nD τ).loc main_arg4) (ix2 0 i) := by
  rw [V_v15_eq]
  exact (shapeCast_a_a1_apply _ _ i 0).trans (shapeCast_1a_a_apply _ _ i)

/-! ## The scatter-add counts the selections of each row -/

/-- A rank-one index as its coordinate. -/
def coord0 {n : ℕ} (j : (⟨1, ![n]⟩ : Shape).Idx) : Fin n := j 0
theorem ix1_coord0 {n : ℕ} (j : (⟨1, ![n]⟩ : Shape).Idx) : ix1 (coord0 j) = j := (eq_ix1 j).symm

/-- A word in the table's range reads the same signed and unsigned. -/
theorem toInt_inRange (w : BitVec 32) (h0 : 0 ≤ w.toInt) (h1 : w.toInt < 1000000) :
    w.toInt = (w.toNat : Int) ∧ w.toNat < 1000000 := by
  have hlt := w.isLt
  rw [BitVec.toInt_eq_toNat_cond] at h0 h1 ⊢
  split at h0 <;> omega

/-- The selection words as the scatter reads them: a negative word is wrapped by the table's length, then the list is
    made a column. -/
def wrapped (a5 : S1x500000.Idx → BitVec 32) : IVec S500000x1 32 :=
  broadcastInDim S500000x1 ![0] bcast_S500000_S500000x1_0
    (select
      (cmpi CmpIPredicate.slt (shapeCast S500000 a5 shapeCasts_S1x500000_S500000)
        (broadcastInDim S500000 ![] bcast_S_S500000 (constantI S_ 32 0#32)))
      (addi (shapeCast S500000 a5 shapeCasts_S1x500000_S500000)
        (broadcastInDim S500000 ![] bcast_S_S500000 (constantI S_ 32 1000000#32)))
      (shapeCast S500000 a5 shapeCasts_S1x500000_S500000))

/-- No word of the list is negative, so the wrap is the identity. -/
theorem wrapped_apply (a5 : S1x500000.Idx → BitVec 32) (h : Cert.Spec.InRange a5) (jj : Fin 500000) (z : Fin 1) :
    wrapped a5 (ix2 jj z) = a5 (ix2 0 jj) := by
  unfold wrapped
  refine (broadcastInDim_apply ![0] bcast_S500000_S500000x1_0 _ (ix2 jj z) (ix1 jj) (fun a => ?_)).trans ?_
  · match a with
    | ⟨0, _⟩ => exact (if_neg (show ¬ (500000 : Nat) = 1 by decide)).symm
  rw [select_apply]
  have hw : shapeCast S500000 a5 shapeCasts_S1x500000_S500000 (ix1 jj) = a5 (ix2 0 jj) := shapeCast_1a_a_apply _ _ jj
  have hc : cmpi CmpIPredicate.slt (shapeCast S500000 a5 shapeCasts_S1x500000_S500000)
      (broadcastInDim S500000 ![] bcast_S_S500000 (constantI S_ 32 0#32)) (ix1 jj) = 0#1 := by
    show BitVec.ofBool ((shapeCast S500000 a5 shapeCasts_S1x500000_S500000 (ix1 jj)).slt
      (broadcastInDim S500000 ![] bcast_S_S500000 (constantI S_ 32 0#32) (ix1 jj))) = 0#1
    rw [hw, broadcastInDim_scalar_apply]
    show BitVec.ofBool ((a5 (ix2 0 jj)).slt 0#32) = 0#1
    have h0 := (h (ix2 0 jj)).1
    have : (a5 (ix2 0 jj)).slt 0#32 = false := by
      rw [BitVec.slt]
      exact decide_eq_false (by rw [show (0#32).toInt = 0 from by decide]; omega)
    rw [this]; rfl
  rw [hc, select_zero, hw]

set_option maxHeartbeats 1600000 in
/-- The count column as the host computes it. -/
theorem V_v16_eq (c : Dev nD) :
    (V m c main_v16 : S1000000x1.Idx → EReal)
      = shapeCast S1000000x1
          (Host.scatterAdd (F := Ideal) (φ := .f32) sd
            (broadcastInDim S1000000 ![] bcast_S_S1000000 (constant S_ .f32 0x00000000#32))
            (wrapped (m ((c.tc : Thread nD τ).loc main_arg5)))
            (broadcastInDim S500000 ![] bcast_S_S500000 (constant S_ .f32 0x3F800000#32)))
          shapeCasts_S1000000_S1000000x1 := by
  show StableHlo.after hostOps0 (fun b => m (c, b)) (Proc.devRef .tc main_v16) = _
  after_results_simp
  rfl

/-- The count column holds, at row `i`, zero plus a one per selection of row `i`. -/
theorem V_v16 (c : Dev nD) (hvi : Cert.Spec.InRange (m ((c.tc : Thread nD τ).loc main_arg5))) (i : Fin 1000000) :
    V m c main_v16 (ix2 i 0)
      = Cert.Spec.cnt (Cert.Spec.dataOf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))) i := by
  rw [V_v16_eq]
  refine (shapeCast_a_a1_apply _ _ i 0).trans ?_
  show Ideal.hostScatterAdd sd _ _ _ (ix1 i) = _
  unfold Ideal.hostScatterAdd Cert.Spec.cnt
  refine congrArg₂ (· + ·) (broadcastInDim_scalar_apply _ _ _) ?_
  refine Finset.sum_bij (fun j _ => coord0 j) ?_ ?_ ?_ ?_
  · intro j hj
    have hj2 := (Finset.mem_filter.mp hj).2
    refine Finset.mem_filter.mpr ⟨Finset.mem_univ _, ?_⟩
    have e := (sd_result j _ i).mp hj2
    obtain ⟨h0, h1⟩ := hvi (ix2 0 (coord0 j))
    obtain ⟨e1, e2⟩ := toInt_inRange _ h0 h1
    show Cert.Spec.rowOf (m ((c.tc : Thread nD τ).loc main_arg5) (ix2 0 (coord0 j))) = i
    apply Fin.ext
    show (m ((c.tc : Thread nD τ).loc main_arg5) (ix2 0 (coord0 j))).toNat % 1000000 = i.val
    have e' : (m ((c.tc : Thread nD τ).loc main_arg5) (ix2 0 (coord0 j))).toInt = (i.val : Int) :=
      (congrArg BitVec.toInt (wrapped_apply _ hvi (coord0 j) 0)).symm.trans e
    omega
  · intro j _ j' _ e
    rw [← ix1_coord0 j, ← ix1_coord0 j']
    exact congrArg ix1 e
  · intro b hb
    have hb2 := (Finset.mem_filter.mp hb).2
    refine ⟨ix1 b, Finset.mem_filter.mpr ⟨Finset.mem_univ _, (sd_result (ix1 b) _ i).mpr ?_⟩, rfl⟩
    refine (congrArg BitVec.toInt (wrapped_apply _ hvi b 0)).trans ?_
    obtain ⟨h0, h1⟩ := hvi (ix2 0 b)
    obtain ⟨e1, e2⟩ := toInt_inRange _ h0 h1
    have hr : (m ((c.tc : Thread nD τ).loc main_arg5) (ix2 0 b)).toNat % 1000000 = i.val := congrArg Fin.val hb2
    show (m ((c.tc : Thread nD τ).loc main_arg5) (ix2 0 b)).toInt = (i.val : Int)
    omega
  · intro j _
    rfl

/-! ## The result array's entries are the half sums -/

/-- The six tables read by rows. -/
abbrev dOf (c : Dev nD) : Cert.Spec.Data :=
  Cert.Spec.dataOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

/-- A row's term over the region's arrays is the row's weighted term over the tables. -/
theorem rowTerm_V (c : Dev nD) (hvi : Cert.Spec.InRange (m ((c.tc : Thread nD τ).loc main_arg5))) (k : Fin 5) (i : Fin 1000000) :
    Cert.Spec.rowTerm k (fun k' => V m c main_v10 (ix2 i k')) (fun k' => V m c main_v11 (ix2 i k'))
        (fun k' => V m c main_v13 (ix2 i k')) (fun k' => V m c main_v12 (ix2 i k'))
        (V m c main_v15 (ix2 i 0)) (V m c main_v16 (ix2 i 0))
      = Cert.Spec.kterm (dOf m c) k i := by
  have e10 : (fun k' => V m c main_v10 (ix2 i k')) = (dOf m c).p i := funext fun k' => V_v10 m c i k'
  have e11 : (fun k' => V m c main_v11 (ix2 i k')) = (dOf m c).u i := funext fun k' => V_v11 m c i k'
  have e13 : (fun k' => V m c main_v13 (ix2 i k')) = (dOf m c).g i := funext fun k' => V_v13 m c i k'
  have e12 : (fun k' => V m c main_v12 (ix2 i k')) = (dOf m c).c i := funext fun k' => V_v12 m c i k'
  have e15 : V m c main_v15 (ix2 i 0) = (dOf m c).lab i := V_v15 m c i
  have e16 : V m c main_v16 (ix2 i 0) = Cert.Spec.cnt (dOf m c) i := V_v16 m c hvi i
  unfold Cert.Spec.kterm
  exact congr (congr (congr (congr (congr (congrArg (Cert.Spec.rowTerm k) e10) e11) e13) e12) e15) e16

/-- Entry (h, 0, o) of the result array, o < 5, is sum o over half h. -/
theorem accArr_apply (c : Dev nD) (hvi : Cert.Spec.InRange (m ((c.tc : Thread nD τ).loc main_arg5))) (h : Fin 2) (o : Nat) (ho : o < 5) :
    KAccum.accArr m c (ix3 h (0 : Fin 8) (⟨o, by omega⟩ : Fin 128)) = Cert.Spec.halfSum (dOf m c) ⟨o, ho⟩ h := by
  unfold KAccum.accArr
  have hc : ((ix3 h (0 : Fin 8) (⟨o, by omega⟩ : Fin 128) : S2x8x128.Idx) 1).val = 0
      ∧ ((ix3 h (0 : Fin 8) (⟨o, by omega⟩ : Fin 128) : S2x8x128.Idx) 2).val < 5 := ⟨rfl, ho⟩
  rw [dif_pos hc]
  unfold Cert.Spec.halfSum
  refine Finset.sum_congr rfl fun b _ => Finset.sum_congr rfl fun r _ => ?_
  exact rowTerm_V m c hvi ⟨o, ho⟩ (Cert.Spec.grow h b r)

/-- Zero plus the two halves' entries is sum o over all rows. -/
theorem ksum_eq (c : Dev nD) (hvi : Cert.Spec.InRange (m ((c.tc : Thread nD τ).loc main_arg5))) (o : Nat) (ho : o < 5) :
    Cert.Spec.zero + (KAccum.accArr m c (ix3 (0 : Fin 2) (0 : Fin 8) (⟨o, by omega⟩ : Fin 128))
        + KAccum.accArr m c (ix3 (1 : Fin 2) (0 : Fin 8) (⟨o, by omega⟩ : Fin 128)))
      = Cert.Spec.ksumG (dOf m c) ⟨o, ho⟩ := by
  unfold Cert.Spec.ksumG
  rw [accArr_apply m c hvi 0 o ho, accArr_apply m c hvi 1 o ho]

/-! ## The host operations after the region -/

/-- Scalar `o` of the five: the sum of the two halves, its row 0, lanes 0 to 4, lane `o`. -/
def scal (A : FVec Ideal S2x8x128 .f32) (o : Nat) (hs : S5.Slices ![o] S1) : FVec Ideal S_ .f32 :=
  shapeCast S_ (extractStridedSlice S1 ![o]
    (shapeCast S5 (extractStridedSlice S1x5 ![0, 0]
      (Host.reduceAdd (F := Ideal) (φ := .f32) A (constant S_ .f32 0x00000000#32) reducesTo_S2x8x128_S8x128_d0 h_S_)
      slices_S8x128_S1x5_0_0) shapeCasts_S1x5_S5) hs) shapeCasts_S1_S_

/-- Scalar `o` is zero plus the two halves' entries at lane `o` of row 0. -/
theorem scal_eq (A : FVec Ideal S2x8x128 .f32) (o : Nat) (ho : o < 5) (hs : S5.Slices ![o] S1) (j : S_.Idx) :
    scal A o hs j = Cert.Spec.zero + (A (ix3 (0 : Fin 2) (0 : Fin 8) (⟨o, by omega⟩ : Fin 128)) + A (ix3 (1 : Fin 2) (0 : Fin 8) (⟨o, by omega⟩ : Fin 128))) :=
  scal_apply A o ho hs j

/-- The operations after the region, over the result array: the cross-entropy sum over the number of selections, plus
    the guarded sum of the two quotients. -/
def tailFn (A : FVec Ideal S2x8x128 .f32) : FVec Ideal S_ .f32 :=
  addf (Host.divf (scal A 0 slices_S5_S1_0) (constant S_ .f32 0x48F42400#32))
    (select
      (ori (cmpf CmpFPredicate.oeq (scal A 1 slices_S5_S1_1) (constant S_ .f32 0x00000000#32))
        (cmpf CmpFPredicate.oeq (scal A 2 slices_S5_S1_2) (constant S_ .f32 0x00000000#32)))
      (constant S_ .f32 0x00000000#32)
      (addf (Host.divf (scal A 3 slices_S5_S1_3) (maximumf (scal A 1 slices_S5_S1_1) (constant S_ .f32 0x3F800000#32)))
        (Host.divf (scal A 4 slices_S5_S1_4) (maximumf (scal A 2 slices_S5_S1_2) (constant S_ .f32 0x3F800000#32)))))

/-- The operations after the region are, scalar by scalar, those of the loss. -/
theorem tailFn_apply (A : FVec Ideal S2x8x128 .f32) (j : S_.Idx) (σ : Fin 5 → EReal)
    (hσ : ∀ (o : Nat) (ho : o < 5), Cert.Spec.zero + (A (ix3 (0 : Fin 2) (0 : Fin 8) (⟨o, by omega⟩ : Fin 128)) + A (ix3 (1 : Fin 2) (0 : Fin 8) (⟨o, by omega⟩ : Fin 128))) = σ ⟨o, ho⟩) :
    tailFn A j = Ideal.div (σ 0) Cert.Spec.nvalid + Cert.Spec.regLoss (σ 1) (σ 2) (σ 3) (σ 4) := by
  show Ideal.div (scal A 0 slices_S5_S1_0 j) Cert.Spec.nvalid
      + Scalar.select (IntOp.ori (Ideal.cmp CmpFPredicate.oeq (scal A 1 slices_S5_S1_1 j) Cert.Spec.zero)
          (Ideal.cmp CmpFPredicate.oeq (scal A 2 slices_S5_S1_2 j) Cert.Spec.zero)) Cert.Spec.zero
        (Ideal.div (scal A 3 slices_S5_S1_3 j) (max (scal A 1 slices_S5_S1_1 j) Cert.Spec.one)
          + Ideal.div (scal A 4 slices_S5_S1_4 j) (max (scal A 2 slices_S5_S1_2 j) Cert.Spec.one)) = _
  rw [scal_eq A 0 (by omega), scal_eq A 1 (by omega), scal_eq A 2 (by omega), scal_eq A 3 (by omega), scal_eq A 4 (by omega),
    hσ 0 (by omega), hσ 1 (by omega), hσ 2 (by omega), hσ 3 (by omega), hσ 4 (by omega)]
  rfl

/-- The region leaves the result array at its closed form. -/
theorem arr17 (c : Dev nD) :
    Pipeline.withArrays (cfgs 0).spec c (V0 m c) (fun w => (dats m 0 c).arrAt w (cfgs 0).N) (Proc.tc.devRef main_v17)
      = KAccum.accArr m c :=
  (Pipeline.withArrays_arr spec0 launch0.win.arr_inj c _ _ 6).trans (KAccum.final6 m c)

set_option maxHeartbeats 1600000 in
/-- What the program's result holds: the operations after the region applied to the result array. -/
theorem tail_eq (c : Dev nD) :
    Pipeline.afterTail₀ cfgs (dats m) 0 (V0 m) [hostOps1, hostOps1_1, hostOps1_2] c main_v41 = tailFn (KAccum.accArr m c) := by
  unfold Pipeline.afterTail₀
  simp only [hostOps1, hostOps1_1, hostOps1_2, List.flatten_cons, List.flatten_nil, List.append_nil, List.cons_append, List.nil_append]
  after_results_simp
  rw [arr17]
  rfl

/-- So the result is the loss summed over all rows weighted by their counts. -/
theorem tail_value (c : Dev nD) (hvi : Cert.Spec.InRange (m ((c.tc : Thread nD τ).loc main_arg5))) :
    Pipeline.afterTail₀ cfgs (dats m) 0 (V0 m) [hostOps1, hostOps1_1, hostOps1_2] c main_v41
      = fun _ => Cert.Spec.kernelOut (dOf m c) := by
  rw [tail_eq]
  funext j
  exact tailFn_apply _ j (Cert.Spec.ksumG (dOf m c)) (ksum_eq m c hvi)

/-- With every selection word a row number: every weakly fair execution of the kernel program at the ideal instance
    terminates with the result at the loss summed over all rows weighted by their counts, the arguments unchanged. -/
theorem run (m : (ℓ : Loc nD τ sig) → Buf (Elt Ideal) ℓ) (ρ : Dev nD → PrngReg)
    (hvi : ∀ c : Dev nD, Cert.Spec.InRange (m ((c.tc : Thread nD τ).loc main_arg5))) :
    θ_run defs (onTc (τ := τ) (main (F := Ideal))) ⟨m, fun _ => 0, ρ⟩ fun r => ∀ c : Dev nD,
      r.2.mem ((c.tc : Thread nD τ).loc main_v41)
          = (fun _ => Cert.Spec.kernelOut (Cert.Spec.dataOf (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  exact (θ_run defs _ _).mono (fun _ h c =>
    ⟨((h c).2 main_v41 (Pipeline.mem_restRefs_of main_v41 (by decide) (by decide))).trans (tail_value m c (hvi c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.Bridge.lean ====
/-
  The two ways of summing agree: a sum over the selections of a function of the selected row is the sum over all
  rows of that function weighted by how many selections name the row.
-/
import proofs.«423612_j88716844466682_2_alg».proof.Proof.Spec
import Idealize.ShloMosaic.Lib.IdealHost
import Mathlib.Data.EReal.Operations
import Mathlib.Data.EReal.Inv
import Mathlib.Algebra.BigOperators.Group.Finset.Basic
import Mathlib.Data.Fintype.BigOperators
import Mathlib.Analysis.SpecialFunctions.Log.Basic

noncomputable section

namespace Cert.Spec

open Idealize.ShloMosaic

namespace Bridge

/-! ## The literals -/

theorem zero_eq : zero = 0 := Ideal.ofBits_zero_f32

theorem one_eq : one = 1 := Ideal.ofBits_one_f32

/-- The number of selections is the real number 500000. -/
theorem nvalid_eq : nvalid = ((500000 : ℝ) : EReal) := by
  unfold nvalid
  simp [Ideal.ofBits, Ideal.ieee, -EReal.coe_mul]; norm_num

/-! ## Counts -/

/-- The selections that name row `i`. -/
def fibre (d : Data) (i : Fin 1000000) : Finset (Fin 500000) :=
  Finset.univ.filter (fun j : Fin 500000 => row d j = i)

/-- A sum of ones over a finite set is the size of the set. -/
theorem sum_one_eq_natE {ι : Type} (s : Finset ι) : (∑ _j ∈ s, (1 : EReal)) = natE s.card := by
  rw [Finset.sum_const, EReal.nsmul_eq_mul, mul_one]; rfl

/-- The count of a row is the number of selections naming it. -/
theorem cnt_eq (d : Data) (i : Fin 1000000) : cnt d i = natE (fibre d i).card := by
  unfold cnt fibre
  rw [zero_eq, one_eq, zero_add, sum_one_eq_natE]

/-- A sum over the selections of a function of the selected row is the sum over all rows of the function weighted by
    the row's count: the selections split into the fibres of `row`, and on a fibre the summand is constant. -/
theorem sum_row (d : Data) (f : Fin 1000000 → EReal) :
    ∑ j : Fin 500000, f (row d j) = ∑ i : Fin 1000000, natE (fibre d i).card * f i := by
  rw [← Finset.sum_fiberwise' Finset.univ (row d) f]
  refine Finset.sum_congr rfl fun i _ => ?_
  rw [Finset.sum_const, EReal.nsmul_eq_mul]; rfl

/-! ## The walk over the table in two halves of 250 blocks of 2000 rows visits every row once -/

theorem grow_bijective :
    Function.Bijective (fun x : Fin 2 × Fin 250 × Fin 2000 => grow x.1 x.2.1 x.2.2) := by
  rw [Fintype.bijective_iff_injective_and_card]
  refine ⟨?_, by simp⟩
  rintro ⟨h, b, r⟩ ⟨h', b', r'⟩ e
  have e' : (h.val * 250 + b.val) * 2000 + r.val = (h'.val * 250 + b'.val) * 2000 + r'.val :=
    congrArg Fin.val e
  have := h.isLt; have := b.isLt; have := r.isLt; have := h'.isLt; have := b'.isLt; have := r'.isLt
  have h1 : h.val = h'.val := by omega
  have h2 : b.val = b'.val := by omega
  have h3 : r.val = r'.val := by omega
  exact Prod.ext (Fin.ext h1) (Prod.ext (Fin.ext h2) (Fin.ext h3))

/-- Sum `k` over all rows, in any order. -/
theorem ksumG_eq (d : Data) (k : Fin 5) : ksumG d k = ∑ i : Fin 1000000, kterm d k i := by
  unfold ksumG halfSum
  rw [zero_eq, zero_add, ← grow_bijective.sum_comp (kterm d k), Fintype.sum_prod_type, Fin.sum_univ_two]
  congr 1
  · exact (Fintype.sum_prod_type (fun y : Fin 250 × Fin 2000 => kterm d k (grow 0 y.1 y.2))).symm
  · exact (Fintype.sum_prod_type (fun y : Fin 250 × Fin 2000 => kterm d k (grow 1 y.1 y.2))).symm

/-! ## The two counts and the two regression sums -/

/-- One minus the indicator of a positive row is the indicator of a row that is not positive. -/
theorem one_sub_maskf (l : BitVec 32) : one - maskf l = if l = 1#32 then 0 else 1 := by
  unfold maskf
  rw [one_eq]
  by_cases hl : l = 1#32
  · rw [if_pos hl, if_pos hl]
    show ((1 : ℝ) : EReal) - ((1 : ℝ) : EReal) = 0
    rw [← EReal.coe_sub, sub_self, EReal.coe_zero]
  · rw [if_neg hl, if_neg hl, sub_zero]

/-- The positive count: the rows labelled 1, each weighted by its count, are the selections whose row is labelled 1. -/
theorem ksum1_eq (d : Data) : ksumG d 1 = pcR d := by
  rw [ksumG_eq]
  unfold pcR
  have h : natE (Finset.univ.filter fun j : Fin 500000 => d.lab (row d j) = 1#32).card
      = ∑ j : Fin 500000, maskf (d.lab (row d j)) := by
    rw [← sum_one_eq_natE, Finset.sum_filter]
    rfl
  rw [h, sum_row d (fun i => maskf (d.lab i))]
  refine Finset.sum_congr rfl fun i _ => ?_
  show maskf (d.lab i) * cnt d i = _
  rw [cnt_eq, mul_comm]

/-- The negative count likewise. -/
theorem ksum2_eq (d : Data) : ksumG d 2 = ncR d := by
  rw [ksumG_eq]
  unfold ncR
  have h : natE (Finset.univ.filter fun j : Fin 500000 => ¬ d.lab (row d j) = 1#32).card
      = ∑ j : Fin 500000, (one - maskf (d.lab (row d j))) := by
    rw [← sum_one_eq_natE, Finset.sum_filter]
    refine Finset.sum_congr rfl fun j _ => ?_
    rw [one_sub_maskf]
    by_cases hl : d.lab (row d j) = 1#32
    · rw [if_neg (not_not.mpr hl), if_pos hl]
    · rw [if_pos hl, if_neg hl]
  rw [h, sum_row d (fun i => one - maskf (d.lab i))]
  refine Finset.sum_congr rfl fun i _ => ?_
  show (one - maskf (d.lab i)) * cnt d i = _
  rw [cnt_eq, mul_comm]

/-- The positive loss: a row not labelled 1 contributes nothing on either side (zero times anything is zero on the
    extended reals), a row labelled 1 contributes its term once per selection. -/
theorem ksum3_eq (d : Data) : ksumG d 3 = plR d := by
  rw [ksumG_eq]
  unfold plR
  rw [zero_eq, zero_add,
    sum_row d (fun i => if d.lab i = 1#32 then posTerm (d.p i) (d.u i) (d.g i) else 0)]
  refine Finset.sum_congr rfl fun i _ => ?_
  show (maskf (d.lab i) * cnt d i) * posTerm (d.p i) (d.u i) (d.g i) = _
  rw [cnt_eq]
  unfold maskf
  by_cases hl : d.lab i = 1#32
  · rw [if_pos hl, if_pos hl, one_mul]
  · rw [if_neg hl, if_neg hl, zero_mul, zero_mul, mul_zero]

/-- The negative loss likewise. -/
theorem ksum4_eq (d : Data) : ksumG d 4 = nlR d := by
  rw [ksumG_eq]
  unfold nlR
  rw [zero_eq, zero_add,
    sum_row d (fun i => if d.lab i = 1#32 then 0 else negTerm (d.u i))]
  refine Finset.sum_congr rfl fun i _ => ?_
  show ((one - maskf (d.lab i)) * cnt d i) * negTerm (d.u i) = _
  rw [cnt_eq, one_sub_maskf]
  by_cases hl : d.lab i = 1#32
  · rw [if_pos hl, if_pos hl, zero_mul, zero_mul, mul_zero]
  · rw [if_neg hl, if_neg hl, one_mul]

/-! ## The cross-entropy sum -/

/-- The log-softmax of two real logits is real: the shifted exponentials are positive reals, so their sum has a real
    logarithm. -/
theorem lsm_real (c : Fin 2 → EReal) (hc : ∀ k, ∃ r : ℝ, c k = (r : EReal)) (k : Fin 2) :
    ∃ r : ℝ, lsm c k = (r : EReal) := by
  obtain ⟨a, ha⟩ := hc 0
  obtain ⟨b, hb⟩ := hc 1
  obtain ⟨x, hx⟩ := hc k
  have hm : rowMax c = ((max a b : ℝ) : EReal) := by
    unfold rowMax; rw [ha, hb]; exact (EReal.coe_strictMono.monotone.map_max).symm
  unfold lsm
  rw [hm, ha, hb, hx]
  simp only [← EReal.coe_sub, Ideal.exp_coe, ← EReal.coe_add, Ideal.log_coe]
  rw [if_neg (not_le.mpr (add_pos (Real.exp_pos _) (Real.exp_pos _))), ← EReal.coe_sub]
  exact ⟨_, rfl⟩

theorem sel_real (c : Fin 2 → EReal) (hc : ∀ k, ∃ r : ℝ, c k = (r : EReal)) (l : BitVec 32) :
    ∃ r : ℝ, sel c l = (r : EReal) := by
  unfold sel
  split
  · exact lsm_real c hc 1
  · exact lsm_real c hc 0

/-- A finite sum of real numbers, taken on the extended reals, is the real sum. -/
theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- Negation passes through a finite sum of real numbers. -/
theorem sum_neg_coe {ι : Type} (s : Finset ι) (g : ι → ℝ) :
    ∑ i ∈ s, -((g i : ℝ) : EReal) = -∑ i ∈ s, ((g i : ℝ) : EReal) := by
  rw [coe_sum, ← EReal.coe_neg, ← Finset.sum_neg_distrib, ← coe_sum]
  refine Finset.sum_congr rfl fun i _ => ?_
  rw [EReal.coe_neg]

/-- The cross-entropy sum over all rows is minus the one over the selections: every term is a real number, so the
    sign passes through the sum. -/
theorem ksum0_eq (d : Data) (hc : ∀ i k, ∃ r : ℝ, d.c i k = (r : EReal)) : ksumG d 0 = -(ceR d) := by
  rw [ksumG_eq]
  unfold ceR
  rw [zero_eq, zero_add, sum_row d (fun i => sel (d.c i) (d.lab i))]
  choose s hs using fun i => sel_real (d.c i) (hc i) (d.lab i)
  have h1 : ∀ i, kterm d 0 i = -((((fibre d i).card : ℝ) * s i : ℝ) : EReal) := by
    intro i
    show (zero - sel (d.c i) (d.lab i)) * cnt d i = _
    rw [zero_eq, cnt_eq, hs i, sub_eq_add_neg, zero_add, natE, EReal.neg_mul, ← EReal.coe_mul, mul_comm]
  have h2 : ∀ i, natE (fibre d i).card * sel (d.c i) (d.lab i) = ((((fibre d i).card : ℝ) * s i : ℝ) : EReal) := by
    intro i
    rw [hs i, natE, ← EReal.coe_mul]
  simp only [h1, h2]
  exact sum_neg_coe _ _

/-! ## The two losses -/

/-- Dividing by the number of selections commutes with negation. -/
theorem div_neg_nvalid (x : EReal) : Ideal.div (-x) nvalid = -(Ideal.div x nvalid) := by
  rw [nvalid_eq, Ideal.div_coe (by norm_num), Ideal.div_coe (by norm_num), EReal.neg_mul]

end Bridge

open Bridge

/-- Over finite logits and finite box data, the loss summed over all rows weighted by their counts is the loss
    summed over the selections. -/
theorem bridge (d : Data)
    (hp : ∀ i k, ∃ r : ℝ, d.p i k = (r : EReal)) (hu : ∀ i k, ∃ r : ℝ, d.u i k = (r : EReal))
    (hg : ∀ i k, ∃ r : ℝ, d.g i k = (r : EReal)) (hc : ∀ i k, ∃ r : ℝ, d.c i k = (r : EReal)) :
    kernelOut d = refOut d := by
  unfold kernelOut refOut
  rw [ksum0_eq d hc, ksum1_eq, ksum2_eq, ksum3_eq, ksum4_eq, div_neg_nvalid]

end Cert.Spec

end
-- ==== Proof.PreDecode.lean ====
/-
  What the precondition says of the six argument arrays, entry by entry.

  The precondition is a conjunction of eight "for all entries" statements, each the and-reduction of an array of
  one-bit comparison words over all its axes. The reduction being 1 says every comparison word is 1; a conjunction of
  one-bit words being 1 says each is. What is left is to read one comparison at one entry:

    * |x| < +inf over the extended reals, with |x| = max x (-x): x is neither +inf nor -inf, so x is a real number;
    * 0 <= w and w < 2 for a signed 32-bit word w: w is 0 or 1;
    * 0 <= w and w < 1000000 for a signed 32-bit word w: the same two bounds on its signed value.
-/
import proofs.«423612_j88716844466682_2_alg».proof.Pre_finite_inputs
import proofs.«423612_j88716844466682_2_alg».proof.Proof.Spec
import Idealize.ShloMosaic.Lib.ReduceAll
import Idealize.ShloMosaic.Lib.StableHlo.Predicate

noncomputable section

namespace Cert.PreDecode

open Idealize.ShloMosaic

/-- The shape of a scalar has exactly one index. -/
instance : Subsingleton Cert.Pre_finite_inputs.S_.Idx := ⟨fun a b => funext fun d => d.elim0⟩

/-- The conjunction of two arrays of one-bit words is 1 at an entry exactly when both are. -/
theorem andi_apply {s : Shape} (x y : IVec s 1) (i : s.Idx) :
    andi x y i = 1#1 ↔ x i = 1#1 ∧ y i = 1#1 := IntOp.andi_eq_one

/-- The word 0x7F800000 denotes +inf. -/
theorem ofBits_inf : Ideal.ofBits .f32 0x7F800000#32 = ⊤ := by simp [Ideal.ofBits, Ideal.ieee]

/-- An extended real x with max x (-x) < +inf is a real number: at x = +inf the maximum is +inf, at x = -inf it is
    -(-inf) = +inf, and neither is below +inf. -/
theorem real_of_abs_lt_inf (x : EReal) (h : Ideal.cmp .olt (max x (-x)) (Ideal.ofBits .f32 0x7F800000#32) = 1#1) :
    ∃ r : ℝ, x = (r : EReal) := by
  rw [ofBits_inf] at h
  unfold Ideal.cmp at h
  rw [StableHlo.Predicate.ofBool_eq_one_iff, decide_eq_true_eq] at h
  induction x using EReal.rec with
  | bot => simp at h
  | top => simp at h
  | coe r => exact ⟨r, rfl⟩

/-- One entry of "every |entry| is below +inf": the entry is a real number. -/
theorem finite_at {s : Shape} (a : FVec Ideal s .f32) (hb : Cert.Pre_finite_inputs.S_.BroadcastsInDim s ![]) (i : s.Idx)
    (h : cmpf .olt (Host.absf a) (broadcastInDim s ![] hb (constant Cert.Pre_finite_inputs.S_ .f32 0x7F800000#32)) i = 1#1) :
    ∃ r : ℝ, a i = (r : EReal) :=
  real_of_abs_lt_inf (a i) h

/-- A signed 32-bit word w with 0 <= w < 2 is 0 or 1: its signed value is 0 or 1, and a word is determined by its
    signed value. -/
theorem binary_of (w : BitVec 32) (h0 : IntOp.cmpi .sge w 0#32 = 1#1) (h2 : IntOp.cmpi .slt w 2#32 = 1#1) :
    w = 0#32 ∨ w = 1#32 := by
  rw [IntOp.cmpi_sge] at h0
  rw [IntOp.cmpi_slt] at h2
  have e0 : (0#32 : BitVec 32).toInt = 0 := by decide
  have e1 : (1#32 : BitVec 32).toInt = 1 := by decide
  have e2 : (2#32 : BitVec 32).toInt = 2 := by decide
  rw [e0] at h0
  rw [e2] at h2
  rcases (show w.toInt = 0 ∨ w.toInt = 1 by omega) with hw | hw
  · exact Or.inl (BitVec.eq_of_toInt_eq (hw.trans e0.symm))
  · exact Or.inr (BitVec.eq_of_toInt_eq (hw.trans e1.symm))

/-- A signed 32-bit word w with 0 <= w < 1000000, as bounds on its signed value. -/
theorem range_of (w : BitVec 32) (h0 : IntOp.cmpi .sge w 0#32 = 1#1) (h1 : IntOp.cmpi .slt w 1000000#32 = 1#1) :
    0 ≤ w.toInt ∧ w.toInt < 1000000 := by
  rw [IntOp.cmpi_sge] at h0
  rw [IntOp.cmpi_slt] at h1
  have e0 : (0#32 : BitVec 32).toInt = 0 := by decide
  have e1 : (1000000#32 : BitVec 32).toInt = 1000000 := by decide
  rw [e0] at h0
  rw [e1] at h1
  exact ⟨h0, h1⟩

/-- The printed precondition all ones says: the four float tables hold real numbers, every label is 0 or 1, every
    selection word is a row number. -/
theorem decode [Cert.Pre_finite_inputs.Facts]
    (a0 a1 : FVec Ideal Cert.Pre_finite_inputs.S1x1000000x4 .f32) (a2 : FVec Ideal Cert.Pre_finite_inputs.S1x1000000x2 .f32)
    (a3 : FVec Ideal Cert.Pre_finite_inputs.S1x1000000x4 .f32) (a4 : IVec Cert.Pre_finite_inputs.S1x1000000 32)
    (a5 : IVec Cert.Pre_finite_inputs.S1x500000 32)
    (h : Cert.Pre_finite_inputs.fn (F := Ideal) a0 a1 a2 a3 a4 a5 = fun _ => 1#1) :
    Cert.Spec.Finite a0 ∧ Cert.Spec.Finite a1 ∧ Cert.Spec.Finite a2 ∧ Cert.Spec.Finite a3
      ∧ Cert.Spec.Binary a4 ∧ Cert.Spec.InRange a5 := by
  -- the one entry of the scalar result, as the conjunction of the eight reductions
  have e := congrFun h ValueIdx.ix0
  dsimp only [Cert.Pre_finite_inputs.fn, Cert.Pre_finite_inputs.fn_part1, Cert.Pre_finite_inputs.fn_part2] at e
  simp only [andi_apply] at e
  obtain ⟨⟨⟨⟨⟨⟨⟨h0, h1⟩, h2⟩, h3⟩, h4lo⟩, h4hi⟩, h5lo⟩, h5hi⟩ := e
  -- each reduction over all axes being 1, every comparison word under it is 1
  refine ⟨fun i => ?_, fun i => ?_, fun i => ?_, fun i => ?_, fun i => ?_, fun i => ?_⟩
  · exact finite_at a0 _ i (Host.reduce_andi_all _ _ _ _ _ h0 i)
  · exact finite_at a1 _ i (Host.reduce_andi_all _ _ _ _ _ h1 i)
  · exact finite_at a2 _ i (Host.reduce_andi_all _ _ _ _ _ h2 i)
  · exact finite_at a3 _ i (Host.reduce_andi_all _ _ _ _ _ h3 i)
  · exact binary_of (a4 i) (Host.reduce_andi_all _ _ _ _ _ h4lo i) (Host.reduce_andi_all _ _ _ _ _ h4hi i)
  · exact range_of (a5 i) (Host.reduce_andi_all _ _ _ _ _ h5lo i) (Host.reduce_andi_all _ _ _ _ _ h5hi i)

end Cert.PreDecode

end
-- ==== Proof.RefGather.lean ====
/-
  The reference's five gathers, read at an entry: with every selection word a row number, entry j of a gathered
  table is the source table's row `rowOf (word j)` (the start index, wrapped if negative and clamped into the table,
  is the word itself).
-/
import proofs.«423612_j88716844466682_2_alg».proof.Proof.RefRead
import proofs.«423612_j88716844466682_2_alg».proof.Proof.Spec
import Idealize.ShloMosaic.Lib.StableHlo.Predicate
import Idealize.ShloMosaic.Lib.ValueIdx

noncomputable section

namespace Cert.ReferenceIdeal.RefGather

open Idealize.ShloMosaic Idealize.ShloMosaic.TcCoe Idealize.ShloMosaic.ValueIdx
open Cert.ReferenceIdeal Cert.ReferenceIdeal.Read

/-! ## A gather of whole rows, read at an entry

The five gathers have one start index per result row (index vector on axis 1 of an [n × 1] column of words), map it to
operand axis 0, and collapse that axis. The operand index of result entry (j, k) is therefore, on axis 0, the start
index of row j read signed and clamped into [0, N − 1] (slice size 1 on a collapsed axis), and on axis 1, when the
operand has one, the offset coordinate k itself (start 0, the axis being outside the start index map). -/

/-- A [N × K] table gathered by rows: entry (j, k) is the table's at (clamped start index of j, k). -/
theorem gather_rows {α : Type} {N K n w : Nat} (d : GatherDims ⟨2, ![N, K]⟩ ⟨2, ![n, 1]⟩ ⟨2, ![n, K]⟩)
    (hoff : d.offsetDims = [1]) (hcoll : d.collapsedSliceDims = [0]) (hob : d.operandBatchingDims = [])
    (hsim : d.startIndexMap = [0]) (hivd : d.indexVectorDim = 1)
    (x : (⟨2, ![N, K]⟩ : Shape).Idx → α) (idx : IVec ⟨2, ![n, 1]⟩ w) (j : Fin n) (k : Fin K) (hN : 0 < N) :
    Host.gather d x idx (ix2 j k) = x (ix2 ⟨min (idx (ix2 j 0)).toInt.toNat (N - 1), by omega⟩ k) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, h0⟩ =>
    have hsl : ss ⟨0, h0⟩ = 1 := wf.2.2.2.2.2.2.2.2.2.2.2.1 ⟨0, h0⟩ (List.mem_singleton.mpr rfl)
    show GatherDims.start _ (ix2 j k) idx ⟨0, h0⟩ + GatherDims.batchCoord _ (ix2 j k) ⟨0, h0⟩
      + GatherDims.offCoord _ (ix2 j k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    dsimp only
    have hm : (⟨0, h0⟩ : Fin (Shape.rank ⟨2, ![N, K]⟩)) ∈ ([0] : List (Fin (Shape.rank ⟨2, ![N, K]⟩))) := List.mem_singleton.mpr rfl
    rw [dif_pos hm, hsl]
    refine congrArg (fun z => min (idx z).toInt.toNat (N - 1)) ?_
    funext b
    apply Fin.ext
    match b with
    | ⟨0, _⟩ => rfl
    | ⟨1, _⟩ => rfl
  | ⟨1, h1⟩ =>
    show GatherDims.start _ (ix2 j k) idx ⟨1, h1⟩ + GatherDims.batchCoord _ (ix2 j k) ⟨1, h1⟩
      + GatherDims.offCoord _ (ix2 j k) ⟨1, h1⟩ = k.val
    rw [GatherDims.batchCoord_eq_zero _ _ _ List.not_mem_nil]
    unfold GatherDims.start
    dsimp only
    have hm : (⟨1, h1⟩ : Fin (Shape.rank ⟨2, ![N, K]⟩)) ∉ ([0] : List (Fin (Shape.rank ⟨2, ![N, K]⟩))) :=
      (by decide : (1 : Fin 2) ∉ ([0] : List (Fin 2)))
    rw [dif_neg hm]
    simp only [Nat.add_zero, Nat.zero_add]
    unfold GatherDims.offCoord
    have hk : (⟨1, h1⟩ : Fin (Shape.rank ⟨2, ![N, K]⟩)) ∈ Shape.kept ⟨2, ![N, K]⟩ ([0] ++ []) :=
      (by decide : (1 : Fin 2) ∈ (List.finRange 2).filter (· ∉ ([0] ++ [] : List (Fin 2))))
    dsimp only
    rw [dif_pos hk]
    rfl

/-- A [N] table gathered by entries: entry j is the table's at the clamped start index of j. -/
theorem gather_col {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (j : Fin n) (hN : 0 < N) :
    Host.gather d x idx (ix1 j) = x (ix1 ⟨min (idx (ix2 j 0)).toInt.toNat (N - 1), by omega⟩) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, h0⟩ =>
    have hsl : ss ⟨0, h0⟩ = 1 := wf.2.2.2.2.2.2.2.2.2.2.2.1 ⟨0, h0⟩ (List.mem_singleton.mpr rfl)
    show GatherDims.start _ (ix1 j) idx ⟨0, h0⟩ + GatherDims.batchCoord _ (ix1 j) ⟨0, h0⟩
      + GatherDims.offCoord _ (ix1 j) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    dsimp only
    have hm : (⟨0, h0⟩ : Fin (Shape.rank ⟨1, ![N]⟩)) ∈ ([0] : List (Fin (Shape.rank ⟨1, ![N]⟩))) := List.mem_singleton.mpr rfl
    rw [dif_pos hm, hsl]
    refine congrArg (fun z => min (idx z).toInt.toNat (N - 1)) ?_
    funext b
    apply Fin.ext
    match b with
    | ⟨0, _⟩ => rfl
    | ⟨1, _⟩ => rfl

/-! ## The start indices: the wrapped selection words

jnp's indexing wraps a negative index once by the table's length, `select (w < 0) (w + 1000000) w`; a word that is a
row number is not negative, so it is kept. Such a word reads the same signed and unsigned, is below the table's length,
so the clamp into [0, 999999] keeps it too and it is the row `rowOf` names. -/

/-- The wrap keeps a word that is not negative. -/
theorem wrap_of_nonneg (w : BitVec 32) (h : 0 ≤ w.toInt) :
    Scalar.select (IntOp.cmpi .slt w 0#32) (IntOp.addi w 1000000#32) w = w := by
  have hs : w.slt 0#32 = false := by
    simp only [BitVec.slt, BitVec.toInt_zero, decide_eq_false_iff_not, not_lt]; exact h
  show Scalar.select (BitVec.ofBool (w.slt 0#32)) _ _ = _
  rw [hs]; exact select_zero _ _

/-- A row number, read signed and clamped into the table, is the row `rowOf` names. -/
theorem toNat_of_row (w : BitVec 32) (h0 : 0 ≤ w.toInt) (h1 : w.toInt < 1000000) :
    min w.toInt.toNat (1000000 - 1) = (Cert.Spec.rowOf w).val := by
  have hlt := w.isLt
  rw [BitVec.toInt_eq_toNat_cond] at h0 h1
  show min w.toInt.toNat (1000000 - 1) = w.toNat % 1000000
  rw [BitVec.toInt_eq_toNat_cond]
  split at h0 <;> rename_i hc
  · rw [if_pos hc] at h1 ⊢; omega
  · rw [if_neg hc] at h1 ⊢; omega

/-- Entry j of the column of start indices is the wrap of selection word j. -/
theorem col_apply (x5 : (⟨S1x500000, .i32⟩ : BufTy).Contents (Elt Ideal)) (j : Fin 500000) :
    val_main_v7 (F := Ideal) x5 (ix2 j 0)
      = Scalar.select (IntOp.cmpi .slt (x5 (ix2 0 j)) 0#32) (IntOp.addi (x5 (ix2 0 j)) 1000000#32) (x5 (ix2 0 j)) := by
  have hi : idx_main_v0 (idx_main_v7 (ix2 j (0 : Fin 1))) = ix2 (0 : Fin 1) j := by
    funext a
    match a with
    | ⟨0, _⟩ => rfl
    | ⟨1, _⟩ => exact Fin.ext (Nat.mod_eq_of_lt j.isLt)
  rw [val_main_v7_apply, val_main_v6_apply, val_main_v3_apply, val_main_v5_apply, val_main_v0_apply, val_main_v2_apply,
    val_main_v4_apply, val_main_c_apply, val_main_c_0_apply, hi]

/-- With every selection word a row number, the clamped start index of result row j is the row word j names. -/
theorem start_eq (x5 : (⟨S1x500000, .i32⟩ : BufTy).Contents (Elt Ideal)) (hvi : Cert.Spec.InRange x5) (j : Fin 500000) :
    min (val_main_v7 (F := Ideal) x5 (ix2 j 0)).toInt.toNat (1000000 - 1) = (Cert.Spec.rowOf (x5 (ix2 0 j))).val := by
  rw [col_apply, wrap_of_nonneg _ (hvi _).1]
  exact toNat_of_row _ (hvi _).1 (hvi _).2

/-! ## The five gathers

Each gather's start indices are the same column of wrapped words (the program prints the wrap once per gather; the five
columns are the same term), and its operand is an argument with its leading axis of size one dropped: row r, column k
of the operand is the argument at (0, r, k), since (r·K + k) / K = r and (r·K + k) % K = k for k < K. -/

/-- A [1000000 × K] table gathered at the column of wrapped words: entry (j, k) is row `rowOf (word j)`, column k. -/
theorem rows_apply {α : Type} {K : Nat} (d : GatherDims ⟨2, ![1000000, K]⟩ ⟨2, ![500000, 1]⟩ ⟨2, ![500000, K]⟩)
    (hoff : d.offsetDims = [1]) (hcoll : d.collapsedSliceDims = [0]) (hob : d.operandBatchingDims = [])
    (hsim : d.startIndexMap = [0]) (hivd : d.indexVectorDim = 1)
    (y : (⟨2, ![1000000, K]⟩ : Shape).Idx → α) (x5 : (⟨S1x500000, .i32⟩ : BufTy).Contents (Elt Ideal))
    (hvi : Cert.Spec.InRange x5) (j : Fin 500000) (k : Fin K) :
    Host.gather d y (val_main_v7 (F := Ideal) x5) (ix2 j k) = y (ix2 (Cert.Spec.rowOf (x5 (ix2 0 j))) k) :=
  (gather_rows d hoff hcoll hob hsim hivd y _ j k (by decide)).trans
    (congrArg (fun r => y (ix2 r k)) (Fin.ext (start_eq x5 hvi j)))

/-- The gathered labels. -/
theorem v8_apply (x4 : (⟨S1x1000000, .i32⟩ : BufTy).Contents (Elt Ideal)) (x5 : (⟨S1x500000, .i32⟩ : BufTy).Contents (Elt Ideal)) (hvi : Cert.Spec.InRange x5) (j : Fin 500000) :
    val_main_v8 (F := Ideal) x4 x5 (ix1 j) = x4 (ix2 0 (Cert.Spec.rowOf (x5 (ix2 0 j)))) := by
  unfold val_main_v8
  rw [gather_col _ rfl rfl rfl rfl rfl _ _ j (by decide), val_main_v1_apply]
  congr 1
  funext a
  match a with
  | ⟨0, _⟩ => rfl
  | ⟨1, _⟩ =>
    apply Fin.ext
    show min (val_main_v7 (F := Ideal) x5 (ix2 j 0)).toInt.toNat (1000000 - 1) % 1000000 = _
    rw [start_eq x5 hvi j]
    exact Nat.mod_eq_of_lt (Cert.Spec.rowOf _).isLt

/-- The gathered logits. -/
theorem v16_apply (x2 : (⟨S1x1000000x2, .f32⟩ : BufTy).Contents (Elt Ideal)) (x5 : (⟨S1x500000, .i32⟩ : BufTy).Contents (Elt Ideal)) (hvi : Cert.Spec.InRange x5) (j : Fin 500000) (k : Fin 2) :
    val_main_v16 (F := Ideal) x2 x5 (ix2 j k) = x2 (ix3 0 (Cert.Spec.rowOf (x5 (ix2 0 j))) k) := by
  show Host.gather _ (val_main_v9 (F := Ideal) x2) (val_main_v7 (F := Ideal) x5) (ix2 j k) = _
  rw [rows_apply _ rfl rfl rfl rfl rfl _ x5 hvi j k, val_main_v9_apply]
  congr 1
  funext a
  have hr := (Cert.Spec.rowOf (x5 (ix2 0 j))).isLt
  have hk := k.isLt
  match a with
  | ⟨0, _⟩ => rfl
  | ⟨1, _⟩ =>
    apply Fin.ext
    show ((Cert.Spec.rowOf (x5 (ix2 0 j))).val * 2 + k.val) / 2 % 1000000 = (Cert.Spec.rowOf (x5 (ix2 0 j))).val
    omega
  | ⟨2, _⟩ =>
    apply Fin.ext
    show ((Cert.Spec.rowOf (x5 (ix2 0 j))).val * 2 + k.val) % 2 = k.val
    omega

/-- The gathered predictions. -/
theorem v31_apply (x0 : (⟨S1x1000000x4, .f32⟩ : BufTy).Contents (Elt Ideal)) (x5 : (⟨S1x500000, .i32⟩ : BufTy).Contents (Elt Ideal)) (hvi : Cert.Spec.InRange x5) (j : Fin 500000) (k : Fin 4) :
    val_main_v31 (F := Ideal) x0 x5 (ix2 j k) = x0 (ix3 0 (Cert.Spec.rowOf (x5 (ix2 0 j))) k) := by
  show Host.gather _ (val_main_v24 (F := Ideal) x0) (val_main_v7 (F := Ideal) x5) (ix2 j k) = _
  rw [rows_apply _ rfl rfl rfl rfl rfl _ x5 hvi j k, val_main_v24_apply]
  congr 1
  funext a
  have hr := (Cert.Spec.rowOf (x5 (ix2 0 j))).isLt
  have hk := k.isLt
  match a with
  | ⟨0, _⟩ => rfl
  | ⟨1, _⟩ =>
    apply Fin.ext
    show ((Cert.Spec.rowOf (x5 (ix2 0 j))).val * 4 + k.val) / 4 % 1000000 = (Cert.Spec.rowOf (x5 (ix2 0 j))).val
    omega
  | ⟨2, _⟩ =>
    apply Fin.ext
    show ((Cert.Spec.rowOf (x5 (ix2 0 j))).val * 4 + k.val) % 4 = k.val
    omega

/-- The gathered uncertainties. -/
theorem v39_apply (x1 : (⟨S1x1000000x4, .f32⟩ : BufTy).Contents (Elt Ideal)) (x5 : (⟨S1x500000, .i32⟩ : BufTy).Contents (Elt Ideal)) (hvi : Cert.Spec.InRange x5) (j : Fin 500000) (k : Fin 4) :
    val_main_v39 (F := Ideal) x1 x5 (ix2 j k) = x1 (ix3 0 (Cert.Spec.rowOf (x5 (ix2 0 j))) k) := by
  show Host.gather _ (val_main_v32 (F := Ideal) x1) (val_main_v7 (F := Ideal) x5) (ix2 j k) = _
  rw [rows_apply _ rfl rfl rfl rfl rfl _ x5 hvi j k, val_main_v32_apply]
  congr 1
  funext a
  have hr := (Cert.Spec.rowOf (x5 (ix2 0 j))).isLt
  have hk := k.isLt
  match a with
  | ⟨0, _⟩ => rfl
  | ⟨1, _⟩ =>
    apply Fin.ext
    show ((Cert.Spec.rowOf (x5 (ix2 0 j))).val * 4 + k.val) / 4 % 1000000 = (Cert.Spec.rowOf (x5 (ix2 0 j))).val
    omega
  | ⟨2, _⟩ =>
    apply Fin.ext
    show ((Cert.Spec.rowOf (x5 (ix2 0 j))).val * 4 + k.val) % 4 = k.val
    omega

/-- The gathered ground truth. -/
theorem v47_apply (x3 : (⟨S1x1000000x4, .f32⟩ : BufTy).Contents (Elt Ideal)) (x5 : (⟨S1x500000, .i32⟩ : BufTy).Contents (Elt Ideal)) (hvi : Cert.Spec.InRange x5) (j : Fin 500000) (k : Fin 4) :
    val_main_v47 (F := Ideal) x3 x5 (ix2 j k) = x3 (ix3 0 (Cert.Spec.rowOf (x5 (ix2 0 j))) k) := by
  show Host.gather _ (val_main_v40 (F := Ideal) x3) (val_main_v7 (F := Ideal) x5) (ix2 j k) = _
  rw [rows_apply _ rfl rfl rfl rfl rfl _ x5 hvi j k, val_main_v40_apply]
  congr 1
  funext a
  have hr := (Cert.Spec.rowOf (x5 (ix2 0 j))).isLt
  have hk := k.isLt
  match a with
  | ⟨0, _⟩ => rfl
  | ⟨1, _⟩ =>
    apply Fin.ext
    show ((Cert.Spec.rowOf (x5 (ix2 0 j))).val * 4 + k.val) / 4 % 1000000 = (Cert.Spec.rowOf (x5 (ix2 0 j))).val
    omega
  | ⟨2, _⟩ =>
    apply Fin.ext
    show ((Cert.Spec.rowOf (x5 (ix2 0 j))).val * 4 + k.val) % 4 = k.val
    omega

end Cert.ReferenceIdeal.RefGather

end
-- ==== Proof.RefCls.lean ====
/-
  The reference's classification sum: the log-softmax of each selected row's two logits, the entry of the row's
  own class taken along the class axis (labels 0 or 1, so the take is in range and no fill is read), summed over
  the selections from zero.
-/
import proofs.«423612_j88716844466682_2_alg».proof.Proof.RefGather
import Idealize.ShloMosaic.PureOps.Ideal.Laws
import Idealize.ShloMosaic.PureOps.Reduce
import Idealize.ShloMosaic.Lib.ValueIdxRank1

noncomputable section

namespace Cert.ReferenceIdeal.RefCls

open Idealize.ShloMosaic Idealize.ShloMosaic.TcCoe Idealize.ShloMosaic.ValueIdx
open Cert.ReferenceIdeal Cert.ReferenceIdeal.Read

/-! ## Small facts -/

/-- A fold over the two-element range, spelt out. -/
theorem fold_two {α : Type} (op : α → α → α) [Std.Commutative op] [Std.Associative op] (b : α) (f : Fin 2 → α) :
    (Finset.univ : Finset (Fin 2)).fold op b f = op (f 0) (op (f 1) b) := by
  rw [show (Finset.univ : Finset (Fin 2)) = insert 0 {1} by decide, Finset.fold_insert (by decide), Finset.fold_singleton]

/-- The word 0xFF800000 is minus infinity, the bottom of the extended reals. -/
theorem ofBits_ninf : Ideal.ofBits .f32 0xFF800000#32 = ⊥ := by simp [Ideal.ofBits, Ideal.ieee]

/-- Over entry `j` of the selections, coordinate `k` of the class axis is the entry `(j, k)`. -/
theorem lift_ix (hR : S500000x2.Reduces [(1 : Fin S500000x2.rank)] S500000) (j : Fin 500000) (k : Fin (S500000x2.size 1)) :
    hR.lift (ix1 j) k = ix2 j ⟨k.val, k.isLt⟩ := by
  funext c
  apply Fin.ext
  rw [Shape.Reduces.lift_val]
  match c with
  | ⟨0, _⟩ => simp [Shape.Reduces.liftVal]
  | ⟨1, _⟩ => simp [Shape.Reduces.liftVal]

/-! ## The indices the layout operations read at -/

theorem idx_col (j : Fin 500000) (k : Fin 2) : idx_main_call0_v4 (ix2 j k) = ix2 j 0 := by
  funext a; match a with | ⟨0, _⟩ => rfl | ⟨1, _⟩ => rfl
theorem idx_col' (j : Fin 500000) (k : Fin 2) : idx_main_call0_v10 (ix2 j k) = ix2 j 0 := by
  funext a; match a with | ⟨0, _⟩ => rfl | ⟨1, _⟩ => rfl
theorem idx_vec (j : Fin 500000) : idx_main_call0_v3 (ix2 j 0) = ix1 j := by
  funext a; match a with | ⟨0, _⟩ => rfl
theorem idx_vec' (j : Fin 500000) : idx_main_call0_v8 (ix2 j 0) = ix1 j := by
  funext a; match a with | ⟨0, _⟩ => rfl
theorem idx_sum (j : Fin 500000) (k : Fin 2) : idx_main_call0_v7 (ix1 j) k = ix2 j k := by
  funext a; match a with | ⟨0, _⟩ => rfl | ⟨1, _⟩ => rfl

/-! ## The log-softmax of the gathered logits -/

section LogSoftmax

variable (x2 : (⟨S1x1000000x2, .f32⟩ : BufTy).Contents (Elt Ideal)) (x5 : (⟨S1x500000, .i32⟩ : BufTy).Contents (Elt Ideal))

/-- The two gathered logits of selection `j`. -/
def logits (j : Fin 500000) : Fin 2 → EReal := fun k => val_main_v16 (F := Ideal) x2 x5 (ix2 j k)

/-- The row maximum: the fold of `max` from minus infinity over the two columns. -/
theorem call0_v0_apply (j : Fin 500000) :
    val_main_call0_v0 (F := Ideal) x2 x5 (ix1 j) = Cert.Spec.rowMax (logits x2 x5 j) := by
  unfold val_main_call0_v0 Cert.Spec.rowMax logits
  generalize val_main_v16 (F := Ideal) x2 x5 = y
  have hR : S500000x2.Reduces [(1 : Fin S500000x2.rank)] S500000 := by decide
  rw [Host.reduce_eq_fold_single _ y _ _ hR _ (ix1 j)]
  have hf : (y ∘ hR.lift (ix1 j)) = fun k : Fin (S500000x2.size 1) => y (ix2 j ⟨k.val, k.isLt⟩) :=
    funext fun k => congrArg y (lift_ix hR j k)
  rw [hf]
  refine (fold_two _ _ _).trans ?_
  show max (y (ix2 j 0)) (max (y (ix2 j 1)) (Ideal.ofBits .f32 0xFF800000#32)) = _
  rw [ofBits_ninf, max_bot_right]

/-- The maximum with the splat of minus infinity changes nothing. -/
theorem call0_v2_apply (j : Fin 500000) :
    val_main_call0_v2 (F := Ideal) x2 x5 (ix1 j) = Cert.Spec.rowMax (logits x2 x5 j) := by
  rw [val_main_call0_v2_apply, val_main_call0_v1_apply, val_main_call0_cst_0_apply, call0_v0_apply]
  show max (Ideal.ofBits .f32 0xFF800000#32) _ = _
  rw [ofBits_ninf, max_bot_left]

/-- The shifted logits. -/
theorem call0_v5_apply (j : Fin 500000) (k : Fin 2) :
    val_main_call0_v5 (F := Ideal) x2 x5 (ix2 j k) = logits x2 x5 j k - Cert.Spec.rowMax (logits x2 x5 j) := by
  rw [val_main_call0_v5_apply, val_main_call0_v4_apply, idx_col, val_main_call0_v3_apply, idx_vec, call0_v2_apply]
  rfl

/-- The row sum of the exponentials. -/
theorem call0_v7_apply (j : Fin 500000) :
    val_main_call0_v7 (F := Ideal) x2 x5 (ix1 j)
      = Ideal.exp (logits x2 x5 j 0 - Cert.Spec.rowMax (logits x2 x5 j)) + Ideal.exp (logits x2 x5 j 1 - Cert.Spec.rowMax (logits x2 x5 j)) := by
  rw [val_main_call0_v7_apply, Fin.sum_univ_two, idx_sum, idx_sum, val_main_call0_v6_apply, val_main_call0_v6_apply,
    call0_v5_apply, call0_v5_apply, val_main_call0_cst_1_apply]
  show Ideal.ofBits .f32 0x00000000#32 + _ = _
  rw [Ideal.ofBits_zero_f32, zero_add]
  rfl

/-- Entry `(j, k)` of the log-softmax. -/
theorem v17_apply (j : Fin 500000) (k : Fin 2) :
    val_main_v17 (F := Ideal) x2 x5 (ix2 j k) = Cert.Spec.lsm (logits x2 x5 j) k := by
  rw [val_main_v17_apply, val_main_call0_v10_apply, idx_col', val_main_call0_v9_apply, val_main_call0_v8_apply, idx_vec',
    call0_v7_apply, call0_v5_apply]
  rfl

end LogSoftmax

/-! ## The take along the class axis -/

theorem idx_lab (j : Fin 500000) : idx_main_v18 (ix2 j 0) = ix1 j := by
  funext a; match a with | ⟨0, _⟩ => rfl
theorem idx_out (j : Fin 500000) : idx_main_v20 (ix1 j) = ix2 j 0 := by
  funext a; match a with
  | ⟨0, _⟩ => exact Fin.ext (by show j.val / 1 = j.val; omega)
  | ⟨1, _⟩ => rfl
theorem idx_cube (j : Fin 500000) : idx_main_call1_v5 (ix3 j 0 0) = ix2 j 0 := by
  funext a; match a with
  | ⟨0, _⟩ => exact Fin.ext (by show ((j.val * 1 + 0) * 1 + 0) / 1 = j.val; omega)
  | ⟨1, _⟩ => rfl

/-- A fold over the one-element range, spelt out. -/
theorem fold_one {α : Type} (op : α → α → α) [Std.Commutative op] [Std.Associative op] (b : α) (f : Fin 1 → α) :
    (Finset.univ : Finset (Fin 1)).fold op b f = op (f 0) b := by
  rw [show (Finset.univ : Finset (Fin 1)) = {0} by decide, Finset.fold_singleton]

/-- Over entry `(j, 0)`, the one coordinate of the unit axis is the entry `(j, 0, 0)`. -/
theorem lift_cube (hR : S500000x1x1.Reduces [(2 : Fin S500000x1x1.rank)] S500000x1) (j : Fin 500000) (k : Fin (S500000x1x1.size 2)) :
    hR.lift (ix2 j 0) k = ix3 j 0 0 := by
  funext c
  apply Fin.ext
  rw [Shape.Reduces.lift_val]
  have hk : k.val = 0 := by have h1 : k.val < 1 := k.isLt; omega
  match c with
  | ⟨0, _⟩ => simp [Shape.Reduces.liftVal]
  | ⟨1, _⟩ => simp [Shape.Reduces.liftVal]
  | ⟨2, _⟩ => simp [Shape.Reduces.liftVal, hk]

section Take

variable (x2 : (⟨S1x1000000x2, .f32⟩ : BufTy).Contents (Elt Ideal)) (x4 : (⟨S1x1000000, .i32⟩ : BufTy).Contents (Elt Ideal))
  (x5 : (⟨S1x500000, .i32⟩ : BufTy).Contents (Elt Ideal))

/-- The gathered label of selection `j`. -/
def label (j : Fin 500000) : BitVec 32 := val_main_v8 (F := Ideal) x4 x5 (ix1 j)

/-- A label 0 or 1 is not negative, so the wrap by the axis length leaves it. -/
theorem call1_v4_apply (j : Fin 500000) (hl : label x4 x5 j = 0#32 ∨ label x4 x5 j = 1#32) :
    val_main_call1_v4 (F := Ideal) x4 x5 (ix2 j 0) = label x4 x5 j := by
  rw [val_main_call1_v4_apply, val_main_call1_v1_apply, val_main_call1_v3_apply, val_main_v18_apply, idx_lab,
    val_main_call1_v0_apply, val_main_call1_c_apply, val_main_call1_v2_apply, val_main_call1_c_0_apply]
  show Scalar.select (IntOp.cmpi .slt (label x4 x5 j) 0#32) (IntOp.addi (label x4 x5 j) 2#32) (label x4 x5 j) = label x4 x5 j
  rcases hl with h | h <;> rw [h] <;> decide

theorem call1_v5_apply (j : Fin 500000) (hl : label x4 x5 j = 0#32 ∨ label x4 x5 j = 1#32) :
    val_main_call1_v5 (F := Ideal) x4 x5 (ix3 j 0 0) = label x4 x5 j := by
  rw [val_main_call1_v5_apply, idx_cube, call1_v4_apply x4 x5 j hl]

/-- A label 0 or 1 is inside the class axis: the test 0 ≤ l ≤ 1 holds. -/
theorem call1_v11_apply (j : Fin 500000) (hl : label x4 x5 j = 0#32 ∨ label x4 x5 j = 1#32) :
    val_main_call1_v11 (F := Ideal) x4 x5 (ix3 j 0 0) = 1#1 := by
  rw [val_main_call1_v11_apply, val_main_call1_v7_apply, val_main_call1_v10_apply, call1_v5_apply x4 x5 j hl,
    val_main_call1_v6_apply, val_main_call1_c_2_apply, val_main_call1_v9_apply, val_main_call1_v8_apply, val_main_call1_c_1_apply]
  rcases hl with h | h <;> rw [h] <;> decide

theorem call1_v12_apply (j : Fin 500000) (hl : label x4 x5 j = 0#32 ∨ label x4 x5 j = 1#32) :
    val_main_call1_v12 (F := Ideal) x4 x5 (ix2 j 0) = 1#1 := by
  have h11 := call1_v11_apply x4 x5 j hl
  unfold val_main_call1_v12
  generalize val_main_call1_v11 (F := Ideal) x4 x5 = y at h11 ⊢
  have hR : S500000x1x1.Reduces [(2 : Fin S500000x1x1.rank)] S500000x1 := by decide
  rw [Host.reduce_eq_fold_single _ y _ _ hR _ (ix2 j 0)]
  have hf : (y ∘ hR.lift (ix2 j 0)) = fun _ : Fin (S500000x1x1.size 2) => y (ix3 j 0 0) :=
    funext fun k => congrArg y (lift_cube hR j k)
  rw [hf]
  refine (fold_one _ _ _).trans ?_
  show IntOp.andi (y (ix3 j 0 0)) 1#1 = 1#1
  rw [h11]; decide

/-! The gather along the class axis has the selection axis as a batching axis and the class axis collapsed and
    start-indexed: entry `(j, 0)` reads the operand at row `j` (the batching coordinate) and at the column the start
    index at `(j, 0, 0)` names, read signed and clamped into the two columns. -/

theorem take_si (j : Fin 500000) (c : Fin gather_S500000x2_S500000x1x1_S500000x1_n_1_0_0_1_2_11.startIndexMap.length) :
    gather_S500000x2_S500000x1x1_S500000x1_n_1_0_0_1_2_11.siIdx (ix2 j 0) c = ix3 j 0 0 := by
  funext b
  apply Fin.ext
  match b with
  | ⟨0, _⟩ => rfl
  | ⟨1, _⟩ => rfl
  | ⟨2, _⟩ => have h1 : c.val < 1 := c.isLt; show c.val = 0; omega

theorem take_idx0 (idx : IVec S500000x1x1 32) (j : Fin 500000) :
    (gather_S500000x2_S500000x1x1_S500000x1_n_1_0_0_1_2_11.operandIdx (ix2 j 0) idx ⟨0, by decide⟩).val = j.val := by
  have hs : gather_S500000x2_S500000x1x1_S500000x1_n_1_0_0_1_2_11.start (ix2 j 0) idx ⟨0, by decide⟩ = 0 := rfl
  have hb : gather_S500000x2_S500000x1x1_S500000x1_n_1_0_0_1_2_11.batchCoord (ix2 j 0) ⟨0, by decide⟩ = j.val := rfl
  have ho : gather_S500000x2_S500000x1x1_S500000x1_n_1_0_0_1_2_11.offCoord (ix2 j 0) ⟨0, by decide⟩ = 0 := rfl
  show _ + _ + _ = j.val
  rw [hs, hb, ho, Nat.zero_add, Nat.add_zero]

theorem take_idx1 (idx : IVec S500000x1x1 32) (j : Fin 500000) :
    (gather_S500000x2_S500000x1x1_S500000x1_n_1_0_0_1_2_11.operandIdx (ix2 j 0) idx ⟨1, by decide⟩).val
      = min (idx (ix3 j 0 0)).toInt.toNat 1 := by
  have hs : gather_S500000x2_S500000x1x1_S500000x1_n_1_0_0_1_2_11.start (ix2 j 0) idx ⟨1, by decide⟩
      = min (idx (gather_S500000x2_S500000x1x1_S500000x1_n_1_0_0_1_2_11.siIdx (ix2 j 0) ⟨0, by decide⟩)).toInt.toNat 1 := rfl
  have hb : gather_S500000x2_S500000x1x1_S500000x1_n_1_0_0_1_2_11.batchCoord (ix2 j 0) ⟨1, by decide⟩ = 0 := rfl
  have ho : gather_S500000x2_S500000x1x1_S500000x1_n_1_0_0_1_2_11.offCoord (ix2 j 0) ⟨1, by decide⟩ = 0 := rfl
  show _ + _ + _ = _
  rw [hs, hb, ho, Nat.add_zero, take_si]

/-- With the label 0 or 1 the clamp is idle: the gather reads the log-softmax of row `j` at the label's column. -/
theorem call1_v13_apply (j : Fin 500000) (hl : label x4 x5 j = 0#32 ∨ label x4 x5 j = 1#32) :
    val_main_call1_v13 (F := Ideal) x2 x4 x5 (ix2 j 0)
      = val_main_v17 (F := Ideal) x2 x5 (ix2 j (if label x4 x5 j = 1#32 then 1 else 0)) := by
  have h5 := call1_v5_apply x4 x5 j hl
  unfold val_main_call1_v13
  generalize val_main_call1_v5 (F := Ideal) x4 x5 = idx at h5 ⊢
  generalize val_main_v17 (F := Ideal) x2 x5 = y
  unfold Host.gather
  refine congrArg y ?_
  funext a
  apply Fin.ext
  match a with
  | ⟨0, _⟩ => exact take_idx0 idx j
  | ⟨1, _⟩ =>
    refine (take_idx1 idx j).trans ?_
    rw [h5]
    rcases hl with h | h <;> rw [h] <;> rfl

/-- Entry `j` of the taken log-probabilities: the in-bounds test holds, so the fill is not read. -/
theorem v20_apply (j : Fin 500000) (hl : label x4 x5 j = 0#32 ∨ label x4 x5 j = 1#32) :
    val_main_v20 (F := Ideal) x2 x4 x5 (ix1 j) = Cert.Spec.sel (logits x2 x5 j) (label x4 x5 j) := by
  rw [val_main_v20_apply, idx_out, val_main_v19_apply, call1_v12_apply x4 x5 j hl, call1_v13_apply x2 x4 x5 j hl, v17_apply]
  show (if (1#1 : BitVec 1) = 1 then _ else _) = _
  rw [if_pos (by decide : (1#1 : BitVec 1) = 1)]
  unfold Cert.Spec.sel
  by_cases h : label x4 x5 j = 1#32
  · rw [if_pos h, if_pos h]
  · rw [if_neg h, if_neg h]

end Take

/-- The classification sum: zero plus, over the selections, the log-probability of each selected row's own class. -/
theorem v21_eq (x0 x1 : (⟨S1x1000000x4, .f32⟩ : BufTy).Contents (Elt Ideal)) (x2 : (⟨S1x1000000x2, .f32⟩ : BufTy).Contents (Elt Ideal)) (x3 : (⟨S1x1000000x4, .f32⟩ : BufTy).Contents (Elt Ideal)) (x4 : (⟨S1x1000000, .i32⟩ : BufTy).Contents (Elt Ideal)) (x5 : (⟨S1x500000, .i32⟩ : BufTy).Contents (Elt Ideal))
    (hlab : Cert.Spec.Binary x4) (hvi : Cert.Spec.InRange x5) :
    val_main_v21 (F := Ideal) x2 x4 x5 = fun _ => Cert.Spec.ceR (Cert.Spec.dataOf x0 x1 x2 x3 x4 x5) := by
  funext i
  rw [val_main_v21_apply]
  unfold Cert.Spec.ceR
  refine congrArg₂ (· + ·) rfl ?_
  rw [← Equiv.sum_comp idxEquiv1.symm]
  refine Finset.sum_congr rfl fun j _ => ?_
  show val_main_v20 (F := Ideal) x2 x4 x5 (ix1 j) = _
  have hl : label x4 x5 j = 0#32 ∨ label x4 x5 j = 1#32 := by
    unfold label; rw [RefGather.v8_apply x4 x5 hvi j]; exact hlab _
  rw [v20_apply x2 x4 x5 j hl]
  refine congrArg₂ Cert.Spec.sel ?_ ?_
  · funext k; exact RefGather.v16_apply x2 x5 hvi j k
  · exact RefGather.v8_apply x4 x5 hvi j

end Cert.ReferenceIdeal.RefCls

end
-- ==== Proof.RefCnt.lean ====
/-
  The reference's two counts: the number of selections whose row is labelled 1, and the number whose row is not,
  each an integer sum of a widened indicator (no wrap: at most 500000 ones) converted to a float exactly.
-/
import proofs.«423612_j88716844466682_2_alg».proof.Proof.RefGather
import Idealize.ShloMosaic.Lib.IndicatorCount
import Idealize.ShloMosaic.Lib.ValueIdxRank1
import Idealize.ShloMosaic.PureOps.Reduce

noncomputable section

namespace Cert.ReferenceIdeal.RefCnt

open Idealize.ShloMosaic Idealize.ShloMosaic.TcCoe Idealize.ShloMosaic.ValueIdx
open Cert.ReferenceIdeal Cert.ReferenceIdeal.Read

/-! ## Counting -/

/-- A one-bit word is 0 or 1, so its complement is 1 exactly when it is not. -/
theorem not_eq_one_iff (b : BitVec 1) : ~~~b = 1#1 ↔ ¬ b = 1#1 := by
  have h : b = 0#1 ∨ b = 1#1 := by
    have hl := b.isLt
    rcases Nat.lt_or_ge b.toNat 1 with h | h
    · left; apply BitVec.eq_of_toNat_eq; show b.toNat = 0; omega
    · right; apply BitVec.eq_of_toNat_eq; show b.toNat = 1; omega
  rcases h with rfl | rfl <;> decide

/-- A count up to 500000 fits a signed 32-bit word: read back signed, it is the count. -/
theorem toInt_ofNat_small (n : ℕ) (hn : n ≤ 500000) : (BitVec.ofNat 32 n).toInt = (n : ℤ) := by
  have e := BitVec.toInt_eq_toNat_cond (BitVec.ofNat 32 n)
  have h : (BitVec.ofNat 32 n).toNat = n := by
    rw [BitVec.toNat_ofNat]; exact Nat.mod_eq_of_lt (by omega)
  rw [h] at e
  omega

/-- The members of a set of rank-1 indices are as many as their coordinates. -/
theorem card_idx1 {n : ℕ} (P : (⟨1, ![n]⟩ : Shape).Idx → Prop) [DecidablePred P] :
    (Finset.univ.filter P).card = (Finset.univ.filter fun j : Fin n => P (ix1 j)).card := by
  refine Finset.card_bij (fun k _ => idxEquiv1 k) ?_ ?_ ?_
  · intro k hk
    have hk2 : P k := (Finset.mem_filter.1 hk).2
    refine Finset.mem_filter.2 ⟨Finset.mem_univ _, ?_⟩
    exact (congrArg P (eq_ix1 k)).mp hk2
  · intro a _ b _ h
    exact idxEquiv1.injective h
  · intro j hj
    exact ⟨ix1 j, Finset.mem_filter.2 ⟨Finset.mem_univ _, (Finset.mem_filter.1 hj).2⟩, rfl⟩

/-- The count stage. A one-bit indicator over the 500000 selections, each bit widened to 32 bits, summed by integer
    addition from zero into the one-entry shape and converted to a float, is the number of selections whose bit is
    one: the sum is that number as a 32-bit word (a fold of 0/1 words counts the ones), the number is at most 500000,
    so it does not wrap and its signed reading is itself, and the conversion of an integer is exact. -/
theorem count_eq (p : S500000.Idx → BitVec 1) (init : S_.Idx → BitVec 32) (hinit : ∀ i, init i = 0#32)
    (h : S500000.ReducesTo [0] S_) (hu : 0 < S_.numel)
    (Q : Fin 500000 → Prop) [DecidablePred Q] (hp : ∀ j, p (ix1 j) = 1#1 ↔ Q j) (i : S_.Idx) :
    FloatOps.sitofp (F := Ideal) .f32 (Host.reduce IntOp.addi (fun k => (p k).setWidth 32) init h hu i)
      = Cert.Spec.natE (Finset.univ.filter Q).card := by
  have hall : (Finset.univ.filter fun k : S500000.Idx => h.drop k = i) = Finset.univ :=
    Finset.filter_true_of_mem fun _ _ => funext fun a => a.elim0
  have hcard : (Finset.univ.filter fun k : S500000.Idx => p k = 1#1).card = (Finset.univ.filter Q).card := by
    rw [card_idx1]
    exact congrArg Finset.card (Finset.filter_congr fun j _ => hp j)
  have hle : (Finset.univ.filter Q).card ≤ 500000 :=
    (Finset.card_filter_le _ _).trans (by rw [Finset.card_univ, Fintype.card_fin])
  rw [Host.reduce_eq_fold, hall, hinit, IndicatorCount.fold_addi_setWidth_eq_card p Finset.univ, hcard]
  show (((BitVec.ofNat 32 (Finset.univ.filter Q).card).toInt : ℝ) : EReal) = (((Finset.univ.filter Q).card : ℝ) : EReal)
  rw [toInt_ofNat_small _ hle, Int.cast_natCast]

/-! ## The two counts -/

/-- The indicator of a positive selection: the gathered label against the splat of 1. -/
theorem v65_iff (x4 : (⟨S1x1000000, .i32⟩ : BufTy).Contents (Elt Ideal)) (x5 : (⟨S1x500000, .i32⟩ : BufTy).Contents (Elt Ideal))
    (hvi : Cert.Spec.InRange x5) (j : Fin 500000) :
    val_main_v65 (F := Ideal) x4 x5 (ix1 j) = 1#1 ↔ x4 (ix2 0 (Cert.Spec.rowOf (x5 (ix2 0 j)))) = 1#32 := by
  rw [val_main_v65_apply, StableHlo.Predicate.cmpi_eq_iff, RefGather.v8_apply x4 x5 hvi j, val_main_v64_apply, val_main_c_16_apply]

theorem v68_eq (x0 x1 : (⟨S1x1000000x4, .f32⟩ : BufTy).Contents (Elt Ideal)) (x2 : (⟨S1x1000000x2, .f32⟩ : BufTy).Contents (Elt Ideal)) (x3 : (⟨S1x1000000x4, .f32⟩ : BufTy).Contents (Elt Ideal)) (x4 : (⟨S1x1000000, .i32⟩ : BufTy).Contents (Elt Ideal)) (x5 : (⟨S1x500000, .i32⟩ : BufTy).Contents (Elt Ideal))
    (hvi : Cert.Spec.InRange x5) :
    val_main_v68 (F := Ideal) x4 x5 = fun _ => Cert.Spec.pcR (Cert.Spec.dataOf x0 x1 x2 x3 x4 x5) := by
  funext i
  rw [val_main_v68_apply]
  exact count_eq (val_main_v65 (F := Ideal) x4 x5) (val_main_c_17 (F := Ideal)) (fun _ => rfl) _ _
    (fun j : Fin 500000 => x4 (ix2 0 (Cert.Spec.rowOf (x5 (ix2 0 j)))) = 1#32) (v65_iff x4 x5 hvi) i

theorem v72_eq (x0 x1 : (⟨S1x1000000x4, .f32⟩ : BufTy).Contents (Elt Ideal)) (x2 : (⟨S1x1000000x2, .f32⟩ : BufTy).Contents (Elt Ideal)) (x3 : (⟨S1x1000000x4, .f32⟩ : BufTy).Contents (Elt Ideal)) (x4 : (⟨S1x1000000, .i32⟩ : BufTy).Contents (Elt Ideal)) (x5 : (⟨S1x500000, .i32⟩ : BufTy).Contents (Elt Ideal))
    (hvi : Cert.Spec.InRange x5) :
    val_main_v72 (F := Ideal) x4 x5 = fun _ => Cert.Spec.ncR (Cert.Spec.dataOf x0 x1 x2 x3 x4 x5) := by
  funext i
  rw [val_main_v72_apply]
  exact count_eq (val_main_v69 (F := Ideal) x4 x5) (val_main_c_18 (F := Ideal)) (fun _ => rfl) _ _
    (fun j : Fin 500000 => ¬ x4 (ix2 0 (Cert.Spec.rowOf (x5 (ix2 0 j)))) = 1#32)
    (fun j => by rw [val_main_v69_apply, not_eq_one_iff, v65_iff x4 x5 hvi j]) i

end Cert.ReferenceIdeal.RefCnt

end
-- ==== Proof.RefReg.lean ====
/-
  The reference's two regression sums over the selections: the attenuated squared error of the positive rows and
  the inverse variances of the others, each a sum from zero of a row term or zero by the row's label.

  Entry by entry: at selection j, naming row r, coordinate k of the gathered tables is p r k, u r k, g r k, so the
  variance there is eps + u*u, the positive summand half*(d*d)/var + half*log var with d = p - g, and the negative
  summand 1/var. Summing the four coordinates from zero gives the row's posTerm / negTerm (zero + s = s, and
  half*(d*d) = (half*d)*d). The label test against the word 1 decides, per selection, between the row term and zero;
  the outer sum keeps its initial zero, and runs over the selections once the rank-1 index set is read as Fin 500000.
-/
import proofs.«423612_j88716844466682_2_alg».proof.Proof.RefGather
import Idealize.ShloMosaic.PureOps.Ideal.Laws
import Idealize.ShloMosaic.Lib.StableHlo.Predicate
import Idealize.ShloMosaic.Lib.ValueIdx
import Idealize.ShloMosaic.Lib.ValueIdxRank1
import Mathlib.Algebra.BigOperators.Group.Finset.Defs

noncomputable section

namespace Cert.ReferenceIdeal.RefReg

open Idealize.ShloMosaic Idealize.ShloMosaic.TcCoe Idealize.ShloMosaic.ValueIdx
open Cert.ReferenceIdeal Cert.ReferenceIdeal.Read

/-! ## Indices and bits -/

/-- Coordinate k of entry j, as the first coordinate sum's index family spells it. -/
theorem idx60 (j : Fin 500000) (k : Fin 4) : idx_main_v60 (ix1 j) k = ix2 j k := by
  funext a; match a with | ⟨0, _⟩ => rfl | ⟨1, _⟩ => rfl

/-- Coordinate k of entry j, as the second coordinate sum's index family spells it. -/
theorem idx63 (j : Fin 500000) (k : Fin 4) : idx_main_v63 (ix1 j) k = ix2 j k := by
  funext a; match a with | ⟨0, _⟩ => rfl | ⟨1, _⟩ => rfl

/-- A select on the bit of an equality test is the choice by the equality. -/
theorem select_cmpi_eq {α : Type} (a b : BitVec 32) (x y : α) :
    Scalar.select (IntOp.cmpi .eq a b) x y = if a = b then x else y := by
  by_cases h : a = b
  · rw [if_pos h, StableHlo.Predicate.cmpi_eq_iff.mpr h, select_one]
  · rw [if_neg h, eq_zero_of_ne_one (fun hc => h (StableHlo.Predicate.cmpi_eq_iff.mp hc)), select_zero]

/-! ## One coordinate of one selection -/

/-- The variance: the floor plus the squared uncertainty of the named row. -/
theorem v50_at (x1 : (⟨S1x1000000x4, .f32⟩ : BufTy).Contents (Elt Ideal)) (x5 : (⟨S1x500000, .i32⟩ : BufTy).Contents (Elt Ideal)) (hvi : Cert.Spec.InRange x5) (j : Fin 500000) (k : Fin 4) :
    val_main_v50 (F := Ideal) x1 x5 (ix2 j k) = Cert.Spec.var (x1 (ix3 0 (Cert.Spec.rowOf (x5 (ix2 0 j))) k)) := by
  rw [val_main_v50_apply, val_main_v49_apply, val_main_cst_10_apply, val_main_v48_apply,
    RefGather.v39_apply x1 x5 hvi j k]
  rfl

/-- The positive summand: half the squared error over the variance, plus half the variance's logarithm. -/
theorem v59_at (x0 x1 x3 : (⟨S1x1000000x4, .f32⟩ : BufTy).Contents (Elt Ideal)) (x5 : (⟨S1x500000, .i32⟩ : BufTy).Contents (Elt Ideal)) (hvi : Cert.Spec.InRange x5) (j : Fin 500000) (k : Fin 4) :
    val_main_v59 (F := Ideal) x0 x1 x3 x5 (ix2 j k)
      = Ideal.div ((Cert.Spec.half * (x0 (ix3 0 (Cert.Spec.rowOf (x5 (ix2 0 j))) k) - x3 (ix3 0 (Cert.Spec.rowOf (x5 (ix2 0 j))) k)))
            * (x0 (ix3 0 (Cert.Spec.rowOf (x5 (ix2 0 j))) k) - x3 (ix3 0 (Cert.Spec.rowOf (x5 (ix2 0 j))) k))) (Cert.Spec.var (x1 (ix3 0 (Cert.Spec.rowOf (x5 (ix2 0 j))) k)))
          + Cert.Spec.half * Ideal.log (Cert.Spec.var (x1 (ix3 0 (Cert.Spec.rowOf (x5 (ix2 0 j))) k))) := by
  rw [val_main_v59_apply, val_main_v55_apply, val_main_v54_apply, val_main_v53_apply, val_main_cst_11_apply,
    val_main_v52_apply, val_main_v51_apply, val_main_v58_apply, val_main_v57_apply, val_main_cst_12_apply,
    val_main_v56_apply, RefGather.v31_apply x0 x5 hvi j k, RefGather.v47_apply x3 x5 hvi j k, v50_at x1 x5 hvi j k]
  simp only [Ideal.addf_def, Ideal.subf_def, Ideal.mulf_def, Ideal.hostDivf_def, Ideal.hostUnary_log_def, Ideal.ofBits_def]
  rw [← mul_assoc]
  rfl

/-- The negative summand: the inverse variance. -/
theorem v62_at (x1 : (⟨S1x1000000x4, .f32⟩ : BufTy).Contents (Elt Ideal)) (x5 : (⟨S1x500000, .i32⟩ : BufTy).Contents (Elt Ideal)) (hvi : Cert.Spec.InRange x5) (j : Fin 500000) (k : Fin 4) :
    val_main_v62 (F := Ideal) x1 x5 (ix2 j k) = Ideal.div Cert.Spec.one (Cert.Spec.var (x1 (ix3 0 (Cert.Spec.rowOf (x5 (ix2 0 j))) k))) := by
  rw [val_main_v62_apply, val_main_v61_apply, val_main_cst_14_apply, v50_at x1 x5 hvi j k]
  rfl

/-! ## One selection -/

/-- The four positive summands from zero are the named row's attenuated squared error. -/
theorem v60_at (x0 x1 x3 : (⟨S1x1000000x4, .f32⟩ : BufTy).Contents (Elt Ideal)) (x5 : (⟨S1x500000, .i32⟩ : BufTy).Contents (Elt Ideal)) (hvi : Cert.Spec.InRange x5) (j : Fin 500000) :
    val_main_v60 (F := Ideal) x0 x1 x3 x5 (ix1 j)
      = Cert.Spec.posTerm (fun k => x0 (ix3 0 (Cert.Spec.rowOf (x5 (ix2 0 j))) k)) (fun k => x1 (ix3 0 (Cert.Spec.rowOf (x5 (ix2 0 j))) k)) (fun k => x3 (ix3 0 (Cert.Spec.rowOf (x5 (ix2 0 j))) k)) := by
  rw [val_main_v60_apply, val_main_cst_13_apply, Ideal.ofBits_def, Ideal.ofBits_zero_f32, zero_add]
  unfold Cert.Spec.posTerm
  exact Finset.sum_congr rfl fun k _ => by rw [idx60, v59_at x0 x1 x3 x5 hvi j k]

/-- The four negative summands from zero are the named row's summed inverse variances. -/
theorem v63_at (x1 : (⟨S1x1000000x4, .f32⟩ : BufTy).Contents (Elt Ideal)) (x5 : (⟨S1x500000, .i32⟩ : BufTy).Contents (Elt Ideal)) (hvi : Cert.Spec.InRange x5) (j : Fin 500000) :
    val_main_v63 (F := Ideal) x1 x5 (ix1 j) = Cert.Spec.negTerm (fun k => x1 (ix3 0 (Cert.Spec.rowOf (x5 (ix2 0 j))) k)) := by
  rw [val_main_v63_apply, val_main_cst_15_apply, Ideal.ofBits_def, Ideal.ofBits_zero_f32, zero_add]
  unfold Cert.Spec.negTerm
  exact Finset.sum_congr rfl fun k _ => by rw [idx63, v62_at x1 x5 hvi j k]

/-- The label test: the named row's label against the word 1. -/
theorem v65_at (x4 : (⟨S1x1000000, .i32⟩ : BufTy).Contents (Elt Ideal)) (x5 : (⟨S1x500000, .i32⟩ : BufTy).Contents (Elt Ideal)) (hvi : Cert.Spec.InRange x5) (j : Fin 500000) :
    val_main_v65 (F := Ideal) x4 x5 (ix1 j) = IntOp.cmpi .eq (x4 (ix2 0 (Cert.Spec.rowOf (x5 (ix2 0 j))))) 1#32 := by
  rw [val_main_v65_apply, RefGather.v8_apply x4 x5 hvi j, val_main_v64_apply, val_main_c_16_apply]

/-- The positive sum's entry: the row's attenuated squared error where the label is 1, zero elsewhere. -/
theorem v73_at (x0 x1 : (⟨S1x1000000x4, .f32⟩ : BufTy).Contents (Elt Ideal)) (x2 : (⟨S1x1000000x2, .f32⟩ : BufTy).Contents (Elt Ideal)) (x3 : (⟨S1x1000000x4, .f32⟩ : BufTy).Contents (Elt Ideal)) (x4 : (⟨S1x1000000, .i32⟩ : BufTy).Contents (Elt Ideal)) (x5 : (⟨S1x500000, .i32⟩ : BufTy).Contents (Elt Ideal)) (hvi : Cert.Spec.InRange x5) (j : Fin 500000) :
    val_main_v73 (F := Ideal) x0 x1 x3 x4 x5 (ix1 j)
      = if (Cert.Spec.dataOf x0 x1 x2 x3 x4 x5).lab (Cert.Spec.row (Cert.Spec.dataOf x0 x1 x2 x3 x4 x5) j) = 1#32
        then Cert.Spec.posTerm ((Cert.Spec.dataOf x0 x1 x2 x3 x4 x5).p (Cert.Spec.row (Cert.Spec.dataOf x0 x1 x2 x3 x4 x5) j)) ((Cert.Spec.dataOf x0 x1 x2 x3 x4 x5).u (Cert.Spec.row (Cert.Spec.dataOf x0 x1 x2 x3 x4 x5) j)) ((Cert.Spec.dataOf x0 x1 x2 x3 x4 x5).g (Cert.Spec.row (Cert.Spec.dataOf x0 x1 x2 x3 x4 x5) j))
        else Cert.Spec.zero := by
  rw [val_main_v73_apply, v65_at x4 x5 hvi j, v60_at x0 x1 x3 x5 hvi j, val_main_call2_v1_apply, val_main_call2_v0_apply,
    val_main_cst_19_apply, select_cmpi_eq]
  rfl

/-- The negative sum's entry: zero where the label is 1, the row's summed inverse variances elsewhere. -/
theorem v75_at (x0 x1 : (⟨S1x1000000x4, .f32⟩ : BufTy).Contents (Elt Ideal)) (x2 : (⟨S1x1000000x2, .f32⟩ : BufTy).Contents (Elt Ideal)) (x3 : (⟨S1x1000000x4, .f32⟩ : BufTy).Contents (Elt Ideal)) (x4 : (⟨S1x1000000, .i32⟩ : BufTy).Contents (Elt Ideal)) (x5 : (⟨S1x500000, .i32⟩ : BufTy).Contents (Elt Ideal)) (hvi : Cert.Spec.InRange x5) (j : Fin 500000) :
    val_main_v75 (F := Ideal) x1 x4 x5 (ix1 j)
      = if (Cert.Spec.dataOf x0 x1 x2 x3 x4 x5).lab (Cert.Spec.row (Cert.Spec.dataOf x0 x1 x2 x3 x4 x5) j) = 1#32
        then Cert.Spec.zero
        else Cert.Spec.negTerm ((Cert.Spec.dataOf x0 x1 x2 x3 x4 x5).u (Cert.Spec.row (Cert.Spec.dataOf x0 x1 x2 x3 x4 x5) j)) := by
  rw [val_main_v75_apply, v65_at x4 x5 hvi j, v63_at x1 x5 hvi j, val_main_call3_v1_apply, val_main_call3_v0_apply,
    val_main_cst_21_apply, select_cmpi_eq]
  rfl

/-! ## The two sums -/

theorem v74_eq (x0 x1 : (⟨S1x1000000x4, .f32⟩ : BufTy).Contents (Elt Ideal)) (x2 : (⟨S1x1000000x2, .f32⟩ : BufTy).Contents (Elt Ideal)) (x3 : (⟨S1x1000000x4, .f32⟩ : BufTy).Contents (Elt Ideal)) (x4 : (⟨S1x1000000, .i32⟩ : BufTy).Contents (Elt Ideal)) (x5 : (⟨S1x500000, .i32⟩ : BufTy).Contents (Elt Ideal))
    (hvi : Cert.Spec.InRange x5) :
    val_main_v74 (F := Ideal) x0 x1 x3 x4 x5 = fun _ => Cert.Spec.plR (Cert.Spec.dataOf x0 x1 x2 x3 x4 x5) := by
  funext i
  rw [val_main_v74_apply, val_main_cst_20_apply, ← Equiv.sum_comp idxEquiv1.symm]
  exact congrArg (_ + ·) (Finset.sum_congr rfl fun j _ => v73_at x0 x1 x2 x3 x4 x5 hvi j)

theorem v76_eq (x0 x1 : (⟨S1x1000000x4, .f32⟩ : BufTy).Contents (Elt Ideal)) (x2 : (⟨S1x1000000x2, .f32⟩ : BufTy).Contents (Elt Ideal)) (x3 : (⟨S1x1000000x4, .f32⟩ : BufTy).Contents (Elt Ideal)) (x4 : (⟨S1x1000000, .i32⟩ : BufTy).Contents (Elt Ideal)) (x5 : (⟨S1x500000, .i32⟩ : BufTy).Contents (Elt Ideal))
    (hvi : Cert.Spec.InRange x5) :
    val_main_v76 (F := Ideal) x1 x4 x5 = fun _ => Cert.Spec.nlR (Cert.Spec.dataOf x0 x1 x2 x3 x4 x5) := by
  funext i
  rw [val_main_v76_apply, val_main_cst_22_apply, ← Equiv.sum_comp idxEquiv1.symm]
  exact congrArg (_ + ·) (Finset.sum_congr rfl fun j _ => v75_at x0 x1 x2 x3 x4 x5 hvi j)

end Cert.ReferenceIdeal.RefReg

end
-- ==== Proof.RefValue.lean ====
/-
  The reference's result: minus the mean of the classification sum, plus the regression part, which is zero when
  either count is zero and the two quotients otherwise.
-/
import proofs.«423612_j88716844466682_2_alg».proof.Proof.RefCls
import proofs.«423612_j88716844466682_2_alg».proof.Proof.RefCnt
import proofs.«423612_j88716844466682_2_alg».proof.Proof.RefReg

noncomputable section

namespace Cert.ReferenceIdeal.RefValue

open Idealize.ShloMosaic Idealize.ShloMosaic.TcCoe Idealize.ShloMosaic.ValueIdx
open Cert.ReferenceIdeal Cert.ReferenceIdeal.Read

theorem val_eq (x0 x1 : (⟨S1x1000000x4, .f32⟩ : BufTy).Contents (Elt Ideal)) (x2 : (⟨S1x1000000x2, .f32⟩ : BufTy).Contents (Elt Ideal)) (x3 : (⟨S1x1000000x4, .f32⟩ : BufTy).Contents (Elt Ideal)) (x4 : (⟨S1x1000000, .i32⟩ : BufTy).Contents (Elt Ideal)) (x5 : (⟨S1x500000, .i32⟩ : BufTy).Contents (Elt Ideal))
    (hlab : Cert.Spec.Binary x4) (hvi : Cert.Spec.InRange x5) :
    val_main_v86 (F := Ideal) x0 x1 x2 x3 x4 x5 = fun _ => Cert.Spec.refOut (Cert.Spec.dataOf x0 x1 x2 x3 x4 x5) := by
  funext i
  -- the scalar tail, one operation at a time
  rw [val_main_v86_apply, val_main_v23_apply, val_main_v22_apply, val_main_v85_apply, val_main_v84_apply,
    val_main_v81_apply, val_main_v83_apply, val_main_v79_apply, val_main_v77_apply, val_main_v78_apply,
    val_main_v80_apply, val_main_v82_apply]
  -- the five sums
  rw [RefCls.v21_eq x0 x1 x2 x3 x4 x5 hlab hvi, RefCnt.v68_eq x0 x1 x2 x3 x4 x5 hvi,
    RefCnt.v72_eq x0 x1 x2 x3 x4 x5 hvi, RefReg.v74_eq x0 x1 x2 x3 x4 x5 hvi, RefReg.v76_eq x0 x1 x2 x3 x4 x5 hvi]
  rfl

end Cert.ReferenceIdeal.RefValue

end
-- ==== Proof.lean ====
/-
  The certificate's claims, assembled.

  The kernel walks all 1000000 anchor rows once, each row weighted by the number of times the selection list names
  it (a scatter-add of ones); the reference gathers the 500000 selected rows and sums over them. Under the
  precondition — finite tables, labels 0 or 1, selection words inside the table — both programs end at the same
  extended real: the kernel's run is read as the count-weighted sum (KHost), the reference's run as the sum over the
  selections (RefValue), and the two sums agree because a sum over the selections of a function of the selected
  row is the sum over all rows of that function times the row's count (Bridge). The three frames are the generated
  frame runs (the reference's its run with the result dropped); the idealization rewrote nothing.
-/
import proofs.«423612_j88716844466682_2_alg».proof.Defs
import proofs.«423612_j88716844466682_2_alg».proof.Proof.Gen.Kernel
import proofs.«423612_j88716844466682_2_alg».proof.Proof.Gen.Kernel.Frame
import proofs.«423612_j88716844466682_2_alg».proof.Proof.Gen.KernelIdeal
import proofs.«423612_j88716844466682_2_alg».proof.Proof.Gen.KernelIdeal.Frame
import proofs.«423612_j88716844466682_2_alg».proof.Proof.Gen.ReferenceIdeal
import proofs.«423612_j88716844466682_2_alg».proof.Proof.Gen.Pre_finite_inputs
import proofs.«423612_j88716844466682_2_alg».proof.Proof.RefRead
import proofs.«423612_j88716844466682_2_alg».proof.Proof.KHost
import proofs.«423612_j88716844466682_2_alg».proof.Proof.Bridge
import proofs.«423612_j88716844466682_2_alg».proof.Proof.PreDecode
import proofs.«423612_j88716844466682_2_alg».proof.Proof.RefValue
import Idealize.ShloMosaic.Adequacy
import Idealize.ShloMosaic.Init

noncomputable section

namespace Cert.Proof

open Idealize.ShloMosaic Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at one extended real: the kernel's count-weighted sum over all rows is the reference's sum
    over the selections. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  haveI : Cert.Pre_finite_inputs.Facts := Cert.Pre_finite_inputs.Gen.facts
  have hdec := fun c : Dev Cert.KernelIdeal.nD =>
    Cert.PreDecode.decode (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (hpre c)
  refine ⟨fun c => fun _ => Cert.Spec.kernelOut (Cert.Spec.dataOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    Cert.KernelIdeal.KValue.run m ρ (fun c => (hdec c).2.2.2.2.2), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hdec c
  rw [Cert.ReferenceIdeal.Read.val_main_v86_eq, (hagree c).1, (hagree c).2.1, (hagree c).2.2.1, (hagree c).2.2.2.1,
    (hagree c).2.2.2.2.1, (hagree c).2.2.2.2.2]
  rw [Cert.ReferenceIdeal.RefValue.val_eq _ _ _ _ _ _ h4 h5]
  funext _
  exact (Cert.Spec.bridge _ (fun i k => h0 (ix3 0 i k)) (fun i k => h1 (ix3 0 i k)) (fun i k => h3 (ix3 0 i k))
    (fun i k => h2 (ix3 0 i k))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
